-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S64x1024 : Shape := ⟨2, ![64, 1024]⟩
abbrev S630x64 : Shape := ⟨2, ![630, 64]⟩
abbrev S31x64 : Shape := ⟨2, ![31, 64]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S630x64 : S_.BroadcastsInDim S630x64 (![] : Fin 0 → Fin S630x64.rank)
  reducesTo_S630x64_S_d0_1 : S630x64.ReducesTo [0, 1] S_
  bcast_S_S31x64 : S_.BroadcastsInDim S31x64 (![] : Fin 0 → Fin S31x64.rank)
  reducesTo_S31x64_S_d0_1 : S31x64.ReducesTo [0, 1] S_

variable [Facts]

def fn_part1 {F : FTy → Type} [FloatOps F] (main_arg4 : FVec F S31x64 .f32) (main_v13 : IVec S_ 1) (main_v16 : IVec S630x64 1) : IVec S_ 1 :=
  let main_c_5 : IVec S_ 1 := constantI S_ 1 1#1
  let main_v17 : IVec S_ 1 := (fun x v => Host.reduce IntOp.andi x v reducesTo_S630x64_S_d0_1 h_S_) main_v16 main_c_5
  let main_v18 : IVec S_ 1 := andi main_v13 main_v17
  let main_v19 : FVec F S31x64 .f32 := Host.absf main_arg4
  let main_cst_6 : FVec F S_ .f32 := constant S_ .f32 0x7F800000#32
  let main_v20 : FVec F S31x64 .f32 := broadcastInDim S31x64 ![] bcast_S_S31x64 main_cst_6
  let main_v21 : IVec S31x64 1 := cmpf .olt main_v19 main_v20
  let main_c_7 : IVec S_ 1 := constantI S_ 1 1#1
  let main_v22 : IVec S_ 1 := (fun x v => Host.reduce IntOp.andi x v reducesTo_S31x64_S_d0_1 h_S_) main_v21 main_c_7
  let main_v23 : IVec S_ 1 := andi main_v18 main_v22
  main_v23

def fn {F : FTy → Type} [FloatOps F] (main_arg0 : FVec F S65536x1024 .f32) (main_arg1 : FVec F S64x1024 .f32) (main_arg2 : FVec F S630x64 .f32) (main_arg3 : FVec F S630x64 .f32) (main_arg4 : FVec F S31x64 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S630x64 .f32 := Host.absf main_arg2
  let main_cst_2 : FVec F S_ .f32 := constant S_ .f32 0x7F800000#32
  let main_v10 : FVec F S630x64 .f32 := broadcastInDim S630x64 ![] bcast_S_S630x64 main_cst_2
  let main_v11 : IVec S630x64 1 := cmpf .olt main_v9 main_v10
  let main_c_3 : IVec S_ 1 := constantI S_ 1 1#1
  let main_v12 : IVec S_ 1 := (fun x v => Host.reduce IntOp.andi x v reducesTo_S630x64_S_d0_1 h_S_) main_v11 main_c_3
  let main_v13 : IVec S_ 1 := andi main_v8 main_v12
  let main_v14 : FVec F S630x64 .f32 := Host.absf main_arg3
  let main_cst_4 : FVec F S_ .f32 := constant S_ .f32 0x7F800000#32
  let main_v15 : FVec F S630x64 .f32 := broadcastInDim S630x64 ![] bcast_S_S630x64 main_cst_4
  let main_v16 : IVec S630x64 1 := cmpf .olt main_v14 main_v15
  fn_part1 (F := F) main_arg4 main_v13 main_v16
-- ==== Kernel.lean ====
abbrev S65536x1024 : Shape := ⟨2, ![65536, 1024]⟩
abbrev S64x1024 : Shape := ⟨2, ![64, 1024]⟩
abbrev S630x64 : Shape := ⟨2, ![630, 64]⟩
abbrev S31x64 : Shape := ⟨2, ![31, 64]⟩
abbrev S63x10x64 : Shape := ⟨3, ![63, 10, 64]⟩
abbrev S10x63x64 : Shape := ⟨3, ![10, 63, 64]⟩
abbrev S10x65536 : Shape := ⟨2, ![10, 65536]⟩
abbrev S2048x1024 : Shape := ⟨2, ![2048, 1024]⟩
abbrev S10x2048 : Shape := ⟨2, ![10, 2048]⟩
abbrev S64x2048 : Shape := ⟨2, ![64, 2048]⟩
abbrev S31x2048 : Shape := ⟨2, ![31, 2048]⟩
abbrev S1x2048 : Shape := ⟨2, ![1, 2048]⟩
abbrev S1x1x2048 : Shape := ⟨3, ![1, 1, 2048]⟩
abbrev S1x2x2048 : Shape := ⟨3, ![1, 2, 2048]⟩
abbrev S2x2048 : Shape := ⟨2, ![2, 2048]⟩
abbrev S2x1x2048 : Shape := ⟨3, ![2, 1, 2048]⟩
abbrev S2x2x2048 : Shape := ⟨3, ![2, 2, 2048]⟩
abbrev S4x2048 : Shape := ⟨2, ![4, 2048]⟩
abbrev S4x1x2048 : Shape := ⟨3, ![4, 1, 2048]⟩
abbrev S4x2x2048 : Shape := ⟨3, ![4, 2, 2048]⟩
abbrev S8x2048 : Shape := ⟨2, ![8, 2048]⟩
abbrev S8x1x2048 : Shape := ⟨3, ![8, 1, 2048]⟩
abbrev S8x2x2048 : Shape := ⟨3, ![8, 2, 2048]⟩
abbrev S16x2048 : Shape := ⟨2, ![16, 2048]⟩
abbrev S16x1x2048 : Shape := ⟨3, ![16, 1, 2048]⟩
abbrev S16x2x2048 : Shape := ⟨3, ![16, 2, 2048]⟩
abbrev S32x2048 : Shape := ⟨2, ![32, 2048]⟩
abbrev S63x2048 : Shape := ⟨2, ![63, 2048]⟩
abbrev S63x64 : Shape := ⟨2, ![63, 64]⟩
abbrev S2048 : Shape := ⟨1, ![2048]⟩

abbrev nBuf : Space → Nat
  | .hbm => 12
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S64x1024, .f32⟩
  | .hbm, ⟨2, _⟩ => ⟨S630x64, .f32⟩
  | .hbm, ⟨3, _⟩ => ⟨S630x64, .f32⟩
  | .hbm, ⟨4, _⟩ => ⟨S31x64, .f32⟩
  | .hbm, ⟨5, _⟩ => ⟨S63x10x64, .f32⟩
  | .hbm, ⟨6, _⟩ => ⟨S10x63x64, .f32⟩
  | .hbm, ⟨7, _⟩ => ⟨S630x64, .f32⟩
  | .hbm, ⟨8, _⟩ => ⟨S63x10x64, .f32⟩
  | .hbm, ⟨9, _⟩ => ⟨S10x63x64, .f32⟩
  | .hbm, ⟨10, _⟩ => ⟨S630x64, .f32⟩
  | .hbm, ⟨11, _⟩ => ⟨S10x65536, .f32⟩
  | .local _ .vmem, ⟨0, _⟩ => ⟨S2048x1024, .f32⟩
  | .local _ .vmem, ⟨1, _⟩ => ⟨S2048x1024, .f32⟩
  | .local _ .vmem, ⟨2, _⟩ => ⟨S64x1024, .f32⟩
  | .local _ .vmem, ⟨3, _⟩ => ⟨S630x64, .f32⟩
  | .local _ .vmem, ⟨4, _⟩ => ⟨S630x64, .f32⟩
  | .local _ .vmem, ⟨5, _⟩ => ⟨S31x64, .f32⟩
  | .local _ .vmem, ⟨6, _⟩ => ⟨S10x2048, .f32⟩
  | .local _ .vmem, ⟨7, _⟩ => ⟨S10x2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S630x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S630x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S630x64_S63x10x64 : S630x64.ShapeCasts S63x10x64
  transposes_S63x10x64_S10x63x64_1_0_2 : S63x10x64.Transposes [1, 0, 2] S10x63x64
  shapeCasts_S10x63x64_S630x64 : S10x63x64.ShapeCasts S630x64
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S31x64_S31x64_0_0 : ∀ a, (![0, 0] : Fin 2 → Nat) a + S31x64.size a ≤ S31x64.size a
  h_S31x64 : 0 < S31x64.numel
  slices_S31x2048_o0_0_S1x2048 : S31x2048.Slices ![0, 0] S1x2048
  shapeCasts_S1x2048_S1x1x2048 : S1x2048.ShapeCasts S1x1x2048
  concatenates_S1x1x2048_S1x1x2048_S1x2x2048_d1 : Shape.Concatenates [S1x1x2048, S1x1x2048] S1x2x2048 1
  shapeCasts_S1x2x2048_S2x2048 : S1x2x2048.ShapeCasts S2x2048
  slices_S31x2048_o1_0_S2x2048 : S31x2048.Slices ![1, 0] S2x2048
  shapeCasts_S2x2048_S2x1x2048 : S2x2048.ShapeCasts S2x1x2048
  concatenates_S2x1x2048_S2x1x2048_S2x2x2048_d1 : Shape.Concatenates [S2x1x2048, S2x1x2048] S2x2x2048 1
  shapeCasts_S2x2x2048_S4x2048 : S2x2x2048.ShapeCasts S4x2048
  slices_S31x2048_o3_0_S4x2048 : S31x2048.Slices ![3, 0] S4x2048
  shapeCasts_S4x2048_S4x1x2048 : S4x2048.ShapeCasts S4x1x2048
  concatenates_S4x1x2048_S4x1x2048_S4x2x2048_d1 : Shape.Concatenates [S4x1x2048, S4x1x2048] S4x2x2048 1
  shapeCasts_S4x2x2048_S8x2048 : S4x2x2048.ShapeCasts S8x2048
  slices_S31x2048_o7_0_S8x2048 : S31x2048.Slices ![7, 0] S8x2048
  shapeCasts_S8x2048_S8x1x2048 : S8x2048.ShapeCasts S8x1x2048
  concatenates_S8x1x2048_S8x1x2048_S8x2x2048_d1 : Shape.Concatenates [S8x1x2048, S8x1x2048] S8x2x2048 1
  shapeCasts_S8x2x2048_S16x2048 : S8x2x2048.ShapeCasts S16x2048
  slices_S31x2048_o15_0_S16x2048 : S31x2048.Slices ![15, 0] S16x2048
  shapeCasts_S16x2048_S16x1x2048 : S16x2048.ShapeCasts S16x1x2048
  concatenates_S16x1x2048_S16x1x2048_S16x2x2048_d1 : Shape.Concatenates [S16x1x2048, S16x1x2048] S16x2x2048 1
  shapeCasts_S16x2x2048_S32x2048 : S16x2x2048.ShapeCasts S32x2048
  concatenates_S1x2048_S2x2048_S4x2048_S8x2048_S16x2048_S32x2048_S63x2048_d0 : Shape.Concatenates [S1x2048, S2x2048, S4x2048, S8x2048, S16x2048, S32x2048] S63x2048 0
  inb_S630x64_S630x64_0_0 : ∀ a, (![0, 0] : Fin 2 → Nat) a + S630x64.size a ≤ S630x64.size a
  h_S630x64 : 0 < S630x64.numel
  shapeCasts_S630x64_S630x64 : S630x64.ShapeCasts S630x64
  slices_S630x64_o0_0_S63x64 : S630x64.Slices ![0, 0] S63x64
  reduces_S63x2048_S2048 : S63x2048.Reduces [0] S2048
  shapeCasts_S2048_S1x2048 : S2048.ShapeCasts S1x2048
  slices_S630x64_o63_0_S63x64 : S630x64.Slices ![63, 0] S63x64
  slices_S630x64_o126_0_S63x64 : S630x64.Slices ![126, 0] S63x64
  slices_S630x64_o189_0_S63x64 : S630x64.Slices ![189, 0] S63x64
  slices_S630x64_o252_0_S63x64 : S630x64.Slices ![252, 0] S63x64
  slices_S630x64_o315_0_S63x64 : S630x64.Slices ![315, 0] S63x64
  slices_S630x64_o378_0_S63x64 : S630x64.Slices ![378, 0] S63x64
  slices_S630x64_o441_0_S63x64 : S630x64.Slices ![441, 0] S63x64
  slices_S630x64_o504_0_S63x64 : S630x64.Slices ![504, 0] S63x64
  slices_S630x64_o567_0_S63x64 : S630x64.Slices ![567, 0] S63x64
  concatenates_S1x2048_S1x2048_S1x2048_S1x2048_S1x2048_S1x2048_S1x2048_S1x2048_S1x2048_S1x2048_S10x2048_d0 : Shape.Concatenates [S1x2048, S1x2048, S1x2048, S1x2048, S1x2048, S1x2048, S1x2048, S1x2048, S1x2048, S1x2048] S10x2048 0
  inb_S10x2048_S10x2048_0_0 : ∀ a, (![0, 0] : Fin 2 → Nat) a + S10x2048.size a ≤ S10x2048.size a
  h_S10x2048 : 0 < S10x2048.numel
  dot_S64x1024_S2048x1024_S64x2048_1_1_0_0_n_n_wf : DotDims.WF S64x1024 S2048x1024 S64x2048 [1] [1] [0] [0] [] []
  dot_S31x64_S64x2048_S31x2048_1_0_0_1_n_n_wf : DotDims.WF S31x64 S64x2048 S31x2048 [1] [0] [0] [1] [] []
  dot_S63x64_S64x2048_S63x2048_1_0_0_1_n_n_wf : DotDims.WF S63x64 S64x2048 S63x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S630x64.size a ≤ S630x64.size a
  hwx0_2 : ∀ i : grid0.Coords, EltTy.bits .f32 = 32 ∨ (Rect.block (s := S630x64) S630x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S630x64.size a ≤ S630x64.size a
  hwx0_3 : ∀ i : grid0.Coords, EltTy.bits .f32 = 32 ∨ (Rect.block (s := S630x64) S630x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S31x64.size a ≤ S31x64.size a
  hwx0_4 : ∀ i : grid0.Coords, EltTy.bits .f32 = 32 ∨ (Rect.block (s := S31x64) S31x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10x2048.size a ≤ S10x65536.size a
  hwx0_5 : ∀ i : grid0.Coords, EltTy.bits .f32 = 32 ∨ (Rect.block (s := S10x65536) S10x2048.size (cc0_transform_5 i) (hinb0_5 i)).WholeWords (EltTy.packing .f32)

variable [Facts₀]

def dot_S64x1024_S2048x1024_S64x2048_1_1_0_0_n_n : DotDims S64x1024 S2048x1024 S64x2048 where
  lhsContracting := [1]
  rhsContracting := [1]
  lhsNonContracting := [0]
  rhsNonContracting := [0]
  lhsBatch := []
  rhsBatch := []
  wf := dot_S64x1024_S2048x1024_S64x2048_1_1_0_0_n_n_wf
def dot_S31x64_S64x2048_S31x2048_1_0_0_1_n_n : DotDims S31x64 S64x2048 S31x2048 where
  lhsContracting := [1]
  rhsContracting := [0]
  lhsNonContracting := [0]
  rhsNonContracting := [1]
  lhsBatch := []
  rhsBatch := []
  wf := dot_S31x64_S64x2048_S31x2048_1_0_0_1_n_n_wf
def dot_S63x64_S64x2048_S63x2048_1_0_0_1_n_n : DotDims S63x64 S64x2048 S63x2048 where
  lhsContracting := [1]
  rhsContracting := [0]
  lhsNonContracting := [0]
  rhsNonContracting := [1]
  lhsBatch := []
  rhsBatch := []
  wf := dot_S63x64_S64x2048_S63x2048_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S630x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S630x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S31x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S64x1024 : Shape := ⟨2, ![64, 1024]⟩
abbrev S630x64 : Shape := ⟨2, ![630, 64]⟩
abbrev S31x64 : Shape := ⟨2, ![31, 64]⟩
abbrev S1024x65536 : Shape := ⟨2, ![1024, 65536]⟩
abbrev S64x65536 : Shape := ⟨2, ![64, 65536]⟩
abbrev S_ : Shape := ⟨0, ![]⟩
abbrev S31x65536 : Shape := ⟨2, ![31, 65536]⟩
abbrev S1x65536 : Shape := ⟨2, ![1, 65536]⟩
abbrev S1x1x65536 : Shape := ⟨3, ![1, 1, 65536]⟩
abbrev S1x2x65536 : Shape := ⟨3, ![1, 2, 65536]⟩
abbrev S2x65536 : Shape := ⟨2, ![2, 65536]⟩
abbrev S2x1x65536 : Shape := ⟨3, ![2, 1, 65536]⟩
abbrev S2x2x65536 : Shape := ⟨3, ![2, 2, 65536]⟩
abbrev S4x65536 : Shape := ⟨2, ![4, 65536]⟩
abbrev S4x1x65536 : Shape := ⟨3, ![4, 1, 65536]⟩
abbrev S4x2x65536 : Shape := ⟨3, ![4, 2, 65536]⟩
abbrev S8x65536 : Shape := ⟨2, ![8, 65536]⟩
abbrev S8x1x65536 : Shape := ⟨3, ![8, 1, 65536]⟩
abbrev S8x2x65536 : Shape := ⟨3, ![8, 2, 65536]⟩
abbrev S16x65536 : Shape := ⟨2, ![16, 65536]⟩
abbrev S16x1x65536 : Shape := ⟨3, ![16, 1, 65536]⟩
abbrev S16x2x65536 : Shape := ⟨3, ![16, 2, 65536]⟩
abbrev S32x65536 : Shape := ⟨2, ![32, 65536]⟩
abbrev S63x65536 : Shape := ⟨2, ![63, 65536]⟩
abbrev S63x10x64 : Shape := ⟨3, ![63, 10, 64]⟩
abbrev S63x10x65536 : Shape := ⟨3, ![63, 10, 65536]⟩
abbrev S63x1x65536 : Shape := ⟨3, ![63, 1, 65536]⟩
abbrev S10x65536 : Shape := ⟨2, ![10, 65536]⟩

abbrev nBuf : Space → Nat
  | .hbm => 127
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S64x1024, .f32⟩
  | .hbm, ⟨2, _⟩ => ⟨S630x64, .f32⟩
  | .hbm, ⟨3, _⟩ => ⟨S630x64, .f32⟩
  | .hbm, ⟨4, _⟩ => ⟨S31x64, .f32⟩
  | .hbm, ⟨5, _⟩ => ⟨S1024x65536, .f32⟩
  | .hbm, ⟨6, _⟩ => ⟨S64x65536, .f32⟩
  | .hbm, ⟨7, _⟩ => ⟨S_, .f32⟩
  | .hbm, ⟨8, _⟩ => ⟨S64x65536, .f32⟩
  | .hbm, ⟨9, _⟩ => ⟨S64x65536, .f32⟩
  | .hbm, ⟨10, _⟩ => ⟨S31x65536, .f32⟩
  | .hbm, ⟨11, _⟩ => ⟨S_, .f32⟩
  | .hbm, ⟨12, _⟩ => ⟨S31x65536, .f32⟩
  | .hbm, ⟨13, _⟩ => ⟨S31x65536, .f32⟩
  | .hbm, ⟨14, _⟩ => ⟨S31x65536, .f32⟩
  | .hbm, ⟨15, _⟩ => ⟨S_, .f32⟩
  | .hbm, ⟨16, _⟩ => ⟨S1x65536, .f32⟩
  | .hbm, ⟨17, _⟩ => ⟨S1x65536, .f32⟩
  | .hbm, ⟨18, _⟩ => ⟨S_, .f32⟩
  | .hbm, ⟨19, _⟩ => ⟨S1x65536, .f32⟩
  | .hbm, ⟨20, _⟩ => ⟨S1x65536, .f32⟩
  | .hbm, ⟨21, _⟩ => ⟨S1x65536, .f32⟩
  | .hbm, ⟨22, _⟩ => ⟨S_, .f32⟩
  | .hbm, ⟨23, _⟩ => ⟨S1x65536, .f32⟩
  | .hbm, ⟨24, _⟩ => ⟨S1x65536, .f32⟩
  | .hbm, ⟨25, _⟩ => ⟨S_, .f32⟩
  | .hbm, ⟨26, _⟩ => ⟨S1x65536, .f32⟩
  | .hbm, ⟨27, _⟩ => ⟨S1x65536, .f32⟩
  | .hbm, ⟨28, _⟩ => ⟨S1x65536, .f32⟩
  | .hbm, ⟨29, _⟩ => ⟨S_, .f32⟩
  | .hbm, ⟨30, _⟩ => ⟨S1x65536, .f32⟩
  | .hbm, ⟨31, _⟩ => ⟨S1x65536, .f32⟩
  | .hbm, ⟨32, _⟩ => ⟨S1x1x65536, .f32⟩
  | .hbm, ⟨33, _⟩ => ⟨S1x1x65536, .f32⟩
  | .hbm, ⟨34, _⟩ => ⟨S1x2x65536, .f32⟩
  | .hbm, ⟨35, _⟩ => ⟨S2x65536, .f32⟩
  | .hbm, ⟨36, _⟩ => ⟨S2x65536, .f32⟩
  | .hbm, ⟨37, _⟩ => ⟨S_, .f32⟩
  | .hbm, ⟨38, _⟩ => ⟨S2x65536, .f32⟩
  | .hbm, ⟨39, _⟩ => ⟨S2x65536, .f32⟩
  | .hbm, ⟨40, _⟩ => ⟨S2x65536, .f32⟩
  | .hbm, ⟨41, _⟩ => ⟨S_, .f32⟩
  | .hbm, ⟨42, _⟩ => ⟨S2x65536, .f32⟩
  | .hbm, ⟨43, _⟩ => ⟨S2x65536, .f32⟩
  | .hbm, ⟨44, _⟩ => ⟨S_, .f32⟩
  | .hbm, ⟨45, _⟩ => ⟨S2x65536, .f32⟩
  | .hbm, ⟨46, _⟩ => ⟨S2x65536, .f32⟩
  | .hbm, ⟨47, _⟩ => ⟨S2x65536, .f32⟩
  | .hbm, ⟨48, _⟩ => ⟨S_, .f32⟩
  | .hbm, ⟨49, _⟩ => ⟨S2x65536, .f32⟩
  | .hbm, ⟨50, _⟩ => ⟨S2x65536, .f32⟩
  | .hbm, ⟨51, _⟩ => ⟨S2x1x65536, .f32⟩
  | .hbm, ⟨52, _⟩ => ⟨S2x1x65536, .f32⟩
  | .hbm, ⟨53, _⟩ => ⟨S2x2x65536, .f32⟩
  | .hbm, ⟨54, _⟩ => ⟨S4x65536, .f32⟩
  | .hbm, ⟨55, _⟩ => ⟨S4x65536, .f32⟩
  | .hbm, ⟨56, _⟩ => ⟨S_, .f32⟩
  | .hbm, ⟨57, _⟩ => ⟨S4x65536, .f32⟩
  | .hbm, ⟨58, _⟩ => ⟨S4x65536, .f32⟩
  | .hbm, ⟨59, _⟩ => ⟨S4x65536, .f32⟩
  | .hbm, ⟨60, _⟩ => ⟨S_, .f32⟩
  | .hbm, ⟨61, _⟩ => ⟨S4x65536, .f32⟩
  | .hbm, ⟨62, _⟩ => ⟨S4x65536, .f32⟩
  | .hbm, ⟨63, _⟩ => ⟨S_, .f32⟩
  | .hbm, ⟨64, _⟩ => ⟨S4x65536, .f32⟩
  | .hbm, ⟨65, _⟩ => ⟨S4x65536, .f32⟩
  | .hbm, ⟨66, _⟩ => ⟨S4x65536, .f32⟩
  | .hbm, ⟨67, _⟩ => ⟨S_, .f32⟩
  | .hbm, ⟨68, _⟩ => ⟨S4x65536, .f32⟩
  | .hbm, ⟨69, _⟩ => ⟨S4x65536, .f32⟩
  | .hbm, ⟨70, _⟩ => ⟨S4x1x65536, .f32⟩
  | .hbm, ⟨71, _⟩ => ⟨S4x1x65536, .f32⟩
  | .hbm, ⟨72, _⟩ => ⟨S4x2x65536, .f32⟩
  | .hbm, ⟨73, _⟩ => ⟨S8x65536, .f32⟩
  | .hbm, ⟨74, _⟩ => ⟨S8x65536, .f32⟩
  | .hbm, ⟨75, _⟩ => ⟨S_, .f32⟩
  | .hbm, ⟨76, _⟩ => ⟨S8x65536, .f32⟩
  | .hbm, ⟨77, _⟩ => ⟨S8x65536, .f32⟩
  | .hbm, ⟨78, _⟩ => ⟨S8x65536, .f32⟩
  | .hbm, ⟨79, _⟩ => ⟨S_, .f32⟩
  | .hbm, ⟨80, _⟩ => ⟨S8x65536, .f32⟩
  | .hbm, ⟨81, _⟩ => ⟨S8x65536, .f32⟩
  | .hbm, ⟨82, _⟩ => ⟨S_, .f32⟩
  | .hbm, ⟨83, _⟩ => ⟨S8x65536, .f32⟩
  | .hbm, ⟨84, _⟩ => ⟨S8x65536, .f32⟩
  | .hbm, ⟨85, _⟩ => ⟨S8x65536, .f32⟩
  | .hbm, ⟨86, _⟩ => ⟨S_, .f32⟩
  | .hbm, ⟨87, _⟩ => ⟨S8x65536, .f32⟩
  | .hbm, ⟨88, _⟩ => ⟨S8x65536, .f32⟩
  | .hbm, ⟨89, _⟩ => ⟨S8x1x65536, .f32⟩
  | .hbm, ⟨90, _⟩ => ⟨S8x1x65536, .f32⟩
  | .hbm, ⟨91, _⟩ => ⟨S8x2x65536, .f32⟩
  | .hbm, ⟨92, _⟩ => ⟨S16x65536, .f32⟩
  | .hbm, ⟨93, _⟩ => ⟨S16x65536, .f32⟩
  | .hbm, ⟨94, _⟩ => ⟨S_, .f32⟩
  | .hbm, ⟨95, _⟩ => ⟨S16x65536, .f32⟩
  | .hbm, ⟨96, _⟩ => ⟨S16x65536, .f32⟩
  | .hbm, ⟨97, _⟩ => ⟨S16x65536, .f32⟩
  | .hbm, ⟨98, _⟩ => ⟨S_, .f32⟩
  | .hbm, ⟨99, _⟩ => ⟨S16x65536, .f32⟩
  | .hbm, ⟨100, _⟩ => ⟨S16x65536, .f32⟩
  | .hbm, ⟨101, _⟩ => ⟨S_, .f32⟩
  | .hbm, ⟨102, _⟩ => ⟨S16x65536, .f32⟩
  | .hbm, ⟨103, _⟩ => ⟨S16x65536, .f32⟩
  | .hbm, ⟨104, _⟩ => ⟨S16x65536, .f32⟩
  | .hbm, ⟨105, _⟩ => ⟨S_, .f32⟩
  | .hbm, ⟨106, _⟩ => ⟨S16x65536, .f32⟩
  | .hbm, ⟨107, _⟩ => ⟨S16x65536, .f32⟩
  | .hbm, ⟨108, _⟩ => ⟨S16x1x65536, .f32⟩
  | .hbm, ⟨109, _⟩ => ⟨S16x1x65536, .f32⟩
  | .hbm, ⟨110, _⟩ => ⟨S16x2x65536, .f32⟩
  | .hbm, ⟨111, _⟩ => ⟨S32x65536, .f32⟩
  | .hbm, ⟨112, _⟩ => ⟨S63x65536, .f32⟩
  | .hbm, ⟨113, _⟩ => ⟨S63x10x64, .f32⟩
  | .hbm, ⟨114, _⟩ => ⟨S63x10x64, .f32⟩
  | .hbm, ⟨115, _⟩ => ⟨S63x10x65536, .f32⟩
  | .hbm, ⟨116, _⟩ => ⟨S63x10x65536, .f32⟩
  | .hbm, ⟨117, _⟩ => ⟨S63x1x65536, .f32⟩
  | .hbm, ⟨118, _⟩ => ⟨S63x10x65536, .f32⟩
  | .hbm, ⟨119, _⟩ => ⟨S63x10x65536, .f32⟩
  | .hbm, ⟨120, _⟩ => ⟨S_, .f32⟩
  | .hbm, ⟨121, _⟩ => ⟨S63x10x65536, .f32⟩
  | .hbm, ⟨122, _⟩ => ⟨S63x10x65536, .f32⟩
  | .hbm, ⟨123, _⟩ => ⟨S63x10x65536, .f32⟩
  | .hbm, ⟨124, _⟩ => ⟨S63x10x65536, .f32⟩
  | .hbm, ⟨125, _⟩ => ⟨S_, .f32⟩
  | .hbm, ⟨126, _⟩ => ⟨S10x65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_18 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_19 : Ref sig .tc := ⟨.hbm, 98, rfl⟩
abbrev main_v73 : Ref sig .tc := ⟨.hbm, 99, rfl⟩
abbrev main_v74 : Ref sig .tc := ⟨.hbm, 100, rfl⟩
abbrev main_cst_20 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_21 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_22 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_23 : Ref sig .tc := ⟨.hbm, 125, rfl⟩
abbrev main_v96 : Ref sig .tc := ⟨.hbm, 126, rfl⟩

abbrev nD : Nat := 1
abbrev τ : Topo := Topo.v7x

variable {F : FTy → Type} [FloatOps F]

class Facts₀ : Prop where
  transposes_S65536x1024_S1024x65536_1_0 : S65536x1024.Transposes [1, 0] S1024x65536
  bcast_S_S64x65536 : S_.BroadcastsInDim S64x65536 (![] : Fin 0 → Fin S64x65536.rank)
  bcast_S_S31x65536 : S_.BroadcastsInDim S31x65536 (![] : Fin 0 → Fin S31x65536.rank)
  bcast_S_S1x65536 : S_.BroadcastsInDim S1x65536 (![] : Fin 0 → Fin S1x65536.rank)
  slices_S31x65536_S1x65536_0_0 : S31x65536.Slices ![0, 0] S1x65536
  bcast_S1x65536_S1x1x65536_0_2 : S1x65536.BroadcastsInDim S1x1x65536 (![0, 2] : Fin 2 → Fin S1x1x65536.rank)
  concatenates_S1x1x65536_S1x1x65536_S1x2x65536_d1 : Shape.Concatenates [S1x1x65536, S1x1x65536] S1x2x65536 1
  shapeCasts_S1x2x65536_S2x65536 : S1x2x65536.ShapeCasts S2x65536
  slices_S31x65536_S2x65536_1_0 : S31x65536.Slices ![1, 0] S2x65536
  bcast_S_S2x65536 : S_.BroadcastsInDim S2x65536 (![] : Fin 0 → Fin S2x65536.rank)
  bcast_S2x65536_S2x1x65536_0_2 : S2x65536.BroadcastsInDim S2x1x65536 (![0, 2] : Fin 2 → Fin S2x1x65536.rank)
  concatenates_S2x1x65536_S2x1x65536_S2x2x65536_d1 : Shape.Concatenates [S2x1x65536, S2x1x65536] S2x2x65536 1
  shapeCasts_S2x2x65536_S4x65536 : S2x2x65536.ShapeCasts S4x65536
  slices_S31x65536_S4x65536_3_0 : S31x65536.Slices ![3, 0] S4x65536
  bcast_S_S4x65536 : S_.BroadcastsInDim S4x65536 (![] : Fin 0 → Fin S4x65536.rank)
  bcast_S4x65536_S4x1x65536_0_2 : S4x65536.BroadcastsInDim S4x1x65536 (![0, 2] : Fin 2 → Fin S4x1x65536.rank)
  concatenates_S4x1x65536_S4x1x65536_S4x2x65536_d1 : Shape.Concatenates [S4x1x65536, S4x1x65536] S4x2x65536 1
  shapeCasts_S4x2x65536_S8x65536 : S4x2x65536.ShapeCasts S8x65536
  slices_S31x65536_S8x65536_7_0 : S31x65536.Slices ![7, 0] S8x65536
  bcast_S_S8x65536 : S_.BroadcastsInDim S8x65536 (![] : Fin 0 → Fin S8x65536.rank)
  bcast_S8x65536_S8x1x65536_0_2 : S8x65536.BroadcastsInDim S8x1x65536 (![0, 2] : Fin 2 → Fin S8x1x65536.rank)
  concatenates_S8x1x65536_S8x1x65536_S8x2x65536_d1 : Shape.Concatenates [S8x1x65536, S8x1x65536] S8x2x65536 1
  shapeCasts_S8x2x65536_S16x65536 : S8x2x65536.ShapeCasts S16x65536
  slices_S31x65536_S16x65536_15_0 : S31x65536.Slices ![15, 0] S16x65536
  bcast_S_S16x65536 : S_.BroadcastsInDim S16x65536 (![] : Fin 0 → Fin S16x65536.rank)
  bcast_S16x65536_S16x1x65536_0_2 : S16x65536.BroadcastsInDim S16x1x65536 (![0, 2] : Fin 2 → Fin S16x1x65536.rank)
  concatenates_S16x1x65536_S16x1x65536_S16x2x65536_d1 : Shape.Concatenates [S16x1x65536, S16x1x65536] S16x2x65536 1
  shapeCasts_S16x2x65536_S32x65536 : S16x2x65536.ShapeCasts S32x65536
  concatenates_S1x65536_S2x65536_S4x65536_S8x65536_S16x65536_S32x65536_S63x65536_d0 : Shape.Concatenates [S1x65536, S2x65536, S4x65536, S8x65536, S16x65536, S32x65536] S63x65536 0
  shapeCasts_S630x64_S63x10x64 : S630x64.ShapeCasts S63x10x64
  bcast_S63x65536_S63x1x65536_0_2 : S63x65536.BroadcastsInDim S63x1x65536 (![0, 2] : Fin 2 → Fin S63x1x65536.rank)
  bcast_S63x1x65536_S63x10x65536_0_1_2 : S63x1x65536.BroadcastsInDim S63x10x65536 (![0, 1, 2] : Fin 3 → Fin S63x10x65536.rank)
  bcast_S_S63x10x65536 : S_.BroadcastsInDim S63x10x65536 (![] : Fin 0 → Fin S63x10x65536.rank)
  reducesTo_S63x10x65536_S10x65536_d0 : S63x10x65536.ReducesTo [0] S10x65536
  h_S_ : 0 < S_.numel
  dot_S64x1024_S1024x65536_S64x65536_1_0_0_1_n_n_wf : DotDims.WF S64x1024 S1024x65536 S64x65536 [1] [0] [0] [1] [] []
  dot_S31x64_S64x65536_S31x65536_1_0_0_1_n_n_wf : DotDims.WF S31x64 S64x65536 S31x65536 [1] [0] [0] [1] [] []
  dot_S63x10x64_S64x65536_S63x10x65536_2_0_01_1_n_n_wf : DotDims.WF S63x10x64 S64x65536 S63x10x65536 [2] [0] [0, 1] [1] [] []

variable [Facts₀]

def dot_S64x1024_S1024x65536_S64x65536_1_0_0_1_n_n : DotDims S64x1024 S1024x65536 S64x65536 where
  lhsContracting := [1]
  rhsContracting := [0]
  lhsNonContracting := [0]
  rhsNonContracting := [1]
  lhsBatch := []
  rhsBatch := []
  wf := dot_S64x1024_S1024x65536_S64x65536_1_0_0_1_n_n_wf
def dot_S31x64_S64x65536_S31x65536_1_0_0_1_n_n : DotDims S31x64 S64x65536 S31x65536 where
  lhsContracting := [1]
  rhsContracting := [0]
  lhsNonContracting := [0]
  rhsNonContracting := [1]
  lhsBatch := []
  rhsBatch := []
  wf := dot_S31x64_S64x65536_S31x65536_1_0_0_1_n_n_wf
def dot_S63x10x64_S64x65536_S63x10x65536_2_0_01_1_n_n : DotDims S63x10x64 S64x65536 S63x10x65536 where
  lhsContracting := [2]
  rhsContracting := [0]
  lhsNonContracting := [0, 1]
  rhsNonContracting := [1]
  lhsBatch := []
  rhsBatch := []
  wf := dot_S63x10x64_S64x65536_S63x10x65536_2_0_01_1_n_n_wf

class Facts : Prop extends Facts₀ where

variable [Facts]
-- ==== Proof.RefAfter.lean ====
/-
  The contents the reference's operation list leaves at its result, from any contents of the arguments and for any
  float values.

  The list is cut into seven pieces: the first twelve operations (the projection, the branch indicators, the root's
  row), one piece per level of the tree (a slice of the indicators, the two products with `(1 ± t) · ½`, the
  interleaving), and the last fifteen (the levels laid end to end, the two predictor contractions, the sum over the
  nodes). The fold over a concatenation of lists is the fold over the second from the fold over the first. Each piece
  is read from ARBITRARY contents: what it leaves at its own result is the piece's expression of the contents at the
  few references it reads, and every reference it does not write keeps its contents. Composing the pieces in order,
  each level's array is the named term of the arguments' contents, and the last piece's result is the whole composed
  term.
-/
import proofs.«161576_j2078764171322_1_alg».proof.Proof.RefOps
import Idealize.ShloMosaic.Lib.StableHlo.Run
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## The list in seven pieces: the first twelve operations (projection, indicators, root), one piece per level of the
tree, and the last fifteen (the levels end to end, the predictors, the sum) -/

/-- Operations 1 to 12 of the list. -/
def c0 : List (HloOp τ sig (Elt F)) :=
  [ unary main_arg0 main_v0 ((transpose S1024x65536 [1, 0] · transposes_S65536x1024_S1024x65536_1_0) : (⟨S65536x1024, .f32⟩ : BufTy).Contents (Elt F) → (⟨S1024x65536, .f32⟩ : BufTy).Contents (Elt F)),
    binary main_arg1 main_v0 main_v1 ((fun l r => Host.dotGeneral dot_S64x1024_S1024x65536_S64x65536_1_0_0_1_n_n none l r) : (⟨S64x1024, .f32⟩ : BufTy).Contents (Elt F) → (⟨S1024x65536, .f32⟩ : BufTy).Contents (Elt F) → (⟨S64x65536, .f32⟩ : BufTy).Contents (Elt F)),
    nullary main_cst (constant S_ .f32 0x42800000#32),
    unary main_cst main_v2 (broadcastInDim S64x65536 ![] bcast_S_S64x65536 : (⟨S_, .f32⟩ : BufTy).Contents (Elt F) → (⟨S64x65536, .f32⟩ : BufTy).Contents (Elt F)),
    binary main_v1 main_v2 main_v3 (Host.divf : (⟨S64x65536, .f32⟩ : BufTy).Contents (Elt F) → (⟨S64x65536, .f32⟩ : BufTy).Contents (Elt F) → (⟨S64x65536, .f32⟩ : BufTy).Contents (Elt F)),
    binary main_arg4 main_v3 main_v4 ((fun l r => Host.dotGeneral dot_S31x64_S64x65536_S31x65536_1_0_0_1_n_n none l r) : (⟨S31x64, .f32⟩ : BufTy).Contents (Elt F) → (⟨S64x65536, .f32⟩ : BufTy).Contents (Elt F) → (⟨S31x65536, .f32⟩ : BufTy).Contents (Elt F)),
    nullary main_cst_0 (constant S_ .f32 0x4E6E6B28#32),
    unary main_cst_0 main_v5 (broadcastInDim S31x65536 ![] bcast_S_S31x65536 : (⟨S_, .f32⟩ : BufTy).Contents (Elt F) → (⟨S31x65536, .f32⟩ : BufTy).Contents (Elt F)),
    binary main_v5 main_v4 main_v6 (mulf : (⟨S31x65536, .f32⟩ : BufTy).Contents (Elt F) → (⟨S31x65536, .f32⟩ : BufTy).Contents (Elt F) → (⟨S31x65536, .f32⟩ : BufTy).Contents (Elt F)),
    unary main_v6 main_v7 (Host.tanh : (⟨S31x65536, .f32⟩ : BufTy).Contents (Elt F) → (⟨S31x65536, .f32⟩ : BufTy).Contents (Elt F)),
    nullary main_cst_1 (constant S_ .f32 0x3F800000#32),
    unary main_cst_1 main_v8 (broadcastInDim S1x65536 ![] bcast_S_S1x65536 : (⟨S_, .f32⟩ : BufTy).Contents (Elt F) → (⟨S1x65536, .f32⟩ : BufTy).Contents (Elt F)) ]

/-- Operations 13 to 31 of the list. -/
def c1 : List (HloOp τ sig (Elt F)) :=
  [ unary main_v7 main_v9 ((extractStridedSlice S1x65536 ![0, 0] · slices_S31x65536_S1x65536_0_0) : (⟨S31x65536, .f32⟩ : BufTy).Contents (Elt F) → (⟨S1x65536, .f32⟩ : BufTy).Contents (Elt F)),
    nullary main_cst_2 (constant S_ .f32 0x3F800000#32),
    unary main_cst_2 main_v10 (broadcastInDim S1x65536 ![] bcast_S_S1x65536 : (⟨S_, .f32⟩ : BufTy).Contents (Elt F) → (⟨S1x65536, .f32⟩ : BufTy).Contents (Elt F)),
    binary main_v10 main_v9 main_v11 (addf : (⟨S1x65536, .f32⟩ : BufTy).Contents (Elt F) → (⟨S1x65536, .f32⟩ : BufTy).Contents (Elt F) → (⟨S1x65536, .f32⟩ : BufTy).Contents (Elt F)),
    binary main_v8 main_v11 main_v12 (mulf : (⟨S1x65536, .f32⟩ : BufTy).Contents (Elt F) → (⟨S1x65536, .f32⟩ : BufTy).Contents (Elt F) → (⟨S1x65536, .f32⟩ : BufTy).Contents (Elt F)),
    nullary main_cst_3 (constant S_ .f32 0x3F000000#32),
    unary main_cst_3 main_v13 (broadcastInDim S1x65536 ![] bcast_S_S1x65536 : (⟨S_, .f32⟩ : BufTy).Contents (Elt F) → (⟨S1x65536, .f32⟩ : BufTy).Contents (Elt F)),
    binary main_v12 main_v13 main_v14 (mulf : (⟨S1x65536, .f32⟩ : BufTy).Contents (Elt F) → (⟨S1x65536, .f32⟩ : BufTy).Contents (Elt F) → (⟨S1x65536, .f32⟩ : BufTy).Contents (Elt F)),
    nullary main_cst_4 (constant S_ .f32 0x3F800000#32),
    unary main_cst_4 main_v15 (broadcastInDim S1x65536 ![] bcast_S_S1x65536 : (⟨S_, .f32⟩ : BufTy).Contents (Elt F) → (⟨S1x65536, .f32⟩ : BufTy).Contents (Elt F)),
    binary main_v15 main_v9 main_v16 (subf : (⟨S1x65536, .f32⟩ : BufTy).Contents (Elt F) → (⟨S1x65536, .f32⟩ : BufTy).Contents (Elt F) → (⟨S1x65536, .f32⟩ : BufTy).Contents (Elt F)),
    binary main_v8 main_v16 main_v17 (mulf : (⟨S1x65536, .f32⟩ : BufTy).Contents (Elt F) → (⟨S1x65536, .f32⟩ : BufTy).Contents (Elt F) → (⟨S1x65536, .f32⟩ : BufTy).Contents (Elt F)),
    nullary main_cst_5 (constant S_ .f32 0x3F000000#32),
    unary main_cst_5 main_v18 (broadcastInDim S1x65536 ![] bcast_S_S1x65536 : (⟨S_, .f32⟩ : BufTy).Contents (Elt F) → (⟨S1x65536, .f32⟩ : BufTy).Contents (Elt F)),
    binary main_v17 main_v18 main_v19 (mulf : (⟨S1x65536, .f32⟩ : BufTy).Contents (Elt F) → (⟨S1x65536, .f32⟩ : BufTy).Contents (Elt F) → (⟨S1x65536, .f32⟩ : BufTy).Contents (Elt F)),
    unary main_v14 main_v20 (broadcastInDim S1x1x65536 ![0, 2] bcast_S1x65536_S1x1x65536_0_2 : (⟨S1x65536, .f32⟩ : BufTy).Contents (Elt F) → (⟨S1x1x65536, .f32⟩ : BufTy).Contents (Elt F)),
    unary main_v19 main_v21 (broadcastInDim S1x1x65536 ![0, 2] bcast_S1x65536_S1x1x65536_0_2 : (⟨S1x65536, .f32⟩ : BufTy).Contents (Elt F) → (⟨S1x1x65536, .f32⟩ : BufTy).Contents (Elt F)),
    binary main_v20 main_v21 main_v22 ((fun a b => concatenate S1x2x65536 1 [⟨S1x1x65536, a⟩, ⟨S1x1x65536, b⟩] concatenates_S1x1x65536_S1x1x65536_S1x2x65536_d1) : (⟨S1x1x65536, .f32⟩ : BufTy).Contents (Elt F) → (⟨S1x1x65536, .f32⟩ : BufTy).Contents (Elt F) → (⟨S1x2x65536, .f32⟩ : BufTy).Contents (Elt F)),
    reshape main_v22 main_v23 rfl shapeCasts_S1x2x65536_S2x65536 ]

/-- Operations 32 to 50 of the list. -/
def c2 : List (HloOp τ sig (Elt F)) :=
  [ unary main_v7 main_v24 ((extractStridedSlice S2x65536 ![1, 0] · slices_S31x65536_S2x65536_1_0) : (⟨S31x65536, .f32⟩ : BufTy).Contents (Elt F) → (⟨S2x65536, .f32⟩ : BufTy).Contents (Elt F)),
    nullary main_cst_6 (constant S_ .f32 0x3F800000#32),
    unary main_cst_6 main_v25 (broadcastInDim S2x65536 ![] bcast_S_S2x65536 : (⟨S_, .f32⟩ : BufTy).Contents (Elt F) → (⟨S2x65536, .f32⟩ : BufTy).Contents (Elt F)),
    binary main_v25 main_v24 main_v26 (addf : (⟨S2x65536, .f32⟩ : BufTy).Contents (Elt F) → (⟨S2x65536, .f32⟩ : BufTy).Contents (Elt F) → (⟨S2x65536, .f32⟩ : BufTy).Contents (Elt F)),
    binary main_v23 main_v26 main_v27 (mulf : (⟨S2x65536, .f32⟩ : BufTy).Contents (Elt F) → (⟨S2x65536, .f32⟩ : BufTy).Contents (Elt F) → (⟨S2x65536, .f32⟩ : BufTy).Contents (Elt F)),
    nullary main_cst_7 (constant S_ .f32 0x3F000000#32),
    unary main_cst_7 main_v28 (broadcastInDim S2x65536 ![] bcast_S_S2x65536 : (⟨S_, .f32⟩ : BufTy).Contents (Elt F) → (⟨S2x65536, .f32⟩ : BufTy).Contents (Elt F)),
    binary main_v27 main_v28 main_v29 (mulf : (⟨S2x65536, .f32⟩ : BufTy).Contents (Elt F) → (⟨S2x65536, .f32⟩ : BufTy).Contents (Elt F) → (⟨S2x65536, .f32⟩ : BufTy).Contents (Elt F)),
    nullary main_cst_8 (constant S_ .f32 0x3F800000#32),
    unary main_cst_8 main_v30 (broadcastInDim S2x65536 ![] bcast_S_S2x65536 : (⟨S_, .f32⟩ : BufTy).Contents (Elt F) → (⟨S2x65536, .f32⟩ : BufTy).Contents (Elt F)),
    binary main_v30 main_v24 main_v31 (subf : (⟨S2x65536, .f32⟩ : BufTy).Contents (Elt F) → (⟨S2x65536, .f32⟩ : BufTy).Contents (Elt F) → (⟨S2x65536, .f32⟩ : BufTy).Contents (Elt F)),
    binary main_v23 main_v31 main_v32 (mulf : (⟨S2x65536, .f32⟩ : BufTy).Contents (Elt F) → (⟨S2x65536, .f32⟩ : BufTy).Contents (Elt F) → (⟨S2x65536, .f32⟩ : BufTy).Contents (Elt F)),
    nullary main_cst_9 (constant S_ .f32 0x3F000000#32),
    unary main_cst_9 main_v33 (broadcastInDim S2x65536 ![] bcast_S_S2x65536 : (⟨S_, .f32⟩ : BufTy).Contents (Elt F) → (⟨S2x65536, .f32⟩ : BufTy).Contents (Elt F)),
    binary main_v32 main_v33 main_v34 (mulf : (⟨S2x65536, .f32⟩ : BufTy).Contents (Elt F) → (⟨S2x65536, .f32⟩ : BufTy).Contents (Elt F) → (⟨S2x65536, .f32⟩ : BufTy).Contents (Elt F)),
    unary main_v29 main_v35 (broadcastInDim S2x1x65536 ![0, 2] bcast_S2x65536_S2x1x65536_0_2 : (⟨S2x65536, .f32⟩ : BufTy).Contents (Elt F) → (⟨S2x1x65536, .f32⟩ : BufTy).Contents (Elt F)),
    unary main_v34 main_v36 (broadcastInDim S2x1x65536 ![0, 2] bcast_S2x65536_S2x1x65536_0_2 : (⟨S2x65536, .f32⟩ : BufTy).Contents (Elt F) → (⟨S2x1x65536, .f32⟩ : BufTy).Contents (Elt F)),
    binary main_v35 main_v36 main_v37 ((fun a b => concatenate S2x2x65536 1 [⟨S2x1x65536, a⟩, ⟨S2x1x65536, b⟩] concatenates_S2x1x65536_S2x1x65536_S2x2x65536_d1) : (⟨S2x1x65536, .f32⟩ : BufTy).Contents (Elt F) → (⟨S2x1x65536, .f32⟩ : BufTy).Contents (Elt F) → (⟨S2x2x65536, .f32⟩ : BufTy).Contents (Elt F)),
    reshape main_v37 main_v38 rfl shapeCasts_S2x2x65536_S4x65536 ]

/-- Operations 51 to 69 of the list. -/
def c3 : List (HloOp τ sig (Elt F)) :=
  [ unary main_v7 main_v39 ((extractStridedSlice S4x65536 ![3, 0] · slices_S31x65536_S4x65536_3_0) : (⟨S31x65536, .f32⟩ : BufTy).Contents (Elt F) → (⟨S4x65536, .f32⟩ : BufTy).Contents (Elt F)),
    nullary main_cst_10 (constant S_ .f32 0x3F800000#32),
    unary main_cst_10 main_v40 (broadcastInDim S4x65536 ![] bcast_S_S4x65536 : (⟨S_, .f32⟩ : BufTy).Contents (Elt F) → (⟨S4x65536, .f32⟩ : BufTy).Contents (Elt F)),
    binary main_v40 main_v39 main_v41 (addf : (⟨S4x65536, .f32⟩ : BufTy).Contents (Elt F) → (⟨S4x65536, .f32⟩ : BufTy).Contents (Elt F) → (⟨S4x65536, .f32⟩ : BufTy).Contents (Elt F)),
    binary main_v38 main_v41 main_v42 (mulf : (⟨S4x65536, .f32⟩ : BufTy).Contents (Elt F) → (⟨S4x65536, .f32⟩ : BufTy).Contents (Elt F) → (⟨S4x65536, .f32⟩ : BufTy).Contents (Elt F)),
    nullary main_cst_11 (constant S_ .f32 0x3F000000#32),
    unary main_cst_11 main_v43 (broadcastInDim S4x65536 ![] bcast_S_S4x65536 : (⟨S_, .f32⟩ : BufTy).Contents (Elt F) → (⟨S4x65536, .f32⟩ : BufTy).Contents (Elt F)),
    binary main_v42 main_v43 main_v44 (mulf : (⟨S4x65536, .f32⟩ : BufTy).Contents (Elt F) → (⟨S4x65536, .f32⟩ : BufTy).Contents (Elt F) → (⟨S4x65536, .f32⟩ : BufTy).Contents (Elt F)),
    nullary main_cst_12 (constant S_ .f32 0x3F800000#32),
    unary main_cst_12 main_v45 (broadcastInDim S4x65536 ![] bcast_S_S4x65536 : (⟨S_, .f32⟩ : BufTy).Contents (Elt F) → (⟨S4x65536, .f32⟩ : BufTy).Contents (Elt F)),
    binary main_v45 main_v39 main_v46 (subf : (⟨S4x65536, .f32⟩ : BufTy).Contents (Elt F) → (⟨S4x65536, .f32⟩ : BufTy).Contents (Elt F) → (⟨S4x65536, .f32⟩ : BufTy).Contents (Elt F)),
    binary main_v38 main_v46 main_v47 (mulf : (⟨S4x65536, .f32⟩ : BufTy).Contents (Elt F) → (⟨S4x65536, .f32⟩ : BufTy).Contents (Elt F) → (⟨S4x65536, .f32⟩ : BufTy).Contents (Elt F)),
    nullary main_cst_13 (constant S_ .f32 0x3F000000#32),
    unary main_cst_13 main_v48 (broadcastInDim S4x65536 ![] bcast_S_S4x65536 : (⟨S_, .f32⟩ : BufTy).Contents (Elt F) → (⟨S4x65536, .f32⟩ : BufTy).Contents (Elt F)),
    binary main_v47 main_v48 main_v49 (mulf : (⟨S4x65536, .f32⟩ : BufTy).Contents (Elt F) → (⟨S4x65536, .f32⟩ : BufTy).Contents (Elt F) → (⟨S4x65536, .f32⟩ : BufTy).Contents (Elt F)),
    unary main_v44 main_v50 (broadcastInDim S4x1x65536 ![0, 2] bcast_S4x65536_S4x1x65536_0_2 : (⟨S4x65536, .f32⟩ : BufTy).Contents (Elt F) → (⟨S4x1x65536, .f32⟩ : BufTy).Contents (Elt F)),
    unary main_v49 main_v51 (broadcastInDim S4x1x65536 ![0, 2] bcast_S4x65536_S4x1x65536_0_2 : (⟨S4x65536, .f32⟩ : BufTy).Contents (Elt F) → (⟨S4x1x65536, .f32⟩ : BufTy).Contents (Elt F)),
    binary main_v50 main_v51 main_v52 ((fun a b => concatenate S4x2x65536 1 [⟨S4x1x65536, a⟩, ⟨S4x1x65536, b⟩] concatenates_S4x1x65536_S4x1x65536_S4x2x65536_d1) : (⟨S4x1x65536, .f32⟩ : BufTy).Contents (Elt F) → (⟨S4x1x65536, .f32⟩ : BufTy).Contents (Elt F) → (⟨S4x2x65536, .f32⟩ : BufTy).Contents (Elt F)),
    reshape main_v52 main_v53 rfl shapeCasts_S4x2x65536_S8x65536 ]

/-- Operations 70 to 88 of the list. -/
def c4 : List (HloOp τ sig (Elt F)) :=
  [ unary main_v7 main_v54 ((extractStridedSlice S8x65536 ![7, 0] · slices_S31x65536_S8x65536_7_0) : (⟨S31x65536, .f32⟩ : BufTy).Contents (Elt F) → (⟨S8x65536, .f32⟩ : BufTy).Contents (Elt F)),
    nullary main_cst_14 (constant S_ .f32 0x3F800000#32),
    unary main_cst_14 main_v55 (broadcastInDim S8x65536 ![] bcast_S_S8x65536 : (⟨S_, .f32⟩ : BufTy).Contents (Elt F) → (⟨S8x65536, .f32⟩ : BufTy).Contents (Elt F)),
    binary main_v55 main_v54 main_v56 (addf : (⟨S8x65536, .f32⟩ : BufTy).Contents (Elt F) → (⟨S8x65536, .f32⟩ : BufTy).Contents (Elt F) → (⟨S8x65536, .f32⟩ : BufTy).Contents (Elt F)),
    binary main_v53 main_v56 main_v57 (mulf : (⟨S8x65536, .f32⟩ : BufTy).Contents (Elt F) → (⟨S8x65536, .f32⟩ : BufTy).Contents (Elt F) → (⟨S8x65536, .f32⟩ : BufTy).Contents (Elt F)),
    nullary main_cst_15 (constant S_ .f32 0x3F000000#32),
    unary main_cst_15 main_v58 (broadcastInDim S8x65536 ![] bcast_S_S8x65536 : (⟨S_, .f32⟩ : BufTy).Contents (Elt F) → (⟨S8x65536, .f32⟩ : BufTy).Contents (Elt F)),
    binary main_v57 main_v58 main_v59 (mulf : (⟨S8x65536, .f32⟩ : BufTy).Contents (Elt F) → (⟨S8x65536, .f32⟩ : BufTy).Contents (Elt F) → (⟨S8x65536, .f32⟩ : BufTy).Contents (Elt F)),
    nullary main_cst_16 (constant S_ .f32 0x3F800000#32),
    unary main_cst_16 main_v60 (broadcastInDim S8x65536 ![] bcast_S_S8x65536 : (⟨S_, .f32⟩ : BufTy).Contents (Elt F) → (⟨S8x65536, .f32⟩ : BufTy).Contents (Elt F)),
    binary main_v60 main_v54 main_v61 (subf : (⟨S8x65536, .f32⟩ : BufTy).Contents (Elt F) → (⟨S8x65536, .f32⟩ : BufTy).Contents (Elt F) → (⟨S8x65536, .f32⟩ : BufTy).Contents (Elt F)),
    binary main_v53 main_v61 main_v62 (mulf : (⟨S8x65536, .f32⟩ : BufTy).Contents (Elt F) → (⟨S8x65536, .f32⟩ : BufTy).Contents (Elt F) → (⟨S8x65536, .f32⟩ : BufTy).Contents (Elt F)),
    nullary main_cst_17 (constant S_ .f32 0x3F000000#32),
    unary main_cst_17 main_v63 (broadcastInDim S8x65536 ![] bcast_S_S8x65536 : (⟨S_, .f32⟩ : BufTy).Contents (Elt F) → (⟨S8x65536, .f32⟩ : BufTy).Contents (Elt F)),
    binary main_v62 main_v63 main_v64 (mulf : (⟨S8x65536, .f32⟩ : BufTy).Contents (Elt F) → (⟨S8x65536, .f32⟩ : BufTy).Contents (Elt F) → (⟨S8x65536, .f32⟩ : BufTy).Contents (Elt F)),
    unary main_v59 main_v65 (broadcastInDim S8x1x65536 ![0, 2] bcast_S8x65536_S8x1x65536_0_2 : (⟨S8x65536, .f32⟩ : BufTy).Contents (Elt F) → (⟨S8x1x65536, .f32⟩ : BufTy).Contents (Elt F)),
    unary main_v64 main_v66 (broadcastInDim S8x1x65536 ![0, 2] bcast_S8x65536_S8x1x65536_0_2 : (⟨S8x65536, .f32⟩ : BufTy).Contents (Elt F) → (⟨S8x1x65536, .f32⟩ : BufTy).Contents (Elt F)),
    binary main_v65 main_v66 main_v67 ((fun a b => concatenate S8x2x65536 1 [⟨S8x1x65536, a⟩, ⟨S8x1x65536, b⟩] concatenates_S8x1x65536_S8x1x65536_S8x2x65536_d1) : (⟨S8x1x65536, .f32⟩ : BufTy).Contents (Elt F) → (⟨S8x1x65536, .f32⟩ : BufTy).Contents (Elt F) → (⟨S8x2x65536, .f32⟩ : BufTy).Contents (Elt F)),
    reshape main_v67 main_v68 rfl shapeCasts_S8x2x65536_S16x65536 ]

/-- Operations 89 to 107 of the list. -/
def c5 : List (HloOp τ sig (Elt F)) :=
  [ unary main_v7 main_v69 ((extractStridedSlice S16x65536 ![15, 0] · slices_S31x65536_S16x65536_15_0) : (⟨S31x65536, .f32⟩ : BufTy).Contents (Elt F) → (⟨S16x65536, .f32⟩ : BufTy).Contents (Elt F)),
    nullary main_cst_18 (constant S_ .f32 0x3F800000#32),
    unary main_cst_18 main_v70 (broadcastInDim S16x65536 ![] bcast_S_S16x65536 : (⟨S_, .f32⟩ : BufTy).Contents (Elt F) → (⟨S16x65536, .f32⟩ : BufTy).Contents (Elt F)),
    binary main_v70 main_v69 main_v71 (addf : (⟨S16x65536, .f32⟩ : BufTy).Contents (Elt F) → (⟨S16x65536, .f32⟩ : BufTy).Contents (Elt F) → (⟨S16x65536, .f32⟩ : BufTy).Contents (Elt F)),
    binary main_v68 main_v71 main_v72 (mulf : (⟨S16x65536, .f32⟩ : BufTy).Contents (Elt F) → (⟨S16x65536, .f32⟩ : BufTy).Contents (Elt F) → (⟨S16x65536, .f32⟩ : BufTy).Contents (Elt F)),
    nullary main_cst_19 (constant S_ .f32 0x3F000000#32),
    unary main_cst_19 main_v73 (broadcastInDim S16x65536 ![] bcast_S_S16x65536 : (⟨S_, .f32⟩ : BufTy).Contents (Elt F) → (⟨S16x65536, .f32⟩ : BufTy).Contents (Elt F)),
    binary main_v72 main_v73 main_v74 (mulf : (⟨S16x65536, .f32⟩ : BufTy).Contents (Elt F) → (⟨S16x65536, .f32⟩ : BufTy).Contents (Elt F) → (⟨S16x65536, .f32⟩ : BufTy).Contents (Elt F)),
    nullary main_cst_20 (constant S_ .f32 0x3F800000#32),
    unary main_cst_20 main_v75 (broadcastInDim S16x65536 ![] bcast_S_S16x65536 : (⟨S_, .f32⟩ : BufTy).Contents (Elt F) → (⟨S16x65536, .f32⟩ : BufTy).Contents (Elt F)),
    binary main_v75 main_v69 main_v76 (subf : (⟨S16x65536, .f32⟩ : BufTy).Contents (Elt F) → (⟨S16x65536, .f32⟩ : BufTy).Contents (Elt F) → (⟨S16x65536, .f32⟩ : BufTy).Contents (Elt F)),
    binary main_v68 main_v76 main_v77 (mulf : (⟨S16x65536, .f32⟩ : BufTy).Contents (Elt F) → (⟨S16x65536, .f32⟩ : BufTy).Contents (Elt F) → (⟨S16x65536, .f32⟩ : BufTy).Contents (Elt F)),
    nullary main_cst_21 (constant S_ .f32 0x3F000000#32),
    unary main_cst_21 main_v78 (broadcastInDim S16x65536 ![] bcast_S_S16x65536 : (⟨S_, .f32⟩ : BufTy).Contents (Elt F) → (⟨S16x65536, .f32⟩ : BufTy).Contents (Elt F)),
    binary main_v77 main_v78 main_v79 (mulf : (⟨S16x65536, .f32⟩ : BufTy).Contents (Elt F) → (⟨S16x65536, .f32⟩ : BufTy).Contents (Elt F) → (⟨S16x65536, .f32⟩ : BufTy).Contents (Elt F)),
    unary main_v74 main_v80 (broadcastInDim S16x1x65536 ![0, 2] bcast_S16x65536_S16x1x65536_0_2 : (⟨S16x65536, .f32⟩ : BufTy).Contents (Elt F) → (⟨S16x1x65536, .f32⟩ : BufTy).Contents (Elt F)),
    unary main_v79 main_v81 (broadcastInDim S16x1x65536 ![0, 2] bcast_S16x65536_S16x1x65536_0_2 : (⟨S16x65536, .f32⟩ : BufTy).Contents (Elt F) → (⟨S16x1x65536, .f32⟩ : BufTy).Contents (Elt F)),
    binary main_v80 main_v81 main_v82 ((fun a b => concatenate S16x2x65536 1 [⟨S16x1x65536, a⟩, ⟨S16x1x65536, b⟩] concatenates_S16x1x65536_S16x1x65536_S16x2x65536_d1) : (⟨S16x1x65536, .f32⟩ : BufTy).Contents (Elt F) → (⟨S16x1x65536, .f32⟩ : BufTy).Contents (Elt F) → (⟨S16x2x65536, .f32⟩ : BufTy).Contents (Elt F)),
    reshape main_v82 main_v83 rfl shapeCasts_S16x2x65536_S32x65536 ]

/-- Operations 108 to 122 of the list. -/
def c6 : List (HloOp τ sig (Elt F)) :=
  [ nary ![main_v8, main_v23, main_v38, main_v53, main_v68, main_v83] main_v84 (fun u => concatenate S63x65536 0 [⟨S1x65536, u 0⟩, ⟨S2x65536, u 1⟩, ⟨S4x65536, u 2⟩, ⟨S8x65536, u 3⟩, ⟨S16x65536, u 4⟩, ⟨S32x65536, u 5⟩] concatenates_S1x65536_S2x65536_S4x65536_S8x65536_S16x65536_S32x65536_S63x65536_d0),
    reshape main_arg2 main_v85 rfl shapeCasts_S630x64_S63x10x64,
    reshape main_arg3 main_v86 rfl shapeCasts_S630x64_S63x10x64,
    binary main_v85 main_v3 main_v87 ((fun l r => Host.dotGeneral dot_S63x10x64_S64x65536_S63x10x65536_2_0_01_1_n_n none l r) : (⟨S63x10x64, .f32⟩ : BufTy).Contents (Elt F) → (⟨S64x65536, .f32⟩ : BufTy).Contents (Elt F) → (⟨S63x10x65536, .f32⟩ : BufTy).Contents (Elt F)),
    binary main_v86 main_v3 main_v88 ((fun l r => Host.dotGeneral dot_S63x10x64_S64x65536_S63x10x65536_2_0_01_1_n_n none l r) : (⟨S63x10x64, .f32⟩ : BufTy).Contents (Elt F) → (⟨S64x65536, .f32⟩ : BufTy).Contents (Elt F) → (⟨S63x10x65536, .f32⟩ : BufTy).Contents (Elt F)),
    unary main_v84 main_v89 (broadcastInDim S63x1x65536 ![0, 2] bcast_S63x65536_S63x1x65536_0_2 : (⟨S63x65536, .f32⟩ : BufTy).Contents (Elt F) → (⟨S63x1x65536, .f32⟩ : BufTy).Contents (Elt F)),
    unary main_v89 main_v90 (broadcastInDim S63x10x65536 ![0, 1, 2] bcast_S63x1x65536_S63x10x65536_0_1_2 : (⟨S63x1x65536, .f32⟩ : BufTy).Contents (Elt F) → (⟨S63x10x65536, .f32⟩ : BufTy).Contents (Elt F)),
    binary main_v90 main_v87 main_v91 (mulf : (⟨S63x10x65536, .f32⟩ : BufTy).Contents (Elt F) → (⟨S63x10x65536, .f32⟩ : BufTy).Contents (Elt F) → (⟨S63x10x65536, .f32⟩ : BufTy).Contents (Elt F)),
    nullary main_cst_22 (constant S_ .f32 0x3F800000#32),
    unary main_cst_22 main_v92 (broadcastInDim S63x10x65536 ![] bcast_S_S63x10x65536 : (⟨S_, .f32⟩ : BufTy).Contents (Elt F) → (⟨S63x10x65536, .f32⟩ : BufTy).Contents (Elt F)),
    binary main_v92 main_v88 main_v93 (mulf : (⟨S63x10x65536, .f32⟩ : BufTy).Contents (Elt F) → (⟨S63x10x65536, .f32⟩ : BufTy).Contents (Elt F) → (⟨S63x10x65536, .f32⟩ : BufTy).Contents (Elt F)),
    unary main_v93 main_v94 (Host.tanh : (⟨S63x10x65536, .f32⟩ : BufTy).Contents (Elt F) → (⟨S63x10x65536, .f32⟩ : BufTy).Contents (Elt F)),
    binary main_v91 main_v94 main_v95 (mulf : (⟨S63x10x65536, .f32⟩ : BufTy).Contents (Elt F) → (⟨S63x10x65536, .f32⟩ : BufTy).Contents (Elt F) → (⟨S63x10x65536, .f32⟩ : BufTy).Contents (Elt F)),
    nullary main_cst_23 (constant S_ .f32 0x00000000#32),
    binary main_v95 main_cst_23 main_v96 ((fun x v => Host.reduceAdd x v reducesTo_S63x10x65536_S10x65536_d0 h_S_) : (⟨S63x10x65536, .f32⟩ : BufTy).Contents (Elt F) → (⟨S_, .f32⟩ : BufTy).Contents (Elt F) → (⟨S10x65536, .f32⟩ : BufTy).Contents (Elt F)) ]

set_option maxRecDepth 8192 in
theorem ops_eq : (ops : List (HloOp τ sig (Elt F))) = c0 ++ (c1 ++ (c2 ++ (c3 ++ (c4 ++ (c5 ++ c6))))) := rfl

/-! ## Each piece from any contents

What a piece leaves at its result, as the piece's own expression of the contents it starts from at the references it
reads; and the references it does not write keep their contents. -/

section Pieces
variable (W : Valuation τ sig (Elt F))

theorem c0_v3 : after (c0 (F := F)) W (Proc.devRef .tc main_v3) = res_main_v3 W := by
  unfold res_main_v3; simp only [c0]; after_results_simp <;> rfl
theorem c0_v7 : after (c0 (F := F)) W (Proc.devRef .tc main_v7) = res_main_v7 W := by
  unfold res_main_v7 res_main_v3; simp only [c0]; after_results_simp <;> rfl
theorem c0_v8 : after (c0 (F := F)) W (Proc.devRef .tc main_v8) = res_main_v8 W := by
  unfold res_main_v8; simp only [c0]; after_results_simp <;> rfl
theorem c0_keep_arg2 : after (c0 (F := F)) W (Proc.devRef .tc main_arg2) = W (Proc.devRef .tc main_arg2) := by
  simp only [c0]; after_results_simp
theorem c0_keep_arg3 : after (c0 (F := F)) W (Proc.devRef .tc main_arg3) = W (Proc.devRef .tc main_arg3) := by
  simp only [c0]; after_results_simp

theorem c1_out : after (c1 (F := F)) W (Proc.devRef .tc main_v23) = shapeCast _ (concatenate S1x2x65536 1 [⟨S1x1x65536, (broadcastInDim S1x1x65536 ![0, 2] bcast_S1x65536_S1x1x65536_0_2 (mulf (mulf (W (Proc.devRef .tc main_v8)) (addf (broadcastInDim S1x65536 ![] bcast_S_S1x65536 (constant S_ .f32 0x3F800000#32)) (extractStridedSlice S1x65536 ![0, 0] (W (Proc.devRef .tc main_v7)) slices_S31x65536_S1x65536_0_0))) (broadcastInDim S1x65536 ![] bcast_S_S1x65536 (constant S_ .f32 0x3F000000#32))))⟩, ⟨S1x1x65536, (broadcastInDim S1x1x65536 ![0, 2] bcast_S1x65536_S1x1x65536_0_2 (mulf (mulf (W (Proc.devRef .tc main_v8)) (subf (broadcastInDim S1x65536 ![] bcast_S_S1x65536 (constant S_ .f32 0x3F800000#32)) (extractStridedSlice S1x65536 ![0, 0] (W (Proc.devRef .tc main_v7)) slices_S31x65536_S1x65536_0_0))) (broadcastInDim S1x65536 ![] bcast_S_S1x65536 (constant S_ .f32 0x3F000000#32))))⟩] concatenates_S1x1x65536_S1x1x65536_S1x2x65536_d1) shapeCasts_S1x2x65536_S2x65536 := by
  simp only [c1]; after_results_simp <;> rfl
theorem c1_keep_v3 : after (c1 (F := F)) W (Proc.devRef .tc main_v3) = W (Proc.devRef .tc main_v3) := by
  simp only [c1]; after_results_simp
theorem c1_keep_v7 : after (c1 (F := F)) W (Proc.devRef .tc main_v7) = W (Proc.devRef .tc main_v7) := by
  simp only [c1]; after_results_simp
theorem c1_keep_v8 : after (c1 (F := F)) W (Proc.devRef .tc main_v8) = W (Proc.devRef .tc main_v8) := by
  simp only [c1]; after_results_simp
theorem c1_keep_arg2 : after (c1 (F := F)) W (Proc.devRef .tc main_arg2) = W (Proc.devRef .tc main_arg2) := by
  simp only [c1]; after_results_simp
theorem c1_keep_arg3 : after (c1 (F := F)) W (Proc.devRef .tc main_arg3) = W (Proc.devRef .tc main_arg3) := by
  simp only [c1]; after_results_simp

theorem c2_out : after (c2 (F := F)) W (Proc.devRef .tc main_v38) = shapeCast _ (concatenate S2x2x65536 1 [⟨S2x1x65536, (broadcastInDim S2x1x65536 ![0, 2] bcast_S2x65536_S2x1x65536_0_2 (mulf (mulf (W (Proc.devRef .tc main_v23)) (addf (broadcastInDim S2x65536 ![] bcast_S_S2x65536 (constant S_ .f32 0x3F800000#32)) (extractStridedSlice S2x65536 ![1, 0] (W (Proc.devRef .tc main_v7)) slices_S31x65536_S2x65536_1_0))) (broadcastInDim S2x65536 ![] bcast_S_S2x65536 (constant S_ .f32 0x3F000000#32))))⟩, ⟨S2x1x65536, (broadcastInDim S2x1x65536 ![0, 2] bcast_S2x65536_S2x1x65536_0_2 (mulf (mulf (W (Proc.devRef .tc main_v23)) (subf (broadcastInDim S2x65536 ![] bcast_S_S2x65536 (constant S_ .f32 0x3F800000#32)) (extractStridedSlice S2x65536 ![1, 0] (W (Proc.devRef .tc main_v7)) slices_S31x65536_S2x65536_1_0))) (broadcastInDim S2x65536 ![] bcast_S_S2x65536 (constant S_ .f32 0x3F000000#32))))⟩] concatenates_S2x1x65536_S2x1x65536_S2x2x65536_d1) shapeCasts_S2x2x65536_S4x65536 := by
  simp only [c2]; after_results_simp <;> rfl
theorem c2_keep_v3 : after (c2 (F := F)) W (Proc.devRef .tc main_v3) = W (Proc.devRef .tc main_v3) := by
  simp only [c2]; after_results_simp
theorem c2_keep_v7 : after (c2 (F := F)) W (Proc.devRef .tc main_v7) = W (Proc.devRef .tc main_v7) := by
  simp only [c2]; after_results_simp
theorem c2_keep_v8 : after (c2 (F := F)) W (Proc.devRef .tc main_v8) = W (Proc.devRef .tc main_v8) := by
  simp only [c2]; after_results_simp
theorem c2_keep_v23 : after (c2 (F := F)) W (Proc.devRef .tc main_v23) = W (Proc.devRef .tc main_v23) := by
  simp only [c2]; after_results_simp
theorem c2_keep_arg2 : after (c2 (F := F)) W (Proc.devRef .tc main_arg2) = W (Proc.devRef .tc main_arg2) := by
  simp only [c2]; after_results_simp
theorem c2_keep_arg3 : after (c2 (F := F)) W (Proc.devRef .tc main_arg3) = W (Proc.devRef .tc main_arg3) := by
  simp only [c2]; after_results_simp

theorem c3_out : after (c3 (F := F)) W (Proc.devRef .tc main_v53) = shapeCast _ (concatenate S4x2x65536 1 [⟨S4x1x65536, (broadcastInDim S4x1x65536 ![0, 2] bcast_S4x65536_S4x1x65536_0_2 (mulf (mulf (W (Proc.devRef .tc main_v38)) (addf (broadcastInDim S4x65536 ![] bcast_S_S4x65536 (constant S_ .f32 0x3F800000#32)) (extractStridedSlice S4x65536 ![3, 0] (W (Proc.devRef .tc main_v7)) slices_S31x65536_S4x65536_3_0))) (broadcastInDim S4x65536 ![] bcast_S_S4x65536 (constant S_ .f32 0x3F000000#32))))⟩, ⟨S4x1x65536, (broadcastInDim S4x1x65536 ![0, 2] bcast_S4x65536_S4x1x65536_0_2 (mulf (mulf (W (Proc.devRef .tc main_v38)) (subf (broadcastInDim S4x65536 ![] bcast_S_S4x65536 (constant S_ .f32 0x3F800000#32)) (extractStridedSlice S4x65536 ![3, 0] (W (Proc.devRef .tc main_v7)) slices_S31x65536_S4x65536_3_0))) (broadcastInDim S4x65536 ![] bcast_S_S4x65536 (constant S_ .f32 0x3F000000#32))))⟩] concatenates_S4x1x65536_S4x1x65536_S4x2x65536_d1) shapeCasts_S4x2x65536_S8x65536 := by
  simp only [c3]; after_results_simp <;> rfl
theorem c3_keep_v3 : after (c3 (F := F)) W (Proc.devRef .tc main_v3) = W (Proc.devRef .tc main_v3) := by
  simp only [c3]; after_results_simp
theorem c3_keep_v7 : after (c3 (F := F)) W (Proc.devRef .tc main_v7) = W (Proc.devRef .tc main_v7) := by
  simp only [c3]; after_results_simp
theorem c3_keep_v8 : after (c3 (F := F)) W (Proc.devRef .tc main_v8) = W (Proc.devRef .tc main_v8) := by
  simp only [c3]; after_results_simp
theorem c3_keep_v23 : after (c3 (F := F)) W (Proc.devRef .tc main_v23) = W (Proc.devRef .tc main_v23) := by
  simp only [c3]; after_results_simp
theorem c3_keep_v38 : after (c3 (F := F)) W (Proc.devRef .tc main_v38) = W (Proc.devRef .tc main_v38) := by
  simp only [c3]; after_results_simp
theorem c3_keep_arg2 : after (c3 (F := F)) W (Proc.devRef .tc main_arg2) = W (Proc.devRef .tc main_arg2) := by
  simp only [c3]; after_results_simp
theorem c3_keep_arg3 : after (c3 (F := F)) W (Proc.devRef .tc main_arg3) = W (Proc.devRef .tc main_arg3) := by
  simp only [c3]; after_results_simp

theorem c4_out : after (c4 (F := F)) W (Proc.devRef .tc main_v68) = shapeCast _ (concatenate S8x2x65536 1 [⟨S8x1x65536, (broadcastInDim S8x1x65536 ![0, 2] bcast_S8x65536_S8x1x65536_0_2 (mulf (mulf (W (Proc.devRef .tc main_v53)) (addf (broadcastInDim S8x65536 ![] bcast_S_S8x65536 (constant S_ .f32 0x3F800000#32)) (extractStridedSlice S8x65536 ![7, 0] (W (Proc.devRef .tc main_v7)) slices_S31x65536_S8x65536_7_0))) (broadcastInDim S8x65536 ![] bcast_S_S8x65536 (constant S_ .f32 0x3F000000#32))))⟩, ⟨S8x1x65536, (broadcastInDim S8x1x65536 ![0, 2] bcast_S8x65536_S8x1x65536_0_2 (mulf (mulf (W (Proc.devRef .tc main_v53)) (subf (broadcastInDim S8x65536 ![] bcast_S_S8x65536 (constant S_ .f32 0x3F800000#32)) (extractStridedSlice S8x65536 ![7, 0] (W (Proc.devRef .tc main_v7)) slices_S31x65536_S8x65536_7_0))) (broadcastInDim S8x65536 ![] bcast_S_S8x65536 (constant S_ .f32 0x3F000000#32))))⟩] concatenates_S8x1x65536_S8x1x65536_S8x2x65536_d1) shapeCasts_S8x2x65536_S16x65536 := by
  simp only [c4]; after_results_simp <;> rfl
theorem c4_keep_v3 : after (c4 (F := F)) W (Proc.devRef .tc main_v3) = W (Proc.devRef .tc main_v3) := by
  simp only [c4]; after_results_simp
theorem c4_keep_v7 : after (c4 (F := F)) W (Proc.devRef .tc main_v7) = W (Proc.devRef .tc main_v7) := by
  simp only [c4]; after_results_simp
theorem c4_keep_v8 : after (c4 (F := F)) W (Proc.devRef .tc main_v8) = W (Proc.devRef .tc main_v8) := by
  simp only [c4]; after_results_simp
theorem c4_keep_v23 : after (c4 (F := F)) W (Proc.devRef .tc main_v23) = W (Proc.devRef .tc main_v23) := by
  simp only [c4]; after_results_simp
theorem c4_keep_v38 : after (c4 (F := F)) W (Proc.devRef .tc main_v38) = W (Proc.devRef .tc main_v38) := by
  simp only [c4]; after_results_simp
theorem c4_keep_v53 : after (c4 (F := F)) W (Proc.devRef .tc main_v53) = W (Proc.devRef .tc main_v53) := by
  simp only [c4]; after_results_simp
theorem c4_keep_arg2 : after (c4 (F := F)) W (Proc.devRef .tc main_arg2) = W (Proc.devRef .tc main_arg2) := by
  simp only [c4]; after_results_simp
theorem c4_keep_arg3 : after (c4 (F := F)) W (Proc.devRef .tc main_arg3) = W (Proc.devRef .tc main_arg3) := by
  simp only [c4]; after_results_simp

theorem c5_out : after (c5 (F := F)) W (Proc.devRef .tc main_v83) = shapeCast _ (concatenate S16x2x65536 1 [⟨S16x1x65536, (broadcastInDim S16x1x65536 ![0, 2] bcast_S16x65536_S16x1x65536_0_2 (mulf (mulf (W (Proc.devRef .tc main_v68)) (addf (broadcastInDim S16x65536 ![] bcast_S_S16x65536 (constant S_ .f32 0x3F800000#32)) (extractStridedSlice S16x65536 ![15, 0] (W (Proc.devRef .tc main_v7)) slices_S31x65536_S16x65536_15_0))) (broadcastInDim S16x65536 ![] bcast_S_S16x65536 (constant S_ .f32 0x3F000000#32))))⟩, ⟨S16x1x65536, (broadcastInDim S16x1x65536 ![0, 2] bcast_S16x65536_S16x1x65536_0_2 (mulf (mulf (W (Proc.devRef .tc main_v68)) (subf (broadcastInDim S16x65536 ![] bcast_S_S16x65536 (constant S_ .f32 0x3F800000#32)) (extractStridedSlice S16x65536 ![15, 0] (W (Proc.devRef .tc main_v7)) slices_S31x65536_S16x65536_15_0))) (broadcastInDim S16x65536 ![] bcast_S_S16x65536 (constant S_ .f32 0x3F000000#32))))⟩] concatenates_S16x1x65536_S16x1x65536_S16x2x65536_d1) shapeCasts_S16x2x65536_S32x65536 := by
  simp only [c5]; after_results_simp <;> rfl
theorem c5_keep_v3 : after (c5 (F := F)) W (Proc.devRef .tc main_v3) = W (Proc.devRef .tc main_v3) := by
  simp only [c5]; after_results_simp
theorem c5_keep_v8 : after (c5 (F := F)) W (Proc.devRef .tc main_v8) = W (Proc.devRef .tc main_v8) := by
  simp only [c5]; after_results_simp
theorem c5_keep_v23 : after (c5 (F := F)) W (Proc.devRef .tc main_v23) = W (Proc.devRef .tc main_v23) := by
  simp only [c5]; after_results_simp
theorem c5_keep_v38 : after (c5 (F := F)) W (Proc.devRef .tc main_v38) = W (Proc.devRef .tc main_v38) := by
  simp only [c5]; after_results_simp
theorem c5_keep_v53 : after (c5 (F := F)) W (Proc.devRef .tc main_v53) = W (Proc.devRef .tc main_v53) := by
  simp only [c5]; after_results_simp
theorem c5_keep_v68 : after (c5 (F := F)) W (Proc.devRef .tc main_v68) = W (Proc.devRef .tc main_v68) := by
  simp only [c5]; after_results_simp
theorem c5_keep_arg2 : after (c5 (F := F)) W (Proc.devRef .tc main_arg2) = W (Proc.devRef .tc main_arg2) := by
  simp only [c5]; after_results_simp
theorem c5_keep_arg3 : after (c5 (F := F)) W (Proc.devRef .tc main_arg3) = W (Proc.devRef .tc main_arg3) := by
  simp only [c5]; after_results_simp

theorem c6_out : after (c6 (F := F)) W (Proc.devRef .tc main_v96) = Host.reduceAdd (mulf (mulf (broadcastInDim S63x10x65536 ![0, 1, 2] bcast_S63x1x65536_S63x10x65536_0_1_2 (broadcastInDim S63x1x65536 ![0, 2] bcast_S63x65536_S63x1x65536_0_2 (concatenate S63x65536 0 [⟨S1x65536, (W (Proc.devRef .tc main_v8))⟩, ⟨S2x65536, (W (Proc.devRef .tc main_v23))⟩, ⟨S4x65536, (W (Proc.devRef .tc main_v38))⟩, ⟨S8x65536, (W (Proc.devRef .tc main_v53))⟩, ⟨S16x65536, (W (Proc.devRef .tc main_v68))⟩, ⟨S32x65536, (W (Proc.devRef .tc main_v83))⟩] concatenates_S1x65536_S2x65536_S4x65536_S8x65536_S16x65536_S32x65536_S63x65536_d0))) (Host.dotGeneral dot_S63x10x64_S64x65536_S63x10x65536_2_0_01_1_n_n none (shapeCast _ (W (Proc.devRef .tc main_arg2)) shapeCasts_S630x64_S63x10x64) (W (Proc.devRef .tc main_v3)))) (Host.tanh (mulf (broadcastInDim S63x10x65536 ![] bcast_S_S63x10x65536 (constant S_ .f32 0x3F800000#32)) (Host.dotGeneral dot_S63x10x64_S64x65536_S63x10x65536_2_0_01_1_n_n none (shapeCast _ (W (Proc.devRef .tc main_arg3)) shapeCasts_S630x64_S63x10x64) (W (Proc.devRef .tc main_v3)))))) (constant S_ .f32 0x00000000#32) reducesTo_S63x10x65536_S10x65536_d0 h_S_ := by
  simp only [c6]; after_results_simp <;> rfl

end Pieces

/-! ## The contents before each piece, from the arguments' -/

section States
variable (V0 : Valuation τ sig (Elt F))

theorem s1_v3 : (after (c0 (F := F)) V0) (Proc.devRef .tc main_v3) = res_main_v3 V0 := c0_v3 V0
theorem s1_v7 : (after (c0 (F := F)) V0) (Proc.devRef .tc main_v7) = res_main_v7 V0 := c0_v7 V0
theorem s1_v8 : (after (c0 (F := F)) V0) (Proc.devRef .tc main_v8) = res_main_v8 V0 := c0_v8 V0
theorem s1_arg2 : (after (c0 (F := F)) V0) (Proc.devRef .tc main_arg2) = V0 (Proc.devRef .tc main_arg2) := c0_keep_arg2 V0
theorem s1_arg3 : (after (c0 (F := F)) V0) (Proc.devRef .tc main_arg3) = V0 (Proc.devRef .tc main_arg3) := c0_keep_arg3 V0

theorem s2_v23 : (after (c1 (F := F)) (after (c0 (F := F)) V0)) (Proc.devRef .tc main_v23) = res_main_v23 V0 := by
  rw [c1_out, s1_v8, s1_v7]
  rfl
theorem s2_v3 : (after (c1 (F := F)) (after (c0 (F := F)) V0)) (Proc.devRef .tc main_v3) = res_main_v3 V0 := by
  rw [c1_keep_v3, s1_v3]
theorem s2_v7 : (after (c1 (F := F)) (after (c0 (F := F)) V0)) (Proc.devRef .tc main_v7) = res_main_v7 V0 := by
  rw [c1_keep_v7, s1_v7]
theorem s2_v8 : (after (c1 (F := F)) (after (c0 (F := F)) V0)) (Proc.devRef .tc main_v8) = res_main_v8 V0 := by
  rw [c1_keep_v8, s1_v8]
theorem s2_arg2 : (after (c1 (F := F)) (after (c0 (F := F)) V0)) (Proc.devRef .tc main_arg2) = V0 (Proc.devRef .tc main_arg2) := by
  rw [c1_keep_arg2, s1_arg2]
theorem s2_arg3 : (after (c1 (F := F)) (after (c0 (F := F)) V0)) (Proc.devRef .tc main_arg3) = V0 (Proc.devRef .tc main_arg3) := by
  rw [c1_keep_arg3, s1_arg3]

theorem s3_v38 : (after (c2 (F := F)) (after (c1 (F := F)) (after (c0 (F := F)) V0))) (Proc.devRef .tc main_v38) = res_main_v38 V0 := by
  rw [c2_out, s2_v23, s2_v7]
  rfl
theorem s3_v3 : (after (c2 (F := F)) (after (c1 (F := F)) (after (c0 (F := F)) V0))) (Proc.devRef .tc main_v3) = res_main_v3 V0 := by
  rw [c2_keep_v3, s2_v3]
theorem s3_v7 : (after (c2 (F := F)) (after (c1 (F := F)) (after (c0 (F := F)) V0))) (Proc.devRef .tc main_v7) = res_main_v7 V0 := by
  rw [c2_keep_v7, s2_v7]
theorem s3_v8 : (after (c2 (F := F)) (after (c1 (F := F)) (after (c0 (F := F)) V0))) (Proc.devRef .tc main_v8) = res_main_v8 V0 := by
  rw [c2_keep_v8, s2_v8]
theorem s3_v23 : (after (c2 (F := F)) (after (c1 (F := F)) (after (c0 (F := F)) V0))) (Proc.devRef .tc main_v23) = res_main_v23 V0 := by
  rw [c2_keep_v23, s2_v23]
theorem s3_arg2 : (after (c2 (F := F)) (after (c1 (F := F)) (after (c0 (F := F)) V0))) (Proc.devRef .tc main_arg2) = V0 (Proc.devRef .tc main_arg2) := by
  rw [c2_keep_arg2, s2_arg2]
theorem s3_arg3 : (after (c2 (F := F)) (after (c1 (F := F)) (after (c0 (F := F)) V0))) (Proc.devRef .tc main_arg3) = V0 (Proc.devRef .tc main_arg3) := by
  rw [c2_keep_arg3, s2_arg3]

theorem s4_v53 : (after (c3 (F := F)) (after (c2 (F := F)) (after (c1 (F := F)) (after (c0 (F := F)) V0)))) (Proc.devRef .tc main_v53) = res_main_v53 V0 := by
  rw [c3_out, s3_v38, s3_v7]
  rfl
theorem s4_v3 : (after (c3 (F := F)) (after (c2 (F := F)) (after (c1 (F := F)) (after (c0 (F := F)) V0)))) (Proc.devRef .tc main_v3) = res_main_v3 V0 := by
  rw [c3_keep_v3, s3_v3]
theorem s4_v7 : (after (c3 (F := F)) (after (c2 (F := F)) (after (c1 (F := F)) (after (c0 (F := F)) V0)))) (Proc.devRef .tc main_v7) = res_main_v7 V0 := by
  rw [c3_keep_v7, s3_v7]
theorem s4_v8 : (after (c3 (F := F)) (after (c2 (F := F)) (after (c1 (F := F)) (after (c0 (F := F)) V0)))) (Proc.devRef .tc main_v8) = res_main_v8 V0 := by
  rw [c3_keep_v8, s3_v8]
theorem s4_v23 : (after (c3 (F := F)) (after (c2 (F := F)) (after (c1 (F := F)) (after (c0 (F := F)) V0)))) (Proc.devRef .tc main_v23) = res_main_v23 V0 := by
  rw [c3_keep_v23, s3_v23]
theorem s4_v38 : (after (c3 (F := F)) (after (c2 (F := F)) (after (c1 (F := F)) (after (c0 (F := F)) V0)))) (Proc.devRef .tc main_v38) = res_main_v38 V0 := by
  rw [c3_keep_v38, s3_v38]
theorem s4_arg2 : (after (c3 (F := F)) (after (c2 (F := F)) (after (c1 (F := F)) (after (c0 (F := F)) V0)))) (Proc.devRef .tc main_arg2) = V0 (Proc.devRef .tc main_arg2) := by
  rw [c3_keep_arg2, s3_arg2]
theorem s4_arg3 : (after (c3 (F := F)) (after (c2 (F := F)) (after (c1 (F := F)) (after (c0 (F := F)) V0)))) (Proc.devRef .tc main_arg3) = V0 (Proc.devRef .tc main_arg3) := by
  rw [c3_keep_arg3, s3_arg3]

theorem s5_v68 : (after (c4 (F := F)) (after (c3 (F := F)) (after (c2 (F := F)) (after (c1 (F := F)) (after (c0 (F := F)) V0))))) (Proc.devRef .tc main_v68) = res_main_v68 V0 := by
  rw [c4_out, s4_v53, s4_v7]
  rfl
theorem s5_v3 : (after (c4 (F := F)) (after (c3 (F := F)) (after (c2 (F := F)) (after (c1 (F := F)) (after (c0 (F := F)) V0))))) (Proc.devRef .tc main_v3) = res_main_v3 V0 := by
  rw [c4_keep_v3, s4_v3]
theorem s5_v7 : (after (c4 (F := F)) (after (c3 (F := F)) (after (c2 (F := F)) (after (c1 (F := F)) (after (c0 (F := F)) V0))))) (Proc.devRef .tc main_v7) = res_main_v7 V0 := by
  rw [c4_keep_v7, s4_v7]
theorem s5_v8 : (after (c4 (F := F)) (after (c3 (F := F)) (after (c2 (F := F)) (after (c1 (F := F)) (after (c0 (F := F)) V0))))) (Proc.devRef .tc main_v8) = res_main_v8 V0 := by
  rw [c4_keep_v8, s4_v8]
theorem s5_v23 : (after (c4 (F := F)) (after (c3 (F := F)) (after (c2 (F := F)) (after (c1 (F := F)) (after (c0 (F := F)) V0))))) (Proc.devRef .tc main_v23) = res_main_v23 V0 := by
  rw [c4_keep_v23, s4_v23]
theorem s5_v38 : (after (c4 (F := F)) (after (c3 (F := F)) (after (c2 (F := F)) (after (c1 (F := F)) (after (c0 (F := F)) V0))))) (Proc.devRef .tc main_v38) = res_main_v38 V0 := by
  rw [c4_keep_v38, s4_v38]
theorem s5_v53 : (after (c4 (F := F)) (after (c3 (F := F)) (after (c2 (F := F)) (after (c1 (F := F)) (after (c0 (F := F)) V0))))) (Proc.devRef .tc main_v53) = res_main_v53 V0 := by
  rw [c4_keep_v53, s4_v53]
theorem s5_arg2 : (after (c4 (F := F)) (after (c3 (F := F)) (after (c2 (F := F)) (after (c1 (F := F)) (after (c0 (F := F)) V0))))) (Proc.devRef .tc main_arg2) = V0 (Proc.devRef .tc main_arg2) := by
  rw [c4_keep_arg2, s4_arg2]
theorem s5_arg3 : (after (c4 (F := F)) (after (c3 (F := F)) (after (c2 (F := F)) (after (c1 (F := F)) (after (c0 (F := F)) V0))))) (Proc.devRef .tc main_arg3) = V0 (Proc.devRef .tc main_arg3) := by
  rw [c4_keep_arg3, s4_arg3]

theorem s6_v83 : (after (c5 (F := F)) (after (c4 (F := F)) (after (c3 (F := F)) (after (c2 (F := F)) (after (c1 (F := F)) (after (c0 (F := F)) V0)))))) (Proc.devRef .tc main_v83) = shapeCast _ (concatenate S16x2x65536 1 [⟨S16x1x65536, (broadcastInDim S16x1x65536 ![0, 2] bcast_S16x65536_S16x1x65536_0_2 (mulf (mulf (res_main_v68 V0) (addf (broadcastInDim S16x65536 ![] bcast_S_S16x65536 (constant S_ .f32 0x3F800000#32)) (res_main_v69 V0))) (broadcastInDim S16x65536 ![] bcast_S_S16x65536 (constant S_ .f32 0x3F000000#32))))⟩, ⟨S16x1x65536, (broadcastInDim S16x1x65536 ![0, 2] bcast_S16x65536_S16x1x65536_0_2 (mulf (mulf (res_main_v68 V0) (subf (broadcastInDim S16x65536 ![] bcast_S_S16x65536 (constant S_ .f32 0x3F800000#32)) (res_main_v69 V0))) (broadcastInDim S16x65536 ![] bcast_S_S16x65536 (constant S_ .f32 0x3F000000#32))))⟩] concatenates_S16x1x65536_S16x1x65536_S16x2x65536_d1) shapeCasts_S16x2x65536_S32x65536 := by
  rw [c5_out, s5_v68, s5_v7]
  rfl
theorem s6_v3 : (after (c5 (F := F)) (after (c4 (F := F)) (after (c3 (F := F)) (after (c2 (F := F)) (after (c1 (F := F)) (after (c0 (F := F)) V0)))))) (Proc.devRef .tc main_v3) = res_main_v3 V0 := by
  rw [c5_keep_v3, s5_v3]
theorem s6_v8 : (after (c5 (F := F)) (after (c4 (F := F)) (after (c3 (F := F)) (after (c2 (F := F)) (after (c1 (F := F)) (after (c0 (F := F)) V0)))))) (Proc.devRef .tc main_v8) = res_main_v8 V0 := by
  rw [c5_keep_v8, s5_v8]
theorem s6_v23 : (after (c5 (F := F)) (after (c4 (F := F)) (after (c3 (F := F)) (after (c2 (F := F)) (after (c1 (F := F)) (after (c0 (F := F)) V0)))))) (Proc.devRef .tc main_v23) = res_main_v23 V0 := by
  rw [c5_keep_v23, s5_v23]
theorem s6_v38 : (after (c5 (F := F)) (after (c4 (F := F)) (after (c3 (F := F)) (after (c2 (F := F)) (after (c1 (F := F)) (after (c0 (F := F)) V0)))))) (Proc.devRef .tc main_v38) = res_main_v38 V0 := by
  rw [c5_keep_v38, s5_v38]
theorem s6_v53 : (after (c5 (F := F)) (after (c4 (F := F)) (after (c3 (F := F)) (after (c2 (F := F)) (after (c1 (F := F)) (after (c0 (F := F)) V0)))))) (Proc.devRef .tc main_v53) = res_main_v53 V0 := by
  rw [c5_keep_v53, s5_v53]
theorem s6_v68 : (after (c5 (F := F)) (after (c4 (F := F)) (after (c3 (F := F)) (after (c2 (F := F)) (after (c1 (F := F)) (after (c0 (F := F)) V0)))))) (Proc.devRef .tc main_v68) = res_main_v68 V0 := by
  rw [c5_keep_v68, s5_v68]
theorem s6_arg2 : (after (c5 (F := F)) (after (c4 (F := F)) (after (c3 (F := F)) (after (c2 (F := F)) (after (c1 (F := F)) (after (c0 (F := F)) V0)))))) (Proc.devRef .tc main_arg2) = V0 (Proc.devRef .tc main_arg2) := by
  rw [c5_keep_arg2, s5_arg2]
theorem s6_arg3 : (after (c5 (F := F)) (after (c4 (F := F)) (after (c3 (F := F)) (after (c2 (F := F)) (after (c1 (F := F)) (after (c0 (F := F)) V0)))))) (Proc.devRef .tc main_arg3) = V0 (Proc.devRef .tc main_arg3) := by
  rw [c5_keep_arg3, s5_arg3]

/-- The result of the whole list: the composed term of the arguments' contents. -/
theorem v96_after : after (ops (F := F)) V0 (Proc.devRef .tc main_v96) = Host.reduceAdd (mulf (mulf (broadcastInDim S63x10x65536 ![0, 1, 2] bcast_S63x1x65536_S63x10x65536_0_1_2 (broadcastInDim S63x1x65536 ![0, 2] bcast_S63x65536_S63x1x65536_0_2 (concatenate S63x65536 0 [⟨S1x65536, (res_main_v8 V0)⟩, ⟨S2x65536, (res_main_v23 V0)⟩, ⟨S4x65536, (res_main_v38 V0)⟩, ⟨S8x65536, (res_main_v53 V0)⟩, ⟨S16x65536, (res_main_v68 V0)⟩, ⟨S32x65536, (shapeCast _ (concatenate S16x2x65536 1 [⟨S16x1x65536, (broadcastInDim S16x1x65536 ![0, 2] bcast_S16x65536_S16x1x65536_0_2 (mulf (mulf (res_main_v68 V0) (addf (broadcastInDim S16x65536 ![] bcast_S_S16x65536 (constant S_ .f32 0x3F800000#32)) (res_main_v69 V0))) (broadcastInDim S16x65536 ![] bcast_S_S16x65536 (constant S_ .f32 0x3F000000#32))))⟩, ⟨S16x1x65536, (broadcastInDim S16x1x65536 ![0, 2] bcast_S16x65536_S16x1x65536_0_2 (mulf (mulf (res_main_v68 V0) (subf (broadcastInDim S16x65536 ![] bcast_S_S16x65536 (constant S_ .f32 0x3F800000#32)) (res_main_v69 V0))) (broadcastInDim S16x65536 ![] bcast_S_S16x65536 (constant S_ .f32 0x3F000000#32))))⟩] concatenates_S16x1x65536_S16x1x65536_S16x2x65536_d1) shapeCasts_S16x2x65536_S32x65536)⟩] concatenates_S1x65536_S2x65536_S4x65536_S8x65536_S16x65536_S32x65536_S63x65536_d0))) (Host.dotGeneral dot_S63x10x64_S64x65536_S63x10x65536_2_0_01_1_n_n none (shapeCast _ (V0 (Proc.devRef .tc main_arg2)) shapeCasts_S630x64_S63x10x64) (res_main_v3 V0))) (Host.tanh (mulf (broadcastInDim S63x10x65536 ![] bcast_S_S63x10x65536 (constant S_ .f32 0x3F800000#32)) (Host.dotGeneral dot_S63x10x64_S64x65536_S63x10x65536_2_0_01_1_n_n none (shapeCast _ (V0 (Proc.devRef .tc main_arg3)) shapeCasts_S630x64_S63x10x64) (res_main_v3 V0))))) (constant S_ .f32 0x00000000#32) reducesTo_S63x10x65536_S10x65536_d0 h_S_ := by
  rw [ops_eq, after_append, after_append, after_append, after_append, after_append, after_append, c6_out,
    s6_v8, s6_v23, s6_v38, s6_v53, s6_v68, s6_v83, s6_arg2, s6_arg3, s6_v3]

end States

end Cert.ReferenceIdeal.RunP

end
-- ==== Proof.Spec.lean ====
/-
  What both programs compute for ONE sample (one row `x` of the batch), over the extended reals.

  The sample is projected, `xp p = (∑ d, Z p d · x d) · (1/64)`; every internal node `n` of a complete binary
  tree of depth 5 gets a branch indicator `th n = tanh (10⁹ · ∑ p, T n p · xp p)`; the probability of reaching a node
  is built level by level, the root at `1` and, under a parent at position `i` of level `d` (node `2^d − 1 + i`), the
  left child at position `2 i` of level `d + 1` with `prob · (1 + th) · ½` and the right child at position `2 i + 1`
  with `prob · (1 − th) · ½`; the levels laid end to end are the 63 nodes in breadth-first order; the score of class
  `c` is `∑ n, prob n · (∑ p, W n c p · xp p) · tanh (∑ p, V n c p · xp p)`.

  The float words stay words (`Ideal.ofBits`): the same word stands on both sides and is never evaluated, except
  `64` and `1/64`, which meet as a quotient on one side and a product on the other (`div_sixtyfour`).
-/
import Idealize.ShloMosaic.PureOps.Ideal
import Idealize.ShloMosaic.Lib.ValueIdx

noncomputable section

namespace Cert.Bonsai

open Idealize.ShloMosaic Idealize.ShloMosaic.ValueIdx

/-- The word of `1/64`. -/
abbrev inv64 : EReal := Ideal.ofBits .f32 0x3C800000#32
/-- The word of `64`. -/
abbrev sixtyfour : EReal := Ideal.ofBits .f32 0x42800000#32
/-- The word of `10⁹`, the sharpness of the branch indicator. -/
abbrev sharp : EReal := Ideal.ofBits .f32 0x4E6E6B28#32
/-- The word of `1`. -/
abbrev one : EReal := Ideal.ofBits .f32 0x3F800000#32
/-- The word of `½`. -/
abbrev half : EReal := Ideal.ofBits .f32 0x3F000000#32

/-- The projection of one sample. -/
def proj (Z : Fin 64 → Fin 1024 → EReal) (x : Fin 1024 → EReal) (p : Fin 64) : EReal :=
  (∑ d : Fin 1024, Z p d * x d) * inv64

/-- The branch indicator of internal node `n`. -/
def branch (T : Fin 31 → Fin 64 → EReal) (xp : Fin 64 → EReal) (n : Fin 31) : EReal :=
  Ideal.tanh (sharp * ∑ p : Fin 64, T n p * xp p)

/-- One level from the one above it: position `r` is a child of position `r / 2`, the left one when `r` is even. -/
def split {k : ℕ} (k2 : ℕ) (hk : k2 = 2 * k) (prev t : Fin k → EReal) (r : Fin k2) : EReal :=
  if r.val % 2 = 0 then
    prev ⟨r.val / 2, by have := r.isLt; omega⟩ * (one + t ⟨r.val / 2, by have := r.isLt; omega⟩) * half
  else
    prev ⟨r.val / 2, by have := r.isLt; omega⟩ * (one - t ⟨r.val / 2, by have := r.isLt; omega⟩) * half

/-- `split` of pointwise equal levels and indicators. -/
theorem split_congr {k : ℕ} (k2 : ℕ) (hk : k2 = 2 * k) {prev prev' t t' : Fin k → EReal}
    (hp : ∀ i, prev i = prev' i) (ht : ∀ i, t i = t' i) (r : Fin k2) :
    split k2 hk prev t r = split k2 hk prev' t' r := by
  rw [funext hp, funext ht]

section Levels
variable (th : Fin 31 → EReal)

/-- The root. -/
def lv0 : Fin 1 → EReal := fun _ => one
/-- Level 1 (nodes 1, 2), under node 0. -/
def lv1 : Fin 2 → EReal := split 2 rfl (lv0) (fun i => th ⟨0 + i.val, by have := i.isLt; omega⟩)
/-- Level 2 (nodes 3 … 6), under nodes 1, 2. -/
def lv2 : Fin 4 → EReal := split 4 rfl (lv1 th) (fun i => th ⟨1 + i.val, by have := i.isLt; omega⟩)
/-- Level 3 (nodes 7 … 14), under nodes 3 … 6. -/
def lv3 : Fin 8 → EReal := split 8 rfl (lv2 th) (fun i => th ⟨3 + i.val, by have := i.isLt; omega⟩)
/-- Level 4 (nodes 15 … 30), under nodes 7 … 14. -/
def lv4 : Fin 16 → EReal := split 16 rfl (lv3 th) (fun i => th ⟨7 + i.val, by have := i.isLt; omega⟩)
/-- Level 5 (the leaves, nodes 31 … 62), under nodes 15 … 30. -/
def lv5 : Fin 32 → EReal := split 32 rfl (lv4 th) (fun i => th ⟨15 + i.val, by have := i.isLt; omega⟩)

/-- The probability of reaching node `n`: the levels end to end. -/
def probs (n : Fin 63) : EReal :=
  if h1 : n.val < 1 then lv0 ⟨n.val, h1⟩
  else if h3 : n.val < 3 then lv1 th ⟨n.val - 1, by omega⟩
  else if h7 : n.val < 7 then lv2 th ⟨n.val - 3, by omega⟩
  else if h15 : n.val < 15 then lv3 th ⟨n.val - 7, by omega⟩
  else if h31 : n.val < 31 then lv4 th ⟨n.val - 15, by omega⟩
  else lv5 th ⟨n.val - 31, by have := n.isLt; omega⟩

end Levels

/-- The score of class `c`. -/
def score (Wf Vf : Fin 63 → Fin 10 → Fin 64 → EReal) (xp : Fin 64 → EReal) (pr : Fin 63 → EReal) (c : Fin 10) : EReal :=
  ∑ n : Fin 63, pr n * (∑ p : Fin 64, Wf n c p * xp p) * Ideal.tanh (∑ p : Fin 64, Vf n c p * xp p)

/-- One sample's scores. -/
def sample (Z : Fin 64 → Fin 1024 → EReal) (T : Fin 31 → Fin 64 → EReal) (Wf Vf : Fin 63 → Fin 10 → Fin 64 → EReal)
    (x : Fin 1024 → EReal) (c : Fin 10) : EReal :=
  score Wf Vf (proj Z x) (probs (branch T (proj Z x))) c

/-- The whole result: entry `(c, b)` is class `c`'s score of sample `b`; node `n`'s predictor of class `c` is row
    `10 n + c` of `W` and of `V`. -/
def G (X : (⟨2, ![65536, 1024]⟩ : Shape).Idx → EReal) (Z : (⟨2, ![64, 1024]⟩ : Shape).Idx → EReal)
    (W V : (⟨2, ![630, 64]⟩ : Shape).Idx → EReal) (T : (⟨2, ![31, 64]⟩ : Shape).Idx → EReal) :
    (⟨2, ![10, 65536]⟩ : Shape).Idx → EReal := fun i =>
  sample (fun p d => Z (ix2 p d)) (fun n p => T (ix2 n p))
    (fun n c p => W (ix2 ⟨n.val * 10 + c.val, by have := n.isLt; have := c.isLt; omega⟩ p))
    (fun n c p => V (ix2 ⟨n.val * 10 + c.val, by have := n.isLt; have := c.isLt; omega⟩ p))
    (fun d => X (ix2 (i 1) d)) (i 0)

/-- The words of `64` and of `1/64` are those numbers. -/
theorem sixtyfour_eq : sixtyfour = ((64 : ℝ) : EReal) := by
  simp [sixtyfour, Ideal.ofBits, Ideal.ieee, -EReal.coe_mul]; norm_num

theorem inv64_eq : inv64 = ((1 / 64 : ℝ) : EReal) := by
  simp [inv64, Ideal.ofBits, Ideal.ieee, -EReal.coe_mul]; norm_num

/-- Dividing by the word of `64` is multiplying by the word of `1/64`, on every extended real. -/
theorem div_sixtyfour (x : EReal) : Ideal.div x sixtyfour = x * inv64 := by
  rw [sixtyfour_eq, inv64_eq, Ideal.div_coe (by norm_num : (64 : ℝ) ≠ 0)]

/-- The word of `1` is the unit of the product, and the zero word the unit of the sum. -/
theorem one_eq : one = 1 := by
  simp [one, Ideal.ofBits, Ideal.ieee, -EReal.coe_mul]; norm_num

end Cert.Bonsai

end
-- ==== Proof.Layout.lean ====
/-
  Layout operations both programs use, read at an index, for any number `N` of columns (a block of the batch, or the
  whole batch): a middle unit axis put in by a shape cast or by a broadcast; the interleaving of two arrays' rows
  (left and right children side by side: rows `2 i` and `2 i + 1` of the result are row `i` of the first and of the
  second); the six levels of the tree laid end to end.
-/
import Idealize.ShloMosaic.Lib.Pipeline.Value
import Idealize.ShloMosaic.Lib.ValueLayout
import Idealize.ShloMosaic.Lib.ValueIdx

noncomputable section

namespace Cert.Bonsai

open Idealize.ShloMosaic Idealize.ShloMosaic.ValueIdx

variable {α : Type}

/-- `[k, N] → [k, 1, N]` by a shape cast: entry `(i, 0, j)` is entry `(i, j)`. -/
theorem unitAxis_cast_apply {k N : ℕ} (x : (⟨2, ![k, N]⟩ : Shape).Idx → α)
    (h : (⟨2, ![k, N]⟩ : Shape).ShapeCasts ⟨3, ![k, 1, N]⟩) (i : Fin k) (u : Fin 1) (j : Fin N) :
    shapeCast ⟨3, ![k, 1, N]⟩ x h (ix3 i u j) = x (ix2 i j) :=
  shapeCast_apply x h _ _ (by
    rw [Shape.rowMajor_val_two, Shape.rowMajor_val_three]
    show i.val * N + j.val = (i.val * 1 + u.val) * N + j.val
    have hu : u.val = 0 := by have := u.isLt; omega
    rw [hu, Nat.mul_one, Nat.add_zero])

/-- `[k, N] → [k, 1, N]` by a broadcast along axes 0 and 2: entry `(i, 0, j)` is entry `(i, j)`. -/
theorem unitAxis_bcast_apply {k N : ℕ} (x : (⟨2, ![k, N]⟩ : Shape).Idx → α)
    (h : (⟨2, ![k, N]⟩ : Shape).BroadcastsInDim ⟨3, ![k, 1, N]⟩ ![0, 2]) (i : Fin k) (u : Fin 1) (j : Fin N) :
    broadcastInDim ⟨3, ![k, 1, N]⟩ ![0, 2] h x (ix3 i u j) = x (ix2 i j) :=
  broadcastInDim_apply _ h x _ _ (fun a => by
    match a with
    | ⟨0, _⟩ =>
      show i.val = if k = 1 then 0 else i.val
      split
      · have := i.isLt; omega
      · rfl
    | ⟨1, _⟩ =>
      show j.val = if N = 1 then 0 else j.val
      split
      · have := j.isLt; omega
      · rfl)

/-- Two `[k, 1, N]` arrays side by side along the middle axis, then the rows run together: row `r` of the `[2 k, N]`
    result is row `r / 2` of the first array when `r` is even, of the second when `r` is odd. -/
theorem interleave_apply {k k2 N : ℕ} (hk2 : k2 = 2 * k) (a b : (⟨3, ![k, 1, N]⟩ : Shape).Idx → α)
    (hc : Shape.Concatenates [⟨3, ![k, 1, N]⟩, ⟨3, ![k, 1, N]⟩] ⟨3, ![k, 2, N]⟩ 1)
    (hs : (⟨3, ![k, 2, N]⟩ : Shape).ShapeCasts ⟨2, ![k2, N]⟩) (r : Fin k2) (j : Fin N) :
    shapeCast ⟨2, ![k2, N]⟩ (concatenate ⟨3, ![k, 2, N]⟩ 1 [⟨⟨3, ![k, 1, N]⟩, a⟩, ⟨⟨3, ![k, 1, N]⟩, b⟩] hc) hs (ix2 r j)
      = if r.val % 2 = 0 then a (ix3 ⟨r.val / 2, by have := r.isLt; omega⟩ 0 j)
        else b (ix3 ⟨r.val / 2, by have := r.isLt; omega⟩ 0 j) := by
  have hr2 : r.val / 2 < k := by have := r.isLt; omega
  have hm2 : r.val % 2 < 2 := Nat.mod_lt _ (by decide)
  refine (shapeCast_apply _ hs (ix2 r j) (ix3 ⟨r.val / 2, hr2⟩ ⟨r.val % 2, hm2⟩ j) (by
    rw [Shape.rowMajor_val_two, Shape.rowMajor_val_three]
    show (r.val / 2 * 2 + r.val % 2) * N + j.val = r.val * N + j.val
    have : r.val / 2 * 2 + r.val % 2 = r.val := by omega
    rw [this])).trans ?_
  split
  · next h0 =>
    exact concatenate_pair_apply_left (t := ⟨3, ![k, 2, N]⟩) (s₁ := ⟨3, ![k, 1, N]⟩) (s₂ := ⟨3, ![k, 1, N]⟩) 1 a b hc (ix3 ⟨r.val / 2, hr2⟩ ⟨r.val % 2, hm2⟩ j) rfl (ix3 ⟨r.val / 2, hr2⟩ 0 j) (fun c => by
      match c with
      | ⟨0, _⟩ => rfl
      | ⟨1, _⟩ => show (0 : ℕ) = r.val % 2; omega
      | ⟨2, _⟩ => rfl)
  · next h1 =>
    exact concatenate_pair_apply_right (t := ⟨3, ![k, 2, N]⟩) (s₁ := ⟨3, ![k, 1, N]⟩) (s₂ := ⟨3, ![k, 1, N]⟩) 1 a b hc (ix3 ⟨r.val / 2, hr2⟩ ⟨r.val % 2, hm2⟩ j) rfl rfl (ix3 ⟨r.val / 2, hr2⟩ 0 j) (fun c hne => by
      match c with
      | ⟨0, _⟩ => rfl
      | ⟨1, _⟩ => exact absurd rfl hne
      | ⟨2, _⟩ => rfl) (by show (0 : ℕ) + 1 = r.val % 2; omega)

/-- The six levels end to end: row `n` of the `[63, N]` array is row `n − (2^d − 1)` of level `d`, for the `d` with
    `2^d − 1 ≤ n < 2^(d+1) − 1`. -/
theorem levels_apply {N : ℕ} (x0 : (⟨2, ![1, N]⟩ : Shape).Idx → α) (x1 : (⟨2, ![2, N]⟩ : Shape).Idx → α)
    (x2 : (⟨2, ![4, N]⟩ : Shape).Idx → α) (x3 : (⟨2, ![8, N]⟩ : Shape).Idx → α) (x4 : (⟨2, ![16, N]⟩ : Shape).Idx → α)
    (x5 : (⟨2, ![32, N]⟩ : Shape).Idx → α)
    (h : Shape.Concatenates [⟨2, ![1, N]⟩, ⟨2, ![2, N]⟩, ⟨2, ![4, N]⟩, ⟨2, ![8, N]⟩, ⟨2, ![16, N]⟩, ⟨2, ![32, N]⟩] ⟨2, ![63, N]⟩ 0)
    (n : Fin 63) (j : Fin N) :
    concatenate ⟨2, ![63, N]⟩ 0 [⟨⟨2, ![1, N]⟩, x0⟩, ⟨⟨2, ![2, N]⟩, x1⟩, ⟨⟨2, ![4, N]⟩, x2⟩, ⟨⟨2, ![8, N]⟩, x3⟩,
        ⟨⟨2, ![16, N]⟩, x4⟩, ⟨⟨2, ![32, N]⟩, x5⟩] h (ix2 n j)
      = if h1 : n.val < 1 then x0 (ix2 ⟨n.val, h1⟩ j)
        else if h3 : n.val < 3 then x1 (ix2 ⟨n.val - 1, by omega⟩ j)
        else if h7 : n.val < 7 then x2 (ix2 ⟨n.val - 3, by omega⟩ j)
        else if h15 : n.val < 15 then x3 (ix2 ⟨n.val - 7, by omega⟩ j)
        else if h31 : n.val < 31 then x4 (ix2 ⟨n.val - 15, by omega⟩ j)
        else x5 (ix2 ⟨n.val - 31, by have := n.isLt; omega⟩ j) := by
  have hn := n.isLt
  split
  · next h1 =>
    exact concatenate_apply_piece (t := ⟨2, ![63, N]⟩) 0 [⟨⟨2, ![1, N]⟩, x0⟩, ⟨⟨2, ![2, N]⟩, x1⟩, ⟨⟨2, ![4, N]⟩, x2⟩, ⟨⟨2, ![8, N]⟩, x3⟩, ⟨⟨2, ![16, N]⟩, x4⟩, ⟨⟨2, ![32, N]⟩, x5⟩] h (ix2 n j) 0 (by simp) ⟨2, ![1, N]⟩ x0 rfl rfl 0 rfl (ix2 ⟨n.val, h1⟩ j) (fun c hne => by match c with | ⟨0, _⟩ => exact absurd rfl hne | ⟨1, _⟩ => rfl) (by show 0 + n.val = n.val; omega)
  · next h1 =>
    split
    · next h3 =>
      exact concatenate_apply_piece (t := ⟨2, ![63, N]⟩) 0 [⟨⟨2, ![1, N]⟩, x0⟩, ⟨⟨2, ![2, N]⟩, x1⟩, ⟨⟨2, ![4, N]⟩, x2⟩, ⟨⟨2, ![8, N]⟩, x3⟩, ⟨⟨2, ![16, N]⟩, x4⟩, ⟨⟨2, ![32, N]⟩, x5⟩] h (ix2 n j) 1 (by simp) ⟨2, ![2, N]⟩ x1 rfl rfl 1 rfl (ix2 ⟨n.val - 1, by omega⟩ j) (fun c hne => by match c with | ⟨0, _⟩ => exact absurd rfl hne | ⟨1, _⟩ => rfl) (by show 1 + (n.val - 1) = n.val; omega)
    · next h3 =>
      split
      · next h7 =>
        exact concatenate_apply_piece (t := ⟨2, ![63, N]⟩) 0 [⟨⟨2, ![1, N]⟩, x0⟩, ⟨⟨2, ![2, N]⟩, x1⟩, ⟨⟨2, ![4, N]⟩, x2⟩, ⟨⟨2, ![8, N]⟩, x3⟩, ⟨⟨2, ![16, N]⟩, x4⟩, ⟨⟨2, ![32, N]⟩, x5⟩] h (ix2 n j) 2 (by simp) ⟨2, ![4, N]⟩ x2 rfl rfl 3 rfl (ix2 ⟨n.val - 3, by omega⟩ j) (fun c hne => by match c with | ⟨0, _⟩ => exact absurd rfl hne | ⟨1, _⟩ => rfl) (by show 3 + (n.val - 3) = n.val; omega)
      · next h7 =>
        split
        · next h15 =>
          exact concatenate_apply_piece (t := ⟨2, ![63, N]⟩) 0 [⟨⟨2, ![1, N]⟩, x0⟩, ⟨⟨2, ![2, N]⟩, x1⟩, ⟨⟨2, ![4, N]⟩, x2⟩, ⟨⟨2, ![8, N]⟩, x3⟩, ⟨⟨2, ![16, N]⟩, x4⟩, ⟨⟨2, ![32, N]⟩, x5⟩] h (ix2 n j) 3 (by simp) ⟨2, ![8, N]⟩ x3 rfl rfl 7 rfl (ix2 ⟨n.val - 7, by omega⟩ j) (fun c hne => by match c with | ⟨0, _⟩ => exact absurd rfl hne | ⟨1, _⟩ => rfl) (by show 7 + (n.val - 7) = n.val; omega)
        · next h15 =>
          split
          · next h31 =>
            exact concatenate_apply_piece (t := ⟨2, ![63, N]⟩) 0 [⟨⟨2, ![1, N]⟩, x0⟩, ⟨⟨2, ![2, N]⟩, x1⟩, ⟨⟨2, ![4, N]⟩, x2⟩, ⟨⟨2, ![8, N]⟩, x3⟩, ⟨⟨2, ![16, N]⟩, x4⟩, ⟨⟨2, ![32, N]⟩, x5⟩] h (ix2 n j) 4 (by simp) ⟨2, ![16, N]⟩ x4 rfl rfl 15 rfl (ix2 ⟨n.val - 15, by omega⟩ j) (fun c hne => by match c with | ⟨0, _⟩ => exact absurd rfl hne | ⟨1, _⟩ => rfl) (by show 15 + (n.val - 15) = n.val; omega)
          · next h31 =>
            exact concatenate_apply_piece (t := ⟨2, ![63, N]⟩) 0 [⟨⟨2, ![1, N]⟩, x0⟩, ⟨⟨2, ![2, N]⟩, x1⟩, ⟨⟨2, ![4, N]⟩, x2⟩, ⟨⟨2, ![8, N]⟩, x3⟩, ⟨⟨2, ![16, N]⟩, x4⟩, ⟨⟨2, ![32, N]⟩, x5⟩] h (ix2 n j) 5 (by simp) ⟨2, ![32, N]⟩ x5 rfl rfl 31 rfl (ix2 ⟨n.val - 31, by omega⟩ j) (fun c hne => by match c with | ⟨0, _⟩ => exact absurd rfl hne | ⟨1, _⟩ => rfl) (by show 31 + (n.val - 31) = n.val; omega)

end Cert.Bonsai

end
-- ==== Proof.Level.lean ====
/-
  One level of the tree from the one above it, for any number `N` of columns, as each program spells it: the children's
  probabilities `prev · (1 + t) · ½` and `prev · (1 − t) · ½` get a middle unit axis, stand side by side along it, and the
  rows are run together. Row `r` of the result is the specification's `split` at `r`. The two spellings differ in how the
  unit axis is made (a shape cast, or a broadcast) and in how a constant fills an array (a splat, or a broadcast of a
  scalar).
-/
import proofs.«161576_j2078764171322_1_alg».proof.Proof.Spec
import proofs.«161576_j2078764171322_1_alg».proof.Proof.Layout
import Idealize.ShloMosaic.Lib.IdealHost

noncomputable section

namespace Cert.Bonsai

open Idealize.ShloMosaic Idealize.ShloMosaic.ValueIdx

/-- A level in the kernel's spelling. -/
theorem level_vector_apply {k k2 N : ℕ} (hk2 : k2 = 2 * k) (prev tsl : FVec Ideal ⟨2, ![k, N]⟩ .f32)
    (he : (⟨2, ![k, N]⟩ : Shape).ShapeCasts ⟨3, ![k, 1, N]⟩)
    (hc : Shape.Concatenates [⟨3, ![k, 1, N]⟩, ⟨3, ![k, 1, N]⟩] ⟨3, ![k, 2, N]⟩ 1)
    (hs : (⟨3, ![k, 2, N]⟩ : Shape).ShapeCasts ⟨2, ![k2, N]⟩) (r : Fin k2) (j : Fin N) :
    shapeCast ⟨2, ![k2, N]⟩ (concatenate ⟨3, ![k, 2, N]⟩ 1
        [⟨⟨3, ![k, 1, N]⟩, shapeCast ⟨3, ![k, 1, N]⟩
            (mulf (mulf prev (addf (broadcast ⟨2, ![k, N]⟩ (Scalar.ofBits .f32 0x3F800000#32)) tsl))
              (broadcast ⟨2, ![k, N]⟩ (Scalar.ofBits .f32 0x3F000000#32))) he⟩,
         ⟨⟨3, ![k, 1, N]⟩, shapeCast ⟨3, ![k, 1, N]⟩
            (mulf (mulf prev (subf (broadcast ⟨2, ![k, N]⟩ (Scalar.ofBits .f32 0x3F800000#32)) tsl))
              (broadcast ⟨2, ![k, N]⟩ (Scalar.ofBits .f32 0x3F000000#32))) he⟩] hc) hs (ix2 r j)
      = split k2 hk2 (fun i => prev (ix2 i j)) (fun i => tsl (ix2 i j)) r := by
  refine (interleave_apply hk2 _ _ hc hs r j).trans ?_
  unfold split
  split
  · rw [unitAxis_cast_apply]; rfl
  · rw [unitAxis_cast_apply]; rfl

/-- A level in the reference's spelling. -/
theorem level_host_apply {k k2 N : ℕ} (hk2 : k2 = 2 * k) (prev tsl : FVec Ideal ⟨2, ![k, N]⟩ .f32)
    (hb : (⟨0, ![]⟩ : Shape).BroadcastsInDim ⟨2, ![k, N]⟩ ![])
    (he : (⟨2, ![k, N]⟩ : Shape).BroadcastsInDim ⟨3, ![k, 1, N]⟩ ![0, 2])
    (hc : Shape.Concatenates [⟨3, ![k, 1, N]⟩, ⟨3, ![k, 1, N]⟩] ⟨3, ![k, 2, N]⟩ 1)
    (hs : (⟨3, ![k, 2, N]⟩ : Shape).ShapeCasts ⟨2, ![k2, N]⟩) (r : Fin k2) (j : Fin N) :
    shapeCast ⟨2, ![k2, N]⟩ (concatenate ⟨3, ![k, 2, N]⟩ 1
        [⟨⟨3, ![k, 1, N]⟩, broadcastInDim ⟨3, ![k, 1, N]⟩ ![0, 2] he
            (mulf (mulf prev (addf (broadcastInDim ⟨2, ![k, N]⟩ ![] hb (constant (F := Ideal) ⟨0, ![]⟩ .f32 0x3F800000#32)) tsl))
              (broadcastInDim ⟨2, ![k, N]⟩ ![] hb (constant (F := Ideal) ⟨0, ![]⟩ .f32 0x3F000000#32)))⟩,
         ⟨⟨3, ![k, 1, N]⟩, broadcastInDim ⟨3, ![k, 1, N]⟩ ![0, 2] he
            (mulf (mulf prev (subf (broadcastInDim ⟨2, ![k, N]⟩ ![] hb (constant (F := Ideal) ⟨0, ![]⟩ .f32 0x3F800000#32)) tsl))
              (broadcastInDim ⟨2, ![k, N]⟩ ![] hb (constant (F := Ideal) ⟨0, ![]⟩ .f32 0x3F000000#32)))⟩] hc) hs (ix2 r j)
      = split k2 hk2 (fun i => prev (ix2 i j)) (fun i => tsl (ix2 i j)) r := by
  refine (interleave_apply hk2 _ _ hc hs r j).trans ?_
  unfold split
  split
  · rw [unitAxis_bcast_apply]; rfl
  · rw [unitAxis_bcast_apply]; rfl

end Cert.Bonsai

end
-- ==== Proof.KDots.lean ====
/-
  The kernel's three matrix products into a zero accumulator, read at an index at the ideal values: entry `(p, j)` is the
  sum over the one contracted axis of the products of the operands' entries. One lemma per operand axis says which
  coordinate of the result index (or of the contraction index) that axis reads.
-/
import proofs.«161576_j2078764171322_1_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

/-! ### `dot_S64x1024_S2048x1024_S64x2048_1_1_0_0_n_n` -/

theorem lhs_zx_0 (i : S64x2048.Idx) (q : dot_S64x1024_S2048x1024_S64x2048_1_1_0_0_n_n.contr.Idx) : (dot_S64x1024_S2048x1024_S64x2048_1_1_0_0_n_n.lhsIdx i q 0).val = (i 0).val := by
  unfold DotDims.lhsIdx
  rw [dif_neg (show ¬(0 : Fin S64x1024.rank) ∈ dot_S64x1024_S2048x1024_S64x2048_1_1_0_0_n_n.lhsBatch by decide), dif_pos (show (0 : Fin S64x1024.rank) ∈ dot_S64x1024_S2048x1024_S64x2048_1_1_0_0_n_n.lhsNonContracting by decide)]
  rfl

theorem lhs_zx_1 (i : S64x2048.Idx) (q : dot_S64x1024_S2048x1024_S64x2048_1_1_0_0_n_n.contr.Idx) : (dot_S64x1024_S2048x1024_S64x2048_1_1_0_0_n_n.lhsIdx i q 1).val = (q ⟨0, by decide⟩).val :=
  dot_S64x1024_S2048x1024_S64x2048_1_1_0_0_n_n.lhsIdx_val_of_single rfl i q

theorem rhs_zx_0 (i : S64x2048.Idx) (q : dot_S64x1024_S2048x1024_S64x2048_1_1_0_0_n_n.contr.Idx) : (dot_S64x1024_S2048x1024_S64x2048_1_1_0_0_n_n.rhsIdx i q 0).val = (i 1).val := by
  unfold DotDims.rhsIdx
  rw [dif_neg (show ¬(0 : Fin S2048x1024.rank) ∈ dot_S64x1024_S2048x1024_S64x2048_1_1_0_0_n_n.rhsBatch by decide), dif_pos (show (0 : Fin S2048x1024.rank) ∈ dot_S64x1024_S2048x1024_S64x2048_1_1_0_0_n_n.rhsNonContracting by decide)]
  rfl

theorem rhs_zx_1 (i : S64x2048.Idx) (q : dot_S64x1024_S2048x1024_S64x2048_1_1_0_0_n_n.contr.Idx) : (dot_S64x1024_S2048x1024_S64x2048_1_1_0_0_n_n.rhsIdx i q 1).val = (q ⟨0, by decide⟩).val :=
  dot_S64x1024_S2048x1024_S64x2048_1_1_0_0_n_n.rhsIdx_val_of_single rfl i q

/-- `Z · Xᵀ` on a block: entry `(p, j)` is `∑ d, Z p d · X j d` (both operands contracted on their second axis). -/
theorem matmul_zx_apply {φ₁ φ₂ : FTy} (l : FVec Ideal S64x1024 φ₁) (r : FVec Ideal S2048x1024 φ₂) (p : Fin 64) (j : Fin 2048) :
    matmul dot_S64x1024_S2048x1024_S64x2048_1_1_0_0_n_n none l r (constant S64x2048 .f32 0x00000000#32) (ix2 p j)
      = ∑ k : Fin 1024, l (ix2 p k) * r (ix2 j k) := by
  refine (Ideal.matmul_constant_zero_apply dot_S64x1024_S2048x1024_S64x2048_1_1_0_0_n_n none l r _).trans ?_
  rw [← Equiv.sum_comp (contrEquiv1 dot_S64x1024_S2048x1024_S64x2048_1_1_0_0_n_n 1024 rfl rfl).symm]
  refine Finset.sum_congr rfl fun k _ => ?_
  have hk := contrEquiv1_symm_val dot_S64x1024_S2048x1024_S64x2048_1_1_0_0_n_n 1024 rfl rfl k
  have el : dot_S64x1024_S2048x1024_S64x2048_1_1_0_0_n_n.lhsIdx (ix2 p j) ((contrEquiv1 dot_S64x1024_S2048x1024_S64x2048_1_1_0_0_n_n 1024 rfl rfl).symm k) = ix2 p k :=
    funext fun a => Fin.ext (by
      match a with
      | ⟨0, _⟩ => exact lhs_zx_0 _ _
      | ⟨1, _⟩ => exact (lhs_zx_1 _ _).trans hk)
  have er : dot_S64x1024_S2048x1024_S64x2048_1_1_0_0_n_n.rhsIdx (ix2 p j) ((contrEquiv1 dot_S64x1024_S2048x1024_S64x2048_1_1_0_0_n_n 1024 rfl rfl).symm k) = ix2 j k :=
    funext fun a => Fin.ext (by
      match a with
      | ⟨0, _⟩ => exact rhs_zx_0 _ _
      | ⟨1, _⟩ => exact (rhs_zx_1 _ _).trans hk)
  rw [el, er]

/-! ### `dot_S31x64_S64x2048_S31x2048_1_0_0_1_n_n` -/

theorem lhs_tx_0 (i : S31x2048.Idx) (q : dot_S31x64_S64x2048_S31x2048_1_0_0_1_n_n.contr.Idx) : (dot_S31x64_S64x2048_S31x2048_1_0_0_1_n_n.lhsIdx i q 0).val = (i 0).val := by
  unfold DotDims.lhsIdx
  rw [dif_neg (show ¬(0 : Fin S31x64.rank) ∈ dot_S31x64_S64x2048_S31x2048_1_0_0_1_n_n.lhsBatch by decide), dif_pos (show (0 : Fin S31x64.rank) ∈ dot_S31x64_S64x2048_S31x2048_1_0_0_1_n_n.lhsNonContracting by decide)]
  rfl

theorem lhs_tx_1 (i : S31x2048.Idx) (q : dot_S31x64_S64x2048_S31x2048_1_0_0_1_n_n.contr.Idx) : (dot_S31x64_S64x2048_S31x2048_1_0_0_1_n_n.lhsIdx i q 1).val = (q ⟨0, by decide⟩).val :=
  dot_S31x64_S64x2048_S31x2048_1_0_0_1_n_n.lhsIdx_val_of_single rfl i q

theorem rhs_tx_1 (i : S31x2048.Idx) (q : dot_S31x64_S64x2048_S31x2048_1_0_0_1_n_n.contr.Idx) : (dot_S31x64_S64x2048_S31x2048_1_0_0_1_n_n.rhsIdx i q 1).val = (i 1).val := by
  unfold DotDims.rhsIdx
  rw [dif_neg (show ¬(1 : Fin S64x2048.rank) ∈ dot_S31x64_S64x2048_S31x2048_1_0_0_1_n_n.rhsBatch by decide), dif_pos (show (1 : Fin S64x2048.rank) ∈ dot_S31x64_S64x2048_S31x2048_1_0_0_1_n_n.rhsNonContracting by decide)]
  rfl

theorem rhs_tx_0 (i : S31x2048.Idx) (q : dot_S31x64_S64x2048_S31x2048_1_0_0_1_n_n.contr.Idx) : (dot_S31x64_S64x2048_S31x2048_1_0_0_1_n_n.rhsIdx i q 0).val = (q ⟨0, by decide⟩).val :=
  dot_S31x64_S64x2048_S31x2048_1_0_0_1_n_n.rhsIdx_val_of_single rfl i q

/-- `T · Xp` on a block: entry `(n, j)` is `∑ p, T n p · Xp p j`. -/
theorem matmul_tx_apply {φ₁ φ₂ : FTy} (l : FVec Ideal S31x64 φ₁) (r : FVec Ideal S64x2048 φ₂) (n : Fin 31) (j : Fin 2048) :
    matmul dot_S31x64_S64x2048_S31x2048_1_0_0_1_n_n none l r (constant S31x2048 .f32 0x00000000#32) (ix2 n j)
      = ∑ k : Fin 64, l (ix2 n k) * r (ix2 k j) := by
  refine (Ideal.matmul_constant_zero_apply dot_S31x64_S64x2048_S31x2048_1_0_0_1_n_n none l r _).trans ?_
  rw [← Equiv.sum_comp (contrEquiv1 dot_S31x64_S64x2048_S31x2048_1_0_0_1_n_n 64 rfl rfl).symm]
  refine Finset.sum_congr rfl fun k _ => ?_
  have hk := contrEquiv1_symm_val dot_S31x64_S64x2048_S31x2048_1_0_0_1_n_n 64 rfl rfl k
  have el : dot_S31x64_S64x2048_S31x2048_1_0_0_1_n_n.lhsIdx (ix2 n j) ((contrEquiv1 dot_S31x64_S64x2048_S31x2048_1_0_0_1_n_n 64 rfl rfl).symm k) = ix2 n k :=
    funext fun a => Fin.ext (by
      match a with
      | ⟨0, _⟩ => exact lhs_tx_0 _ _
      | ⟨1, _⟩ => exact (lhs_tx_1 _ _).trans hk)
  have er : dot_S31x64_S64x2048_S31x2048_1_0_0_1_n_n.rhsIdx (ix2 n j) ((contrEquiv1 dot_S31x64_S64x2048_S31x2048_1_0_0_1_n_n 64 rfl rfl).symm k) = ix2 k j :=
    funext fun a => Fin.ext (by
      match a with
      | ⟨0, _⟩ => exact (rhs_tx_0 _ _).trans hk
      | ⟨1, _⟩ => exact rhs_tx_1 _ _)
  rw [el, er]

/-! ### `dot_S63x64_S64x2048_S63x2048_1_0_0_1_n_n` -/

theorem lhs_wx_0 (i : S63x2048.Idx) (q : dot_S63x64_S64x2048_S63x2048_1_0_0_1_n_n.contr.Idx) : (dot_S63x64_S64x2048_S63x2048_1_0_0_1_n_n.lhsIdx i q 0).val = (i 0).val := by
  unfold DotDims.lhsIdx
  rw [dif_neg (show ¬(0 : Fin S63x64.rank) ∈ dot_S63x64_S64x2048_S63x2048_1_0_0_1_n_n.lhsBatch by decide), dif_pos (show (0 : Fin S63x64.rank) ∈ dot_S63x64_S64x2048_S63x2048_1_0_0_1_n_n.lhsNonContracting by decide)]
  rfl

theorem lhs_wx_1 (i : S63x2048.Idx) (q : dot_S63x64_S64x2048_S63x2048_1_0_0_1_n_n.contr.Idx) : (dot_S63x64_S64x2048_S63x2048_1_0_0_1_n_n.lhsIdx i q 1).val = (q ⟨0, by decide⟩).val :=
  dot_S63x64_S64x2048_S63x2048_1_0_0_1_n_n.lhsIdx_val_of_single rfl i q

theorem rhs_wx_1 (i : S63x2048.Idx) (q : dot_S63x64_S64x2048_S63x2048_1_0_0_1_n_n.contr.Idx) : (dot_S63x64_S64x2048_S63x2048_1_0_0_1_n_n.rhsIdx i q 1).val = (i 1).val := by
  unfold DotDims.rhsIdx
  rw [dif_neg (show ¬(1 : Fin S64x2048.rank) ∈ dot_S63x64_S64x2048_S63x2048_1_0_0_1_n_n.rhsBatch by decide), dif_pos (show (1 : Fin S64x2048.rank) ∈ dot_S63x64_S64x2048_S63x2048_1_0_0_1_n_n.rhsNonContracting by decide)]
  rfl

theorem rhs_wx_0 (i : S63x2048.Idx) (q : dot_S63x64_S64x2048_S63x2048_1_0_0_1_n_n.contr.Idx) : (dot_S63x64_S64x2048_S63x2048_1_0_0_1_n_n.rhsIdx i q 0).val = (q ⟨0, by decide⟩).val :=
  dot_S63x64_S64x2048_S63x2048_1_0_0_1_n_n.rhsIdx_val_of_single rfl i q

/-- One class's `W · Xp` (or `V · Xp`) on a block: entry `(n, j)` is `∑ p, W n p · Xp p j`. -/
theorem matmul_wx_apply {φ₁ φ₂ : FTy} (l : FVec Ideal S63x64 φ₁) (r : FVec Ideal S64x2048 φ₂) (n : Fin 63) (j : Fin 2048) :
    matmul dot_S63x64_S64x2048_S63x2048_1_0_0_1_n_n none l r (constant S63x2048 .f32 0x00000000#32) (ix2 n j)
      = ∑ k : Fin 64, l (ix2 n k) * r (ix2 k j) := by
  refine (Ideal.matmul_constant_zero_apply dot_S63x64_S64x2048_S63x2048_1_0_0_1_n_n none l r _).trans ?_
  rw [← Equiv.sum_comp (contrEquiv1 dot_S63x64_S64x2048_S63x2048_1_0_0_1_n_n 64 rfl rfl).symm]
  refine Finset.sum_congr rfl fun k _ => ?_
  have hk := contrEquiv1_symm_val dot_S63x64_S64x2048_S63x2048_1_0_0_1_n_n 64 rfl rfl k
  have el : dot_S63x64_S64x2048_S63x2048_1_0_0_1_n_n.lhsIdx (ix2 n j) ((contrEquiv1 dot_S63x64_S64x2048_S63x2048_1_0_0_1_n_n 64 rfl rfl).symm k) = ix2 n k :=
    funext fun a => Fin.ext (by
      match a with
      | ⟨0, _⟩ => exact lhs_wx_0 _ _
      | ⟨1, _⟩ => exact (lhs_wx_1 _ _).trans hk)
  have er : dot_S63x64_S64x2048_S63x2048_1_0_0_1_n_n.rhsIdx (ix2 n j) ((contrEquiv1 dot_S63x64_S64x2048_S63x2048_1_0_0_1_n_n 64 rfl rfl).symm k) = ix2 k j :=
    funext fun a => Fin.ext (by
      match a with
      | ⟨0, _⟩ => exact (rhs_wx_0 _ _).trans hk
      | ⟨1, _⟩ => exact rhs_wx_1 _ _)
  rw [el, er]

end Cert.KernelIdeal.Dots

end
-- ==== Proof.KValue.lean ====
/-
  The kernel's body on ONE block of the batch, index by index at the ideal values: for column `j` of the block (one
  sample, the row `j` of the block of `X`) every stage of the body is the specification's term for that sample — the
  projection, the branch indicators, the six levels of path probabilities, their 63 rows end to end, and for each
  class the sum over the nodes of `prob · (W · xp) · tanh (V · xp)`, where class `c`'s predictors are rows
  `63 c … 63 c + 62` of the class-major `W` and `V` the body is handed. Changes of float format are the identity here.
-/
import proofs.«161576_j2078764171322_1_alg».proof.Proof.Gen.KernelIdeal.Skeleton
import proofs.«161576_j2078764171322_1_alg».proof.Proof.Spec
import proofs.«161576_j2078764171322_1_alg».proof.Proof.Layout
import proofs.«161576_j2078764171322_1_alg».proof.Proof.Level
import proofs.«161576_j2078764171322_1_alg».proof.Proof.KDots
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Cert.KernelIdeal.Dots Cert.Bonsai Idealize.ShloMosaic Idealize.ShloMosaic.ValueIdx

variable (x0 : Vec Ideal S2048x1024 .f32) (x1 : Vec Ideal S64x1024 .f32) (x2 x3 : Vec Ideal S630x64 .f32)
  (x4 : Vec Ideal S31x64 .f32)

/-! ## The sample of column `j`, and the body's stages by name -/

/-- Column `j`'s projection. -/
abbrev xp (j : Fin 2048) : Fin 64 → EReal := proj (fun p d => x1 (ix2 p d)) (fun d => x0 (ix2 j d))
/-- Column `j`'s branch indicators. -/
abbrev th (j : Fin 2048) : Fin 31 → EReal := branch (fun n p => x4 (ix2 n p)) (xp x0 x1 j)

abbrev P2 : FVec Ideal S64x2048 .bf16 := k0_pay2 x0 x1
abbrev P3 : FVec Ideal S31x2048 .f32 := k0_pay3 x0 x1 x4
abbrev P5 : FVec Ideal S2x2048 .f32 := k0_pay5 x0 x1 x4
abbrev P7 : FVec Ideal S2x2048 .f32 := k0_pay7 x0 x1 x4
abbrev P8 : FVec Ideal S2x2048 .f32 := k0_pay8 x0 x1 x4
abbrev P10 : FVec Ideal S4x2048 .f32 := k0_pay10 (P7 x0 x1 x4) (P8 x0 x1 x4) (k0_pay9 (F := Ideal))
abbrev P11 : FVec Ideal S8x2048 .f32 := k0_pay11 (P3 x0 x1 x4) (P7 x0 x1 x4) (P8 x0 x1 x4) (k0_pay9 (F := Ideal))
abbrev P12 : FVec Ideal S16x2048 .f32 := k0_pay12 (P3 x0 x1 x4) (P7 x0 x1 x4) (P8 x0 x1 x4) (k0_pay9 (F := Ideal))
abbrev P14 : FVec Ideal S16x1x2048 .f32 := k0_pay14 (P3 x0 x1 x4) (P7 x0 x1 x4) (P8 x0 x1 x4) (k0_pay9 (F := Ideal))
abbrev P15 : FVec Ideal S16x1x2048 .f32 := k0_pay15 (P3 x0 x1 x4) (P7 x0 x1 x4) (P8 x0 x1 x4) (k0_pay9 (F := Ideal))
abbrev P16 : FVec Ideal S63x2048 .f32 :=
  k0_pay16 (k0_pay4 (F := Ideal)) (P5 x0 x1 x4) (P10 x0 x1 x4) (P11 x0 x1 x4) (P12 x0 x1 x4) (P14 x0 x1 x4) (P15 x0 x1 x4)

/-! ## Projection and branch indicators -/

theorem pay2_apply (p : Fin 64) (j : Fin 2048) : P2 x0 x1 (ix2 p j) = xp x0 x1 j p := by
  unfold P2 k0_pay2
  show matmul (F := Ideal) dot_S64x1024_S2048x1024_S64x2048_1_1_0_0_n_n none (truncf .bf16 x1 bitsLt_bf16_f32) (truncf .bf16 x0 bitsLt_bf16_f32)
      (constant S64x2048 .f32 0x00000000#32) (ix2 p j) * inv64 = _
  rw [matmul_zx_apply]
  rfl

theorem pay3_apply (n : Fin 31) (j : Fin 2048) : P3 x0 x1 x4 (ix2 n j) = th x0 x1 x4 j n := by
  unfold P3 k0_pay3
  show Ideal.tanh (sharp * matmul (F := Ideal) dot_S31x64_S64x2048_S31x2048_1_0_0_1_n_n none (truncf .bf16 x4 bitsLt_bf16_f32) (P2 x0 x1)
      (constant S31x2048 .f32 0x00000000#32) (ix2 n j)) = Ideal.tanh (sharp * ∑ p : Fin 64, x4 (ix2 n p) * xp x0 x1 j p)
  rw [matmul_tx_apply]
  refine congrArg (fun s => Ideal.tanh (sharp * s)) (Finset.sum_congr rfl fun p _ => ?_)
  rw [pay2_apply]
  rfl

/-- A band of the indicators' rows, read at an index. -/
theorem band_apply {k : ℕ} (o : ℕ) (h : S31x2048.Slices ![o, 0] ⟨2, ![k, 2048]⟩) (i : Fin k) (j : Fin 2048) :
    extractStridedSlice ⟨2, ![k, 2048]⟩ ![o, 0] (P3 x0 x1 x4) h (ix2 i j)
      = th x0 x1 x4 j ⟨o + i.val, Nat.lt_of_lt_of_le (Nat.add_lt_add_left i.isLt o) (h.2 0)⟩ := by
  rw [slice2_axis0_eq, pay3_apply]

/-! ## The levels of path probabilities -/

theorem pay4_apply (r : Fin 1) (j : Fin 2048) : k0_pay4 (F := Ideal) (ix2 r j) = lv0 r := rfl

theorem pay5_apply (r : Fin 2) (j : Fin 2048) : P5 x0 x1 x4 (ix2 r j) = lv1 (th x0 x1 x4 j) r := by
  unfold P5 k0_pay5 lv1
  refine (level_vector_apply (k := 1) (k2 := 2) (N := 2048) rfl _ _ _ _ _ r j).trans ?_
  exact split_congr 2 rfl (fun i => pay4_apply i j)
    (fun i => band_apply x0 x1 x4 0 Facts₀.slices_S31x2048_o0_0_S1x2048 i j) r

theorem pay6_apply (i : Fin 2) (j : Fin 2048) :
    k0_pay6 x0 x1 x4 (ix2 i j) = th x0 x1 x4 j ⟨1 + i.val, by have := i.isLt; omega⟩ := by
  unfold k0_pay6
  exact band_apply x0 x1 x4 1 Facts₀.slices_S31x2048_o1_0_S2x2048 i j

theorem pay10_apply (r : Fin 4) (j : Fin 2048) : P10 x0 x1 x4 (ix2 r j) = lv2 (th x0 x1 x4 j) r := by
  unfold P10 k0_pay10 P7 P8 k0_pay7 k0_pay8 k0_pay9 lv2
  refine (level_vector_apply (k := 2) (k2 := 4) (N := 2048) rfl (P5 x0 x1 x4) (k0_pay6 x0 x1 x4) _ _ _ r j).trans ?_
  exact split_congr 4 rfl (fun i => pay5_apply x0 x1 x4 i j) (fun i => pay6_apply x0 x1 x4 i j) r

theorem pay11_apply (r : Fin 8) (j : Fin 2048) : P11 x0 x1 x4 (ix2 r j) = lv3 (th x0 x1 x4 j) r := by
  unfold P11 k0_pay11 lv3
  refine (level_vector_apply (k := 4) (k2 := 8) (N := 2048) rfl _ _ _ _ _ r j).trans ?_
  exact split_congr 8 rfl (fun i => pay10_apply x0 x1 x4 i j)
    (fun i => band_apply x0 x1 x4 3 Facts₀.slices_S31x2048_o3_0_S4x2048 i j) r

theorem pay12_apply (r : Fin 16) (j : Fin 2048) : P12 x0 x1 x4 (ix2 r j) = lv4 (th x0 x1 x4 j) r := by
  unfold P12 k0_pay12 lv4
  refine (level_vector_apply (k := 8) (k2 := 16) (N := 2048) rfl _ _ _ _ _ r j).trans ?_
  exact split_congr 16 rfl (fun i => pay11_apply x0 x1 x4 i j)
    (fun i => band_apply x0 x1 x4 7 Facts₀.slices_S31x2048_o7_0_S8x2048 i j) r

theorem pay13_apply (i : Fin 16) (j : Fin 2048) :
    k0_pay13 (P3 x0 x1 x4) (ix2 i j) = th x0 x1 x4 j ⟨15 + i.val, by have := i.isLt; omega⟩ := by
  unfold k0_pay13
  exact band_apply x0 x1 x4 15 Facts₀.slices_S31x2048_o15_0_S16x2048 i j

/-- The leaves: the last level, which the body joins only inside the 63-row array. -/
theorem leaves_apply (r : Fin 32) (j : Fin 2048) :
    shapeCast S32x2048 (concatenate S16x2x2048 1 [⟨S16x1x2048, P14 x0 x1 x4⟩, ⟨S16x1x2048, P15 x0 x1 x4⟩]
      Facts₀.concatenates_S16x1x2048_S16x1x2048_S16x2x2048_d1) Facts₀.shapeCasts_S16x2x2048_S32x2048 (ix2 r j) = lv5 (th x0 x1 x4 j) r := by
  unfold P14 P15 k0_pay14 k0_pay15 lv5
  refine (level_vector_apply (k := 16) (k2 := 32) (N := 2048) rfl (P12 x0 x1 x4) (k0_pay13 (P3 x0 x1 x4)) _ _ _ r j).trans ?_
  exact split_congr 32 rfl (fun i => pay12_apply x0 x1 x4 i j) (fun i => pay13_apply x0 x1 x4 i j) r

/-- The 63 nodes' probabilities. -/
theorem pay16_apply (n : Fin 63) (j : Fin 2048) : P16 x0 x1 x4 (ix2 n j) = probs (th x0 x1 x4 j) n := by
  unfold P16 k0_pay16 probs
  refine (levels_apply (N := 2048) _ _ _ _ _ _ _ n j).trans ?_
  split
  · exact pay4_apply _ j
  split
  · exact pay5_apply x0 x1 x4 _ j
  split
  · exact pay10_apply x0 x1 x4 _ j
  split
  · exact pay11_apply x0 x1 x4 _ j
  split
  · exact pay12_apply x0 x1 x4 _ j
  · exact leaves_apply x0 x1 x4 _ j

/-! ## One class's row of scores -/

/-- The class-major predictors as the body is handed them: node `n`'s row for class `c` is row `63 c + n`. -/
abbrev Wk (w : Vec Ideal S630x64 .f32) : Fin 63 → Fin 10 → Fin 64 → EReal :=
  fun n c p => w (ix2 ⟨c.val * 63 + n.val, by have := n.isLt; have := c.isLt; omega⟩ p)

/-- The body's change of format of `W` (and of `V`) is the identity. -/
theorem pay17_apply (i : Fin 630) (p : Fin 64) : k0_pay17 x2 (ix2 i p) = x2 (ix2 i p) := by
  unfold k0_pay17
  show shapeCast S630x64 x2 Facts₀.shapeCasts_S630x64_S630x64 (ix2 i p) = _
  rw [shapeCast_self]

theorem pay18_apply (i : Fin 630) (p : Fin 64) : k0_pay18 x3 (ix2 i p) = x3 (ix2 i p) := by
  unfold k0_pay18
  show shapeCast S630x64 x3 Facts₀.shapeCasts_S630x64_S630x64 (ix2 i p) = _
  rw [shapeCast_self]

/-- A class's row, read at a column: the band of 63 rows of `W` and of `V` from row `o` on, each times the projected
    block; the node probabilities times the first product times `tanh` of the second; summed over the 63 nodes. -/
theorem classRow_apply (o : ℕ) (hsl : S630x64.Slices ![o, 0] S63x64) (hred : S63x2048.Reduces [0] S2048)
    (hφ : FKind.Formats .f32) (hacc : (0x00000000#32 : BitVec FTy.f32.bits) = FKind.add.neutral .f32 hφ)
    (hsc : S2048.ShapeCasts S1x2048)
    (xpB : FVec Ideal S64x2048 .bf16) (pr : FVec Ideal S63x2048 .f32) (wb vb : FVec Ideal S630x64 .bf16) (u : Fin 1) (j : Fin 2048) :
    shapeCast S1x2048 (multiReduction .add [0] S2048
        (mulf (mulf pr (matmul dot_S63x64_S64x2048_S63x2048_1_0_0_1_n_n none (extractStridedSlice S63x64 ![o, 0] wb hsl) xpB
            (constant S63x2048 .f32 0x00000000#32)))
          (tanh (matmul dot_S63x64_S64x2048_S63x2048_1_0_0_1_n_n none (extractStridedSlice S63x64 ![o, 0] vb hsl) xpB
            (constant S63x2048 .f32 0x00000000#32))))
        0x00000000#32 hred hφ hacc) hsc (ix2 u j)
      = ∑ n : Fin 63, pr (ix2 n j)
          * (∑ p : Fin 64, wb (ix2 ⟨o + n.val, Nat.lt_of_lt_of_le (Nat.add_lt_add_left n.isLt o) (hsl.2 0)⟩ p) * xpB (ix2 p j))
          * Ideal.tanh (∑ p : Fin 64, vb (ix2 ⟨o + n.val, Nat.lt_of_lt_of_le (Nat.add_lt_add_left n.isLt o) (hsl.2 0)⟩ p) * xpB (ix2 p j)) := by
  rw [shapeCast_a_1a_apply, Ideal.multiReduction_add_single]
  refine Finset.sum_congr rfl ?_
  intro (n : Fin 63) _
  have hl : hred.lift (ix1 j) n = ix2 n j := funext fun c => Fin.ext (by
    match c with
    | ⟨0, _⟩ => rfl
    | ⟨1, _⟩ => rfl)
  rw [hl]
  show pr (ix2 n j) * matmul (F := Ideal) dot_S63x64_S64x2048_S63x2048_1_0_0_1_n_n none (extractStridedSlice S63x64 ![o, 0] wb hsl) xpB
        (constant S63x2048 .f32 0x00000000#32) (ix2 n j)
      * Ideal.tanh (matmul (F := Ideal) dot_S63x64_S64x2048_S63x2048_1_0_0_1_n_n none (extractStridedSlice S63x64 ![o, 0] vb hsl) xpB
        (constant S63x2048 .f32 0x00000000#32) (ix2 n j)) = _
  rw [matmul_wx_apply, matmul_wx_apply]
  simp only [slice2_axis0_eq]

/-- The same over this block's stages: class `c`'s row, cut at row `o = 63 c`, is the specification's score of class `c`
    for column `j`'s sample. -/
theorem classRow_spec (c : Fin 10) (o : ℕ) (ho : o = c.val * 63) (hsl : S630x64.Slices ![o, 0] S63x64)
    (hred : S63x2048.Reduces [0] S2048) (hφ : FKind.Formats .f32)
    (hacc : (0x00000000#32 : BitVec FTy.f32.bits) = FKind.add.neutral .f32 hφ) (hsc : S2048.ShapeCasts S1x2048)
    (u : Fin 1) (j : Fin 2048) :
    shapeCast S1x2048 (multiReduction .add [0] S2048
        (mulf (mulf (P16 x0 x1 x4) (matmul dot_S63x64_S64x2048_S63x2048_1_0_0_1_n_n none
            (extractStridedSlice S63x64 ![o, 0] (k0_pay17 x2) hsl) (P2 x0 x1) (constant S63x2048 .f32 0x00000000#32)))
          (tanh (matmul dot_S63x64_S64x2048_S63x2048_1_0_0_1_n_n none
            (extractStridedSlice S63x64 ![o, 0] (k0_pay18 x3) hsl) (P2 x0 x1) (constant S63x2048 .f32 0x00000000#32))))
        0x00000000#32 hred hφ hacc) hsc (ix2 u j)
      = score (Wk x2) (Wk x3) (xp x0 x1 j) (probs (th x0 x1 x4 j)) c := by
  subst ho
  rw [classRow_apply]
  unfold score
  refine Finset.sum_congr rfl fun n _ => ?_
  rw [pay16_apply]
  simp only [pay17_apply, pay18_apply, pay2_apply]

/-! ## The block of scores -/

/-- What the body stores: the ten classes' rows, one under the other. -/
abbrev body : FVec Ideal S10x2048 .f32 :=
  k0_pay1 (P2 x0 x1) (P16 x0 x1 x4) (k0_pay17 x2) (k0_pay18 x3)
    (k0_pay19 (P2 x0 x1) (k0_pay4 (F := Ideal)) (P5 x0 x1 x4) (P10 x0 x1 x4) (P11 x0 x1 x4) (P12 x0 x1 x4) (P14 x0 x1 x4) (P15 x0 x1 x4) x2 x3)
    (k0_pay20 (P2 x0 x1) (k0_pay4 (F := Ideal)) (P5 x0 x1 x4) (P10 x0 x1 x4) (P11 x0 x1 x4) (P12 x0 x1 x4) (P14 x0 x1 x4) (P15 x0 x1 x4) x2 x3)
    (k0_pay21 (P2 x0 x1) (k0_pay4 (F := Ideal)) (P5 x0 x1 x4) (P10 x0 x1 x4) (P11 x0 x1 x4) (P12 x0 x1 x4) (P14 x0 x1 x4) (P15 x0 x1 x4) x2 x3)
    (k0_pay23 (k0_pay22 (P2 x0 x1) (k0_pay4 (F := Ideal)) (P5 x0 x1 x4) (P10 x0 x1 x4) (P11 x0 x1 x4) (P12 x0 x1 x4) (P14 x0 x1 x4) (P15 x0 x1 x4) x2 x3))
    (k0_pay24 (P2 x0 x1) (P16 x0 x1 x4) (k0_pay17 x2) (k0_pay18 x3))
    (k0_pay25 (P2 x0 x1) (P16 x0 x1 x4) (k0_pay17 x2) (k0_pay18 x3))
    (k0_pay26 (P2 x0 x1) (P16 x0 x1 x4) (k0_pay17 x2) (k0_pay18 x3))
    (k0_pay27 (P2 x0 x1) (P16 x0 x1 x4) (k0_pay17 x2) (k0_pay18 x3))
    (k0_pay28 (P2 x0 x1) (P16 x0 x1 x4) (k0_pay17 x2) (k0_pay18 x3))

/-- Row `c` of ten one-row pieces stacked along axis 0 is piece `c`'s only row. -/
theorem tenRows_apply (xs : List ((s : Shape) × (s.Idx → EReal)))
    (h : Shape.Concatenates (xs.map (·.1)) S10x2048 0) (c : Fin 10) (j : Fin 2048)
    (hk : c.val < xs.length) (x : S1x2048.Idx → EReal) (hx : xs[c.val] = ⟨S1x2048, x⟩)
    (hpre : (((xs.take c.val).map (·.1)).map fun s => if h : s.rank = S10x2048.rank then s.size ((0 : Fin S10x2048.rank).cast h.symm) else 0).sum = c.val) :
    concatenate S10x2048 0 xs h (ix2 c j) = x (ix2 0 j) :=
  concatenate_apply_piece (t := S10x2048) 0 xs h (ix2 c j) c.val hk S1x2048 x hx rfl c.val hpre (ix2 0 j)
    (fun b hne => by match b with | ⟨0, _⟩ => exact absurd rfl hne | ⟨1, _⟩ => rfl) (by show c.val + 0 = c.val; omega)

/-- The stored block, index by index: entry `(c, j)` is class `c`'s score of column `j`'s sample. -/
theorem body_apply (c : Fin 10) (j : Fin 2048) :
    body x0 x1 x2 x3 x4 (ix2 c j) = score (Wk x2) (Wk x3) (xp x0 x1 j) (probs (th x0 x1 x4 j)) c := by
  unfold body k0_pay1
  obtain ⟨cv, hcv⟩ := c
  interval_cases cv
  · refine (tenRows_apply _ _ ⟨0, hcv⟩ j (by simp) _ rfl rfl).trans ?_
    unfold k0_pay19
    exact classRow_spec x0 x1 x2 x3 x4 ⟨0, hcv⟩ 0 rfl _ _ _ _ _ 0 j
  · refine (tenRows_apply _ _ ⟨1, hcv⟩ j (by simp) _ rfl rfl).trans ?_
    unfold k0_pay20
    exact classRow_spec x0 x1 x2 x3 x4 ⟨1, hcv⟩ 63 rfl _ _ _ _ _ 0 j
  · refine (tenRows_apply _ _ ⟨2, hcv⟩ j (by simp) _ rfl rfl).trans ?_
    unfold k0_pay21
    exact classRow_spec x0 x1 x2 x3 x4 ⟨2, hcv⟩ 126 rfl _ _ _ _ _ 0 j
  · refine (tenRows_apply _ _ ⟨3, hcv⟩ j (by simp) _ rfl rfl).trans ?_
    unfold k0_pay23 k0_pay22
    exact classRow_spec x0 x1 x2 x3 x4 ⟨3, hcv⟩ 189 rfl _ _ _ _ _ 0 j
  · refine (tenRows_apply _ _ ⟨4, hcv⟩ j (by simp) _ rfl rfl).trans ?_
    unfold k0_pay24
    exact classRow_spec x0 x1 x2 x3 x4 ⟨4, hcv⟩ 252 rfl _ _ _ _ _ 0 j
  · refine (tenRows_apply _ _ ⟨5, hcv⟩ j (by simp) _ rfl rfl).trans ?_
    unfold k0_pay25
    exact classRow_spec x0 x1 x2 x3 x4 ⟨5, hcv⟩ 315 rfl _ _ _ _ _ 0 j
  · refine (tenRows_apply _ _ ⟨6, hcv⟩ j (by simp) _ rfl rfl).trans ?_
    unfold k0_pay26
    exact classRow_spec x0 x1 x2 x3 x4 ⟨6, hcv⟩ 378 rfl _ _ _ _ _ 0 j
  · refine (tenRows_apply _ _ ⟨7, hcv⟩ j (by simp) _ rfl rfl).trans ?_
    unfold k0_pay27
    exact classRow_spec x0 x1 x2 x3 x4 ⟨7, hcv⟩ 441 rfl _ _ _ _ _ 0 j
  · refine (tenRows_apply _ _ ⟨8, hcv⟩ j (by simp) _ rfl rfl).trans ?_
    unfold k0_pay28
    exact classRow_spec x0 x1 x2 x3 x4 ⟨8, hcv⟩ 504 rfl _ _ _ _ _ 0 j
  · refine (tenRows_apply _ _ ⟨9, hcv⟩ j (by simp) _ rfl rfl).trans ?_
    exact classRow_spec x0 x1 x2 x3 x4 ⟨9, hcv⟩ 567 rfl _ _ _ _ _ 0 j

end Cert.KernelIdeal.KValue

end
-- ==== Proof.KRun.lean ====
/-
  From the blocks to the whole result. Grid point `t` is handed rows `2048 t … 2048 t + 2047` of `X` and the whole of
  `Z`, `T` and of the class-major copies of `W` and `V` that the host operations before the call make (row `63 c + n` of
  the copy is row `10 n + c` of the argument), and writes back columns `2048 t … 2048 t + 2047` of the result. By the
  block's reading (`body_apply`), what it writes is its block of ONE array, the specification's `G` of the arguments;
  the 32 blocks tile the result, so the result ends holding `G`.
-/
import proofs.«161576_j2078764171322_1_alg».proof.Proof.Gen.KernelIdeal.Value
import proofs.«161576_j2078764171322_1_alg».proof.Proof.KValue
import Idealize.ShloMosaic.Lib.StableHlo.Run

noncomputable section

namespace Cert.KernelIdeal.KRun

open Cert.KernelIdeal Cert.KernelIdeal.Gen Cert.KernelIdeal.Value Cert.KernelIdeal.KValue Cert.Bonsai
open Idealize.ShloMosaic Idealize.ShloMosaic.ValueIdx Idealize.ShloMosaic.TcCoe Idealize.SL.Sem
open Idealize.ShloMosaic.Pipeline (Dat)

/-! ## The block's scores are the specification's, given what the block's operands hold -/

/-- If the block of `X` holds rows `o …` of `X`, the class-major copies hold the rows of `W` and `V` reordered, and the other
    operands are `Z` and `T`, then entry `(c, j)` of the stored block is entry `(c, o + j)` of `G`. -/
theorem body_eq_G (o : ℕ) (ho : o + 2048 ≤ 65536)
    (X : (⟨2, ![65536, 1024]⟩ : Shape).Idx → EReal) (Z : (⟨2, ![64, 1024]⟩ : Shape).Idx → EReal)
    (W V : (⟨2, ![630, 64]⟩ : Shape).Idx → EReal) (T : (⟨2, ![31, 64]⟩ : Shape).Idx → EReal)
    (xb : Vec Ideal S2048x1024 .f32) (zb : Vec Ideal S64x1024 .f32) (wc vc : Vec Ideal S630x64 .f32) (tb : Vec Ideal S31x64 .f32)
    (hx : ∀ (j : Fin 2048) (d : Fin 1024), xb (ix2 j d) = X (ix2 ⟨o + j.val, by have := j.isLt; omega⟩ d))
    (hz : ∀ (p : Fin 64) (d : Fin 1024), zb (ix2 p d) = Z (ix2 p d))
    (hw : ∀ (c : Fin 10) (n : Fin 63) (p : Fin 64),
      wc (ix2 ⟨c.val * 63 + n.val, by have := n.isLt; have := c.isLt; omega⟩ p) = W (ix2 ⟨n.val * 10 + c.val, by have := n.isLt; have := c.isLt; omega⟩ p))
    (hv : ∀ (c : Fin 10) (n : Fin 63) (p : Fin 64),
      vc (ix2 ⟨c.val * 63 + n.val, by have := n.isLt; have := c.isLt; omega⟩ p) = V (ix2 ⟨n.val * 10 + c.val, by have := n.isLt; have := c.isLt; omega⟩ p))
    (ht : ∀ (n : Fin 31) (p : Fin 64), tb (ix2 n p) = T (ix2 n p)) (c : Fin 10) (j : Fin 2048) :
    body xb zb wc vc tb (ix2 c j) = G X Z W V T (ix2 c ⟨o + j.val, by have := j.isLt; omega⟩) := by
  rw [body_apply]
  have e1 : (fun p d => zb (ix2 p d)) = fun p d => Z (ix2 p d) := funext fun p => funext fun d => hz p d
  have e2 : (fun d => xb (ix2 j d)) = fun d => X (ix2 ⟨o + j.val, by have := j.isLt; omega⟩ d) := funext fun d => hx j d
  have e3 : (fun n p => tb (ix2 n p)) = fun n p => T (ix2 n p) := funext fun n => funext fun p => ht n p
  have e4 : Wk wc = fun n c p => W (ix2 ⟨n.val * 10 + c.val, by have := n.isLt; have := c.isLt; omega⟩ p) :=
    funext fun n => funext fun c => funext fun p => hw c n p
  have e5 : Wk vc = fun n c p => V (ix2 ⟨n.val * 10 + c.val, by have := n.isLt; have := c.isLt; omega⟩ p) :=
    funext fun n => funext fun c => funext fun p => hv c n p
  show score (Wk wc) (Wk vc) (proj (fun p d => zb (ix2 p d)) (fun d => xb (ix2 j d)))
      (probs (branch (fun n p => tb (ix2 n p)) (proj (fun p d => zb (ix2 p d)) (fun d => xb (ix2 j d))))) c = _
  rw [e1, e2, e3, e4, e5]
  rfl

/-- Rows regrouped from node-major to class-major: row `63 c + n` of the copy is row `10 n + c` of the array. -/
theorem classMajor_apply (w : (⟨2, ![630, 64]⟩ : Shape).Idx → EReal)
    (h1 : (⟨2, ![630, 64]⟩ : Shape).ShapeCasts ⟨3, ![63, 10, 64]⟩)
    (h2 : (⟨3, ![63, 10, 64]⟩ : Shape).Transposes [1, 0, 2] ⟨3, ![10, 63, 64]⟩)
    (h3 : (⟨3, ![10, 63, 64]⟩ : Shape).ShapeCasts ⟨2, ![630, 64]⟩) (c : Fin 10) (n : Fin 63) (p : Fin 64) :
    shapeCast ⟨2, ![630, 64]⟩ (transpose ⟨3, ![10, 63, 64]⟩ [1, 0, 2] (shapeCast ⟨3, ![63, 10, 64]⟩ w h1) h2) h3
        (ix2 ⟨c.val * 63 + n.val, by have := n.isLt; have := c.isLt; omega⟩ p)
      = w (ix2 ⟨n.val * 10 + c.val, by have := n.isLt; have := c.isLt; omega⟩ p) := by
  refine (shapeCast_apply _ h3 _ (ix3 c n p) (by
    rw [Shape.rowMajor_val_two, Shape.rowMajor_val_three]; rfl)).trans ?_
  refine (transpose_apply [1, 0, 2] _ h2 (ix3 c n p) (ix3 n c p) (fun b => by
    match b with
    | ⟨0, _⟩ => rfl
    | ⟨1, _⟩ => rfl
    | ⟨2, _⟩ => rfl)).trans ?_
  exact shapeCast_apply _ h1 _ (ix2 ⟨n.val * 10 + c.val, by have := n.isLt; have := c.isLt; omega⟩ p) (by
    rw [Shape.rowMajor_val_two, Shape.rowMajor_val_three]; rfl)

variable (m : (ℓ : Loc nD τ sig) → Buf (Elt Ideal) ℓ) (ρ : Dev nD → PrngReg)

/-! ## What the region finds in the class-major copies -/

theorem v2_eq (c : Dev nD) : (V m c main_v2 : S630x64.Idx → EReal)
    = shapeCast S630x64 (transpose S10x63x64 [1, 0, 2] (shapeCast S63x10x64 (m ((c : Thread nD τ).loc main_arg2))
        Facts₀.shapeCasts_S630x64_S63x10x64) Facts₀.transposes_S63x10x64_S10x63x64_1_0_2) Facts₀.shapeCasts_S10x63x64_S630x64 := by
  dsimp only [V, hostOps0]; after_results; rfl

theorem v5_eq (c : Dev nD) : (V m c main_v5 : S630x64.Idx → EReal)
    = shapeCast S630x64 (transpose S10x63x64 [1, 0, 2] (shapeCast S63x10x64 (m ((c : Thread nD τ).loc main_arg3))
        Facts₀.shapeCasts_S630x64_S63x10x64) Facts₀.transposes_S63x10x64_S10x63x64_1_0_2) Facts₀.shapeCasts_S10x63x64_S630x64 := by
  dsimp only [V, hostOps0]; after_results; rfl

/-! ## The windows' blocks -/

theorem hz0 : (![0, 0] : Fin 2 → Nat) = fun _ => 0 := funext fun a => by fin_cases a <;> rfl

/-- The printed index maps, decided over the 32 points: `X`'s block index is the point on rows, the result's the point
    on columns, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem t_lt (t : Fin cfg0.N) : t.val * 2048 + 2048 ≤ 65536 := by
  have : t.val < 32 := lt_of_lt_of_eq t.isLt N_0
  omega

theorem blk0_apply (c : Dev nD) (t : Fin cfg0.N) (j : Fin 2048) (d : Fin 1024) :
    iblk m c 0 t (ix2 j d) = V m c main_arg0 (ix2 ⟨t.val * 2048 + j.val, by have := t_lt t; have := j.isLt; omega⟩ d) := by
  obtain ⟨e0, e1, -⟩ := idx_facts t
  show V m c main_arg0 (((cfg0.win 0).blk t).view.emb (ix2 j d)) = _
  refine congrArg (V m c main_arg0) (funext fun a => Fin.ext ?_)
  match a with
  | ⟨0, _⟩ => show win0_0.index t (0 : Fin 2) * 2048 + 1 * j.val = t.val * 2048 + j.val; omega
  | ⟨1, _⟩ => show win0_0.index t (1 : Fin 2) * 1024 + 1 * d.val = d.val; omega

theorem blk1_apply (c : Dev nD) (t : Fin cfg0.N) (p : Fin 64) (d : Fin 1024) :
    iblk m c 1 t (ix2 p d) = V m c main_arg1 (ix2 p d) := by
  obtain ⟨-, -, e0, e1, -⟩ := idx_facts t
  show V m c main_arg1 (((cfg0.win 1).blk t).view.emb (ix2 p d)) = _
  refine congrArg (V m c main_arg1) (funext fun a => Fin.ext ?_)
  match a with
  | ⟨0, _⟩ => show win0_1.index t (0 : Fin 2) * 64 + 1 * p.val = p.val; omega
  | ⟨1, _⟩ => show win0_1.index t (1 : Fin 2) * 1024 + 1 * d.val = d.val; omega

theorem blk2_apply (c : Dev nD) (t : Fin cfg0.N) (i : Fin 630) (p : Fin 64) :
    iblk m c 2 t (ix2 i p) = V m c main_v2 (ix2 i p) := by
  obtain ⟨-, -, -, -, e0, e1, -⟩ := idx_facts t
  show V m c main_v2 (((cfg0.win 2).blk t).view.emb (ix2 i p)) = _
  refine congrArg (V m c main_v2) (funext fun a => Fin.ext ?_)
  match a with
  | ⟨0, _⟩ => show win0_2.index t (0 : Fin 2) * 630 + 1 * i.val = i.val; omega
  | ⟨1, _⟩ => show win0_2.index t (1 : Fin 2) * 64 + 1 * p.val = p.val; omega

theorem blk3_apply (c : Dev nD) (t : Fin cfg0.N) (i : Fin 630) (p : Fin 64) :
    iblk m c 3 t (ix2 i p) = V m c main_v5 (ix2 i p) := by
  obtain ⟨-, -, -, -, -, -, e0, e1, -⟩ := idx_facts t
  show V m c main_v5 (((cfg0.win 3).blk t).view.emb (ix2 i p)) = _
  refine congrArg (V m c main_v5) (funext fun a => Fin.ext ?_)
  match a with
  | ⟨0, _⟩ => show win0_3.index t (0 : Fin 2) * 630 + 1 * i.val = i.val; omega
  | ⟨1, _⟩ => show win0_3.index t (1 : Fin 2) * 64 + 1 * p.val = p.val; omega

theorem blk4_apply (c : Dev nD) (t : Fin cfg0.N) (n : Fin 31) (p : Fin 64) :
    iblk m c 4 t (ix2 n p) = V m c main_arg4 (ix2 n p) := by
  obtain ⟨-, -, -, -, -, -, -, -, e0, e1, -⟩ := idx_facts t
  show V m c main_arg4 (((cfg0.win 4).blk t).view.emb (ix2 n p)) = _
  refine congrArg (V m c main_arg4) (funext fun a => Fin.ext ?_)
  match a with
  | ⟨0, _⟩ => show win0_4.index t (0 : Fin 2) * 31 + 1 * n.val = n.val; omega
  | ⟨1, _⟩ => show win0_4.index t (1 : Fin 2) * 64 + 1 * p.val = p.val; omega

/-! ## What a point writes back, the cover, and the run -/

/-- The result array as the specification's function of the argument arrays as launched. -/
abbrev Gm (c : Dev nD) : S10x65536.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of `G` of the arguments. -/
theorem flushed_eq (c : Dev nD) (t : Fin cfg0.N) :
    (dats m 0 c).flushed 5 t = ((cfg0.win 5).blk t).view.read (Elt Ideal) (Gm m c) := by
  rw [flushed5]
  unfold out0_5
  rw [View.canon_unit_zero hz0]
  simp only [View.ld_unit_zero (S := S2048x1024) hz0, View.ld_unit_zero (S := S64x1024) hz0,
    View.ld_unit_zero (S := S630x64) hz0, View.ld_unit_zero (S := S31x64) hz0]
  obtain ⟨-, -, -, -, -, -, -, -, -, -, e0, e1⟩ := idx_facts t
  funext y
  have hy : y = ix2 (y 0) (y 1) := eq_ix2 y
  have hy1 : (y 1).val < 2048 := (y 1).isLt
  have he : ((cfg0.win 5).blk t).view.emb y
      = ix2 (y 0) ⟨t.val * 2048 + (y 1).val, by have := t_lt t; omega⟩ := funext fun a => Fin.ext (by
    match a with
    | ⟨0, _⟩ => show win0_5.index t (0 : Fin 2) * 10 + 1 * (y 0).val = (y 0).val; omega
    | ⟨1, _⟩ => show win0_5.index t (1 : Fin 2) * 2048 + 1 * (y 1).val = t.val * 2048 + (y 1).val; omega)
  show body (iblk m c 0 t) (iblk m c 1 t) (iblk m c 2 t) (iblk m c 3 t) (iblk m c 4 t) y = Gm m c (((cfg0.win 5).blk t).view.emb y)
  rw [he]
  refine (congrArg (body (iblk m c 0 t) (iblk m c 1 t) (iblk m c 2 t) (iblk m c 3 t) (iblk m c 4 t)) hy).trans ?_
  exact body_eq_G (t.val * 2048) (t_lt t) _ _ _ _ _ _ _ _ _ _
    (fun j d => (blk0_apply m c t j d).trans (congrFun (V_main_arg0 m c) _))
    (fun p d => (blk1_apply m c t p d).trans (congrFun (V_main_arg1 m c) _))
    (fun cc n p => (blk2_apply m c t _ p).trans ((congrFun (v2_eq m c) _).trans (classMajor_apply _ _ _ _ cc n p)))
    (fun cc n p => (blk3_apply m c t _ p).trans ((congrFun (v5_eq m c) _).trans (classMajor_apply _ _ _ _ cc n p)))
    (fun n p => (blk4_apply m c t n p).trans (congrFun (V_main_arg4 m c) _)) (y 0) (y 1)

/-- An index of the result is in point `t`'s block iff each coordinate is in the block's range on its axis. -/
theorem mem_blk (t : Fin cfg0.N) (i : S10x65536.Idx) :
    i ∈ ((cfg0.win 5).blk t).view.set ↔ ∀ a : Fin 2, win0_5.index t a * S10x2048.size a ≤ (i a).val
      ∧ (i a).val < win0_5.index t a * S10x2048.size a + S10x2048.size a := by
  show i ∈ ((View.whole main_v6).slice (win0_5.rect t)).set ↔ _
  rw [View.set_slice_whole, Rect.mem_set_unit]
  exact Iff.rfl

/-- Every index of the result is in the block of the point its column falls in. -/
theorem cover (i : S10x65536.Idx) : ∃ t : Fin cfg0.N, (cfg0.win 5).flush t = true ∧ i ∈ ((cfg0.win 5).blk t).view.set := by
  have hi0 : (i 0).val < 10 := (i 0).isLt
  have hi1 : (i 1).val < 65536 := (i 1).isLt
  have ht : (i 1).val / 2048 < cfg0.N := lt_of_lt_of_eq (by omega : (i 1).val / 2048 < 32) N_0.symm
  refine ⟨⟨(i 1).val / 2048, ht⟩, flush0_5 _, ?_⟩
  obtain ⟨-, -, -, -, -, -, -, -, -, -, e0, e1⟩ := idx_facts ⟨(i 1).val / 2048, ht⟩
  rw [mem_blk]
  intro a
  match a with
  | ⟨0, _⟩ =>
    show win0_5.index ⟨(i 1).val / 2048, ht⟩ (0 : Fin 2) * 10 ≤ (i 0).val ∧ (i 0).val < win0_5.index ⟨(i 1).val / 2048, ht⟩ (0 : Fin 2) * 10 + 10
    omega
  | ⟨1, _⟩ =>
    show win0_5.index ⟨(i 1).val / 2048, ht⟩ (1 : Fin 2) * 2048 ≤ (i 1).val ∧ (i 1).val < win0_5.index ⟨(i 1).val / 2048, ht⟩ (1 : Fin 2) * 2048 + 2048
    have : ((⟨(i 1).val / 2048, ht⟩ : Fin cfg0.N) : ℕ) = (i 1).val / 2048 := rfl
    omega

/-- The result array after the run is `G` of the arguments. -/
theorem final (c : Dev nD) : (dats m 0 c).arrAt 5 cfg0.N = Gm m c :=
  (dats m 0 c).arrAt_eq_of_cover 5 (Gm m c) (fun t _ => flushed_eq m c t) cover

/-- The kernel's run, its result named: every weakly fair execution terminates with the result at `G` of the arguments
    and the arguments unchanged. -/
theorem run : θ_run defs (onTc (τ := τ) (main (F := Ideal))) ⟨m, fun _ => 0, ρ⟩ fun r => ∀ c : Dev nD,
      r.2.mem ((c : Thread nD τ).loc main_v6) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.KRun

end
-- ==== Proof.RefValue.lean ====
/-
  The reference program's result is the specification's function of its arguments.

  The reference computes, for the whole batch at once: the projection `(Z · Xᵀ) / 64`; the branch indicators
  `tanh (10⁹ · (T · Xp))`; the tree's levels one from the other (each parent's probability times `(1 ± t) · ½`, the two
  children interleaved); the levels laid end to end and broadcast over the ten classes; the two predictor contractions
  `W · Xp` and `V · Xp` with `W`, `V` seen as `[63, 10, 64]`; and the sum over the 63 nodes of
  `prob · (W · Xp) · tanh (V · Xp)`.

  Every stage is read at one column `b` of the batch and shown to be the specification's quantity of sample `b`
  (row `b` of `X`): the contractions as sums over their one contracted coordinate, the quotient by `64` as the
  product with `1/64`, each level by the interleaving lemma and the level above, the result by the sum over the nodes.
-/
import proofs.«161576_j2078764171322_1_alg».proof.Proof.RefOps
import proofs.«161576_j2078764171322_1_alg».proof.Proof.Spec
import proofs.«161576_j2078764171322_1_alg».proof.Proof.Layout
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.RunP Idealize.ShloMosaic Idealize.ShloMosaic.TcCoe Idealize.SL.Sem Idealize.ShloMosaic.StableHlo
open Idealize.ShloMosaic.ValueIdx

/-! ## The three contractions read at an index

Each `dot_general` of the program contracts ONE axis: the element at an output index is the sum, over that axis's
coordinate `k`, of the left operand at the output's left coordinates and `k` times the right operand at `k` and the
output's right coordinate. Per operand axis the operand index's coordinate is named first; the sum over the
contraction index is then re-indexed by its one coordinate. -/

theorem lhs_z_0 (i : S64x65536.Idx) (q : dot_S64x1024_S1024x65536_S64x65536_1_0_0_1_n_n.contr.Idx) :
    (dot_S64x1024_S1024x65536_S64x65536_1_0_0_1_n_n.lhsIdx i q 0).val = (i 0).val := by
  unfold DotDims.lhsIdx
  rw [dif_neg (show ¬(0 : Fin S64x1024.rank) ∈ dot_S64x1024_S1024x65536_S64x65536_1_0_0_1_n_n.lhsBatch by decide), dif_pos (show (0 : Fin S64x1024.rank) ∈ dot_S64x1024_S1024x65536_S64x65536_1_0_0_1_n_n.lhsNonContracting by decide)]
  rfl
theorem lhs_z_1 (i : S64x65536.Idx) (q : dot_S64x1024_S1024x65536_S64x65536_1_0_0_1_n_n.contr.Idx) :
    (dot_S64x1024_S1024x65536_S64x65536_1_0_0_1_n_n.lhsIdx i q 1).val = (q ⟨0, by decide⟩).val :=
  dot_S64x1024_S1024x65536_S64x65536_1_0_0_1_n_n.lhsIdx_val_of_single rfl i q
theorem rhs_z_0 (i : S64x65536.Idx) (q : dot_S64x1024_S1024x65536_S64x65536_1_0_0_1_n_n.contr.Idx) :
    (dot_S64x1024_S1024x65536_S64x65536_1_0_0_1_n_n.rhsIdx i q 0).val = (q ⟨0, by decide⟩).val :=
  dot_S64x1024_S1024x65536_S64x65536_1_0_0_1_n_n.rhsIdx_val_of_single rfl i q
theorem rhs_z_1 (i : S64x65536.Idx) (q : dot_S64x1024_S1024x65536_S64x65536_1_0_0_1_n_n.contr.Idx) :
    (dot_S64x1024_S1024x65536_S64x65536_1_0_0_1_n_n.rhsIdx i q 1).val = (i 1).val := by
  unfold DotDims.rhsIdx
  rw [dif_neg (show ¬(1 : Fin S1024x65536.rank) ∈ dot_S64x1024_S1024x65536_S64x65536_1_0_0_1_n_n.rhsBatch by decide), dif_pos (show (1 : Fin S1024x65536.rank) ∈ dot_S64x1024_S1024x65536_S64x65536_1_0_0_1_n_n.rhsNonContracting by decide)]
  rfl

/-- `[64, 1024] · [1024, N]`: entry `(p, b)` is `∑ k, l (p, k) · r (k, b)`. -/
theorem dot_z_apply (l : FVec Ideal S64x1024 .f32) (r : FVec Ideal S1024x65536 .f32) (p : Fin 64) (b : Fin 65536) :
    Host.dotGeneral dot_S64x1024_S1024x65536_S64x65536_1_0_0_1_n_n none l r (ix2 p b)
      = ∑ k : Fin 1024, l (ix2 p k) * r (ix2 k b) := by
  simp only [Host.dotGeneral]
  rw [Ideal.dotGeneral_apply, ← Equiv.sum_comp (ValueIdx.contrEquiv1 dot_S64x1024_S1024x65536_S64x65536_1_0_0_1_n_n 1024 rfl rfl).symm]
  refine Finset.sum_congr rfl fun k _ => ?_
  have hk := ValueIdx.contrEquiv1_symm_val dot_S64x1024_S1024x65536_S64x65536_1_0_0_1_n_n 1024 rfl rfl k
  have el : dot_S64x1024_S1024x65536_S64x65536_1_0_0_1_n_n.lhsIdx (ix2 p b) ((ValueIdx.contrEquiv1 dot_S64x1024_S1024x65536_S64x65536_1_0_0_1_n_n 1024 rfl rfl).symm k) = ix2 p k := funext fun a => Fin.ext (by
    match a with
    | ⟨0, _⟩ => exact lhs_z_0 _ _
    | ⟨1, _⟩ => exact (lhs_z_1 _ _).trans hk)
  have er : dot_S64x1024_S1024x65536_S64x65536_1_0_0_1_n_n.rhsIdx (ix2 p b) ((ValueIdx.contrEquiv1 dot_S64x1024_S1024x65536_S64x65536_1_0_0_1_n_n 1024 rfl rfl).symm k) = ix2 k b := funext fun a => Fin.ext (by
    match a with
    | ⟨0, _⟩ => exact (rhs_z_0 _ _).trans hk
    | ⟨1, _⟩ => exact rhs_z_1 _ _)
  rw [el, er]

theorem lhs_t_0 (i : S31x65536.Idx) (q : dot_S31x64_S64x65536_S31x65536_1_0_0_1_n_n.contr.Idx) :
    (dot_S31x64_S64x65536_S31x65536_1_0_0_1_n_n.lhsIdx i q 0).val = (i 0).val := by
  unfold DotDims.lhsIdx
  rw [dif_neg (show ¬(0 : Fin S31x64.rank) ∈ dot_S31x64_S64x65536_S31x65536_1_0_0_1_n_n.lhsBatch by decide), dif_pos (show (0 : Fin S31x64.rank) ∈ dot_S31x64_S64x65536_S31x65536_1_0_0_1_n_n.lhsNonContracting by decide)]
  rfl
theorem lhs_t_1 (i : S31x65536.Idx) (q : dot_S31x64_S64x65536_S31x65536_1_0_0_1_n_n.contr.Idx) :
    (dot_S31x64_S64x65536_S31x65536_1_0_0_1_n_n.lhsIdx i q 1).val = (q ⟨0, by decide⟩).val :=
  dot_S31x64_S64x65536_S31x65536_1_0_0_1_n_n.lhsIdx_val_of_single rfl i q
theorem rhs_t_0 (i : S31x65536.Idx) (q : dot_S31x64_S64x65536_S31x65536_1_0_0_1_n_n.contr.Idx) :
    (dot_S31x64_S64x65536_S31x65536_1_0_0_1_n_n.rhsIdx i q 0).val = (q ⟨0, by decide⟩).val :=
  dot_S31x64_S64x65536_S31x65536_1_0_0_1_n_n.rhsIdx_val_of_single rfl i q
theorem rhs_t_1 (i : S31x65536.Idx) (q : dot_S31x64_S64x65536_S31x65536_1_0_0_1_n_n.contr.Idx) :
    (dot_S31x64_S64x65536_S31x65536_1_0_0_1_n_n.rhsIdx i q 1).val = (i 1).val := by
  unfold DotDims.rhsIdx
  rw [dif_neg (show ¬(1 : Fin S64x65536.rank) ∈ dot_S31x64_S64x65536_S31x65536_1_0_0_1_n_n.rhsBatch by decide), dif_pos (show (1 : Fin S64x65536.rank) ∈ dot_S31x64_S64x65536_S31x65536_1_0_0_1_n_n.rhsNonContracting by decide)]
  rfl

/-- `[31, 64] · [64, N]`: entry `(n, b)` is `∑ k, l (n, k) · r (k, b)`. -/
theorem dot_t_apply (l : FVec Ideal S31x64 .f32) (r : FVec Ideal S64x65536 .f32) (p : Fin 31) (b : Fin 65536) :
    Host.dotGeneral dot_S31x64_S64x65536_S31x65536_1_0_0_1_n_n none l r (ix2 p b)
      = ∑ k : Fin 64, l (ix2 p k) * r (ix2 k b) := by
  simp only [Host.dotGeneral]
  rw [Ideal.dotGeneral_apply, ← Equiv.sum_comp (ValueIdx.contrEquiv1 dot_S31x64_S64x65536_S31x65536_1_0_0_1_n_n 64 rfl rfl).symm]
  refine Finset.sum_congr rfl fun k _ => ?_
  have hk := ValueIdx.contrEquiv1_symm_val dot_S31x64_S64x65536_S31x65536_1_0_0_1_n_n 64 rfl rfl k
  have el : dot_S31x64_S64x65536_S31x65536_1_0_0_1_n_n.lhsIdx (ix2 p b) ((ValueIdx.contrEquiv1 dot_S31x64_S64x65536_S31x65536_1_0_0_1_n_n 64 rfl rfl).symm k) = ix2 p k := funext fun a => Fin.ext (by
    match a with
    | ⟨0, _⟩ => exact lhs_t_0 _ _
    | ⟨1, _⟩ => exact (lhs_t_1 _ _).trans hk)
  have er : dot_S31x64_S64x65536_S31x65536_1_0_0_1_n_n.rhsIdx (ix2 p b) ((ValueIdx.contrEquiv1 dot_S31x64_S64x65536_S31x65536_1_0_0_1_n_n 64 rfl rfl).symm k) = ix2 k b := funext fun a => Fin.ext (by
    match a with
    | ⟨0, _⟩ => exact (rhs_t_0 _ _).trans hk
    | ⟨1, _⟩ => exact rhs_t_1 _ _)
  rw [el, er]

theorem lhs_w_0 (i : S63x10x65536.Idx) (q : dot_S63x10x64_S64x65536_S63x10x65536_2_0_01_1_n_n.contr.Idx) :
    (dot_S63x10x64_S64x65536_S63x10x65536_2_0_01_1_n_n.lhsIdx i q 0).val = (i 0).val := by
  unfold DotDims.lhsIdx
  rw [dif_neg (show ¬(0 : Fin S63x10x64.rank) ∈ dot_S63x10x64_S64x65536_S63x10x65536_2_0_01_1_n_n.lhsBatch by decide), dif_pos (show (0 : Fin S63x10x64.rank) ∈ dot_S63x10x64_S64x65536_S63x10x65536_2_0_01_1_n_n.lhsNonContracting by decide)]
  rfl
theorem lhs_w_1 (i : S63x10x65536.Idx) (q : dot_S63x10x64_S64x65536_S63x10x65536_2_0_01_1_n_n.contr.Idx) :
    (dot_S63x10x64_S64x65536_S63x10x65536_2_0_01_1_n_n.lhsIdx i q 1).val = (i 1).val := by
  unfold DotDims.lhsIdx
  rw [dif_neg (show ¬(1 : Fin S63x10x64.rank) ∈ dot_S63x10x64_S64x65536_S63x10x65536_2_0_01_1_n_n.lhsBatch by decide), dif_pos (show (1 : Fin S63x10x64.rank) ∈ dot_S63x10x64_S64x65536_S63x10x65536_2_0_01_1_n_n.lhsNonContracting by decide)]
  rfl
theorem lhs_w_2 (i : S63x10x65536.Idx) (q : dot_S63x10x64_S64x65536_S63x10x65536_2_0_01_1_n_n.contr.Idx) :
    (dot_S63x10x64_S64x65536_S63x10x65536_2_0_01_1_n_n.lhsIdx i q 2).val = (q ⟨0, by decide⟩).val :=
  dot_S63x10x64_S64x65536_S63x10x65536_2_0_01_1_n_n.lhsIdx_val_of_single rfl i q
theorem rhs_w_0 (i : S63x10x65536.Idx) (q : dot_S63x10x64_S64x65536_S63x10x65536_2_0_01_1_n_n.contr.Idx) :
    (dot_S63x10x64_S64x65536_S63x10x65536_2_0_01_1_n_n.rhsIdx i q 0).val = (q ⟨0, by decide⟩).val :=
  dot_S63x10x64_S64x65536_S63x10x65536_2_0_01_1_n_n.rhsIdx_val_of_single rfl i q
theorem rhs_w_1 (i : S63x10x65536.Idx) (q : dot_S63x10x64_S64x65536_S63x10x65536_2_0_01_1_n_n.contr.Idx) :
    (dot_S63x10x64_S64x65536_S63x10x65536_2_0_01_1_n_n.rhsIdx i q 1).val = (i 2).val := by
  unfold DotDims.rhsIdx
  rw [dif_neg (show ¬(1 : Fin S64x65536.rank) ∈ dot_S63x10x64_S64x65536_S63x10x65536_2_0_01_1_n_n.rhsBatch by decide), dif_pos (show (1 : Fin S64x65536.rank) ∈ dot_S63x10x64_S64x65536_S63x10x65536_2_0_01_1_n_n.rhsNonContracting by decide)]
  rfl

/-- `[63, 10, 64] · [64, N]`: entry `(n, c, b)` is `∑ k, l (n, c, k) · r (k, b)`. -/
theorem dot_w_apply (l : FVec Ideal S63x10x64 .f32) (r : FVec Ideal S64x65536 .f32) (n : Fin 63) (c : Fin 10) (b : Fin 65536) :
    Host.dotGeneral dot_S63x10x64_S64x65536_S63x10x65536_2_0_01_1_n_n none l r (ix3 n c b)
      = ∑ k : Fin 64, l (ix3 n c k) * r (ix2 k b) := by
  simp only [Host.dotGeneral]
  rw [Ideal.dotGeneral_apply, ← Equiv.sum_comp (ValueIdx.contrEquiv1 dot_S63x10x64_S64x65536_S63x10x65536_2_0_01_1_n_n 64 rfl rfl).symm]
  refine Finset.sum_congr rfl fun k _ => ?_
  have hk := ValueIdx.contrEquiv1_symm_val dot_S63x10x64_S64x65536_S63x10x65536_2_0_01_1_n_n 64 rfl rfl k
  have el : dot_S63x10x64_S64x65536_S63x10x65536_2_0_01_1_n_n.lhsIdx (ix3 n c b) ((ValueIdx.contrEquiv1 dot_S63x10x64_S64x65536_S63x10x65536_2_0_01_1_n_n 64 rfl rfl).symm k) = ix3 n c k := funext fun a => Fin.ext (by
    match a with
    | ⟨0, _⟩ => exact lhs_w_0 _ _
    | ⟨1, _⟩ => exact lhs_w_1 _ _
    | ⟨2, _⟩ => exact (lhs_w_2 _ _).trans hk)
  have er : dot_S63x10x64_S64x65536_S63x10x65536_2_0_01_1_n_n.rhsIdx (ix3 n c b) ((ValueIdx.contrEquiv1 dot_S63x10x64_S64x65536_S63x10x65536_2_0_01_1_n_n 64 rfl rfl).symm k) = ix2 k b := funext fun a => Fin.ext (by
    match a with
    | ⟨0, _⟩ => exact (rhs_w_0 _ _).trans hk
    | ⟨1, _⟩ => exact rhs_w_1 _ _)
  rw [el, er]
/-! ## The stages of the program at one column

Fixed a valuation of the arguments and a column `b` of the batch: the sample is row `b` of the first argument, and
each named stage of the program, read at that column, is the specification's quantity of that sample. -/

section Stages
variable (V0 : Valuation τ sig (Elt Ideal))

/-- Row `b` of the batch. -/
abbrev xs (b : Fin 65536) : Fin 1024 → EReal := fun d => V0 (Proc.devRef .tc main_arg0) (ix2 b d)
/-- The projection matrix by coordinates. -/
abbrev Zf : Fin 64 → Fin 1024 → EReal := fun p d => V0 (Proc.devRef .tc main_arg1) (ix2 p d)
/-- The branching matrix by coordinates. -/
abbrev Tf : Fin 31 → Fin 64 → EReal := fun n p => V0 (Proc.devRef .tc main_arg4) (ix2 n p)
/-- The projected sample of column `b`. -/
abbrev xp (b : Fin 65536) : Fin 64 → EReal := Cert.Bonsai.proj (Zf V0) (xs V0 b)
/-- The branch indicators of column `b`. -/
abbrev th (b : Fin 65536) : Fin 31 → EReal := Cert.Bonsai.branch (Tf V0) (xp V0 b)

/-- The projection: the quotient by the word of `64` is the product with the word of `1/64`. -/
theorem v3_apply (p : Fin 64) (b : Fin 65536) : res_main_v3 V0 (ix2 p b) = xp V0 b p := by
  unfold res_main_v3
  rw [hostDivf_apply, dot_z_apply, broadcastInDim_scalar_apply, constant_apply, Cert.Bonsai.div_sixtyfour]
  unfold xp Cert.Bonsai.proj
  refine congrArg (· * Cert.Bonsai.inv64) (Finset.sum_congr rfl fun k _ => ?_)
  rw [transpose_ix2_apply]

/-- The branch indicators. -/
theorem v7_apply (n : Fin 31) (b : Fin 65536) : res_main_v7 V0 (ix2 n b) = th V0 b n := by
  unfold res_main_v7 Host.tanh
  rw [Ideal.hostUnary_tanh_def, mulf_apply, broadcastInDim_scalar_apply, constant_apply, dot_t_apply]
  unfold th Cert.Bonsai.branch
  refine congrArg (fun s => Ideal.tanh (Cert.Bonsai.sharp * s)) (Finset.sum_congr rfl fun k _ => ?_)
  rw [v3_apply]

/-- One level of the tree from the one above it, as the program writes it: the parent's probability times
    `(1 + t) · ½` and times `(1 − t) · ½`, each given a middle unit axis, laid side by side along it, and the rows run
    together — row `r` is the specification's `split` of the parents' column. -/
theorem level_apply {k k2 N : ℕ} (hk2 : k2 = 2 * k) (prev t : FVec Ideal ⟨2, ![k, N]⟩ .f32)
    (hs : (⟨0, ![]⟩ : Shape).BroadcastsInDim ⟨2, ![k, N]⟩ ![])
    (hb : (⟨2, ![k, N]⟩ : Shape).BroadcastsInDim ⟨3, ![k, 1, N]⟩ ![0, 2])
    (hc : Shape.Concatenates [⟨3, ![k, 1, N]⟩, ⟨3, ![k, 1, N]⟩] ⟨3, ![k, 2, N]⟩ 1)
    (hr : (⟨3, ![k, 2, N]⟩ : Shape).ShapeCasts ⟨2, ![k2, N]⟩) (r : Fin k2) (j : Fin N) :
    shapeCast ⟨2, ![k2, N]⟩ (concatenate ⟨3, ![k, 2, N]⟩ 1
        [⟨⟨3, ![k, 1, N]⟩, broadcastInDim ⟨3, ![k, 1, N]⟩ ![0, 2] hb
            (mulf (mulf prev (addf (broadcastInDim ⟨2, ![k, N]⟩ ![] hs (constant (F := Ideal) ⟨0, ![]⟩ .f32 0x3F800000#32)) t))
              (broadcastInDim ⟨2, ![k, N]⟩ ![] hs (constant (F := Ideal) ⟨0, ![]⟩ .f32 0x3F000000#32)))⟩,
         ⟨⟨3, ![k, 1, N]⟩, broadcastInDim ⟨3, ![k, 1, N]⟩ ![0, 2] hb
            (mulf (mulf prev (subf (broadcastInDim ⟨2, ![k, N]⟩ ![] hs (constant (F := Ideal) ⟨0, ![]⟩ .f32 0x3F800000#32)) t))
              (broadcastInDim ⟨2, ![k, N]⟩ ![] hs (constant (F := Ideal) ⟨0, ![]⟩ .f32 0x3F000000#32)))⟩] hc) hr (ix2 r j)
      = Cert.Bonsai.split k2 hk2 (fun i => prev (ix2 i j)) (fun i => t (ix2 i j)) r := by
  refine (Cert.Bonsai.interleave_apply hk2 _ _ hc hr r j).trans ?_
  unfold Cert.Bonsai.split
  by_cases h : r.val % 2 = 0
  · rw [if_pos h, if_pos h, Cert.Bonsai.unitAxis_bcast_apply, mulf_apply, mulf_apply, addf_apply,
      broadcastInDim_scalar_apply, broadcastInDim_scalar_apply, constant_apply, constant_apply]
  · rw [if_neg h, if_neg h, Cert.Bonsai.unitAxis_bcast_apply, mulf_apply, mulf_apply, subf_apply,
      broadcastInDim_scalar_apply, broadcastInDim_scalar_apply, constant_apply, constant_apply]

/-- The root's row. -/
theorem v8_apply (r : Fin 1) (b : Fin 65536) : res_main_v8 V0 (ix2 r b) = Cert.Bonsai.lv0 r := by
  unfold res_main_v8
  rw [broadcastInDim_scalar_apply, constant_apply]
  rfl

/-- The indicators of node 0. -/
theorem v9_apply (j : Fin 1) (b : Fin 65536) :
    res_main_v9 V0 (ix2 j b) = th V0 b ⟨0 + j.val, by have := j.isLt; omega⟩ := by
  unfold res_main_v9
  rw [slice2_axis0_eq]
  exact v7_apply V0 _ b

/-- Level 1. -/
theorem v23_apply (r : Fin 2) (b : Fin 65536) : res_main_v23 V0 (ix2 r b) = Cert.Bonsai.lv1 (th V0 b) r := by
  unfold res_main_v23
  refine (level_apply (k := 1) (k2 := 2) rfl (res_main_v8 V0) (res_main_v9 V0) _ _ _ _ r b).trans ?_
  unfold Cert.Bonsai.lv1
  rw [show (fun i => res_main_v8 V0 (ix2 i b)) = Cert.Bonsai.lv0 from funext fun i => v8_apply V0 i b,
    show (fun i => res_main_v9 V0 (ix2 i b)) = (fun i : Fin 1 => th V0 b ⟨0 + i.val, by have := i.isLt; omega⟩)
      from funext fun i => v9_apply V0 i b]

/-- The indicators of nodes 1, 2. -/
theorem v24_apply (j : Fin 2) (b : Fin 65536) :
    res_main_v24 V0 (ix2 j b) = th V0 b ⟨1 + j.val, by have := j.isLt; omega⟩ := by
  unfold res_main_v24
  rw [slice2_axis0_eq]
  exact v7_apply V0 _ b

/-- Level 2. -/
theorem v38_apply (r : Fin 4) (b : Fin 65536) : res_main_v38 V0 (ix2 r b) = Cert.Bonsai.lv2 (th V0 b) r := by
  unfold res_main_v38
  refine (level_apply (k := 2) (k2 := 4) rfl (res_main_v23 V0) (res_main_v24 V0) _ _ _ _ r b).trans ?_
  unfold Cert.Bonsai.lv2
  rw [show (fun i => res_main_v23 V0 (ix2 i b)) = Cert.Bonsai.lv1 (th V0 b) from funext fun i => v23_apply V0 i b,
    show (fun i => res_main_v24 V0 (ix2 i b)) = (fun i : Fin 2 => th V0 b ⟨1 + i.val, by have := i.isLt; omega⟩)
      from funext fun i => v24_apply V0 i b]

/-- The indicators of nodes 3 … 6. -/
theorem v39_apply (j : Fin 4) (b : Fin 65536) :
    res_main_v39 V0 (ix2 j b) = th V0 b ⟨3 + j.val, by have := j.isLt; omega⟩ := by
  unfold res_main_v39
  rw [slice2_axis0_eq]
  exact v7_apply V0 _ b

/-- Level 3. -/
theorem v53_apply (r : Fin 8) (b : Fin 65536) : res_main_v53 V0 (ix2 r b) = Cert.Bonsai.lv3 (th V0 b) r := by
  unfold res_main_v53
  refine (level_apply (k := 4) (k2 := 8) rfl (res_main_v38 V0) (res_main_v39 V0) _ _ _ _ r b).trans ?_
  unfold Cert.Bonsai.lv3
  rw [show (fun i => res_main_v38 V0 (ix2 i b)) = Cert.Bonsai.lv2 (th V0 b) from funext fun i => v38_apply V0 i b,
    show (fun i => res_main_v39 V0 (ix2 i b)) = (fun i : Fin 4 => th V0 b ⟨3 + i.val, by have := i.isLt; omega⟩)
      from funext fun i => v39_apply V0 i b]

/-- The indicators of nodes 7 … 14. -/
theorem v54_apply (j : Fin 8) (b : Fin 65536) :
    res_main_v54 V0 (ix2 j b) = th V0 b ⟨7 + j.val, by have := j.isLt; omega⟩ := by
  unfold res_main_v54
  rw [slice2_axis0_eq]
  exact v7_apply V0 _ b

/-- Level 4. -/
theorem v68_apply (r : Fin 16) (b : Fin 65536) : res_main_v68 V0 (ix2 r b) = Cert.Bonsai.lv4 (th V0 b) r := by
  unfold res_main_v68
  refine (level_apply (k := 8) (k2 := 16) rfl (res_main_v53 V0) (res_main_v54 V0) _ _ _ _ r b).trans ?_
  unfold Cert.Bonsai.lv4
  rw [show (fun i => res_main_v53 V0 (ix2 i b)) = Cert.Bonsai.lv3 (th V0 b) from funext fun i => v53_apply V0 i b,
    show (fun i => res_main_v54 V0 (ix2 i b)) = (fun i : Fin 8 => th V0 b ⟨7 + i.val, by have := i.isLt; omega⟩)
      from funext fun i => v54_apply V0 i b]

/-- The indicators of nodes 15 … 30. -/
theorem v69_apply (j : Fin 16) (b : Fin 65536) :
    res_main_v69 V0 (ix2 j b) = th V0 b ⟨15 + j.val, by have := j.isLt; omega⟩ := by
  unfold res_main_v69
  rw [slice2_axis0_eq]
  exact v7_apply V0 _ b

/-- Level 5, the leaves: the one level the program does not name. -/
theorem v83_apply (r : Fin 32) (b : Fin 65536) :
    shapeCast _ (concatenate S16x2x65536 1 [⟨S16x1x65536, (broadcastInDim S16x1x65536 ![0, 2] bcast_S16x65536_S16x1x65536_0_2 (mulf (mulf (res_main_v68 V0) (addf (broadcastInDim S16x65536 ![] bcast_S_S16x65536 (constant S_ .f32 0x3F800000#32)) (res_main_v69 V0))) (broadcastInDim S16x65536 ![] bcast_S_S16x65536 (constant S_ .f32 0x3F000000#32))))⟩, ⟨S16x1x65536, (broadcastInDim S16x1x65536 ![0, 2] bcast_S16x65536_S16x1x65536_0_2 (mulf (mulf (res_main_v68 V0) (subf (broadcastInDim S16x65536 ![] bcast_S_S16x65536 (constant S_ .f32 0x3F800000#32)) (res_main_v69 V0))) (broadcastInDim S16x65536 ![] bcast_S_S16x65536 (constant S_ .f32 0x3F000000#32))))⟩] concatenates_S16x1x65536_S16x1x65536_S16x2x65536_d1) shapeCasts_S16x2x65536_S32x65536 (ix2 r b)
      = Cert.Bonsai.lv5 (th V0 b) r := by
  refine (level_apply (k := 16) (k2 := 32) rfl (res_main_v68 V0) (res_main_v69 V0) _ _ _ _ r b).trans ?_
  unfold Cert.Bonsai.lv5
  rw [show (fun i => res_main_v68 V0 (ix2 i b)) = Cert.Bonsai.lv4 (th V0 b) from funext fun i => v68_apply V0 i b,
    show (fun i => res_main_v69 V0 (ix2 i b)) = (fun i : Fin 16 => th V0 b ⟨15 + i.val, by have := i.isLt; omega⟩)
      from funext fun i => v69_apply V0 i b]

/-- The levels end to end: the probabilities of the 63 nodes. -/
theorem probs_apply (n : Fin 63) (b : Fin 65536) :
    concatenate S63x65536 0 [⟨S1x65536, (res_main_v8 V0)⟩, ⟨S2x65536, (res_main_v23 V0)⟩, ⟨S4x65536, (res_main_v38 V0)⟩, ⟨S8x65536, (res_main_v53 V0)⟩, ⟨S16x65536, (res_main_v68 V0)⟩, ⟨S32x65536, (shapeCast _ (concatenate S16x2x65536 1 [⟨S16x1x65536, (broadcastInDim S16x1x65536 ![0, 2] bcast_S16x65536_S16x1x65536_0_2 (mulf (mulf (res_main_v68 V0) (addf (broadcastInDim S16x65536 ![] bcast_S_S16x65536 (constant S_ .f32 0x3F800000#32)) (res_main_v69 V0))) (broadcastInDim S16x65536 ![] bcast_S_S16x65536 (constant S_ .f32 0x3F000000#32))))⟩, ⟨S16x1x65536, (broadcastInDim S16x1x65536 ![0, 2] bcast_S16x65536_S16x1x65536_0_2 (mulf (mulf (res_main_v68 V0) (subf (broadcastInDim S16x65536 ![] bcast_S_S16x65536 (constant S_ .f32 0x3F800000#32)) (res_main_v69 V0))) (broadcastInDim S16x65536 ![] bcast_S_S16x65536 (constant S_ .f32 0x3F000000#32))))⟩] concatenates_S16x1x65536_S16x1x65536_S16x2x65536_d1) shapeCasts_S16x2x65536_S32x65536)⟩] concatenates_S1x65536_S2x65536_S4x65536_S8x65536_S16x65536_S32x65536_S63x65536_d0 (ix2 n b)
      = Cert.Bonsai.probs (th V0 b) n := by
  refine (Cert.Bonsai.levels_apply _ _ _ _ _ _ _ n b).trans ?_
  unfold Cert.Bonsai.probs
  by_cases h1 : n.val < 1
  · rw [dif_pos h1, dif_pos h1]; exact v8_apply V0 _ b
  rw [dif_neg h1, dif_neg h1]
  by_cases h3 : n.val < 3
  · rw [dif_pos h3, dif_pos h3]; exact v23_apply V0 _ b
  rw [dif_neg h3, dif_neg h3]
  by_cases h7 : n.val < 7
  · rw [dif_pos h7, dif_pos h7]; exact v38_apply V0 _ b
  rw [dif_neg h7, dif_neg h7]
  by_cases h15 : n.val < 15
  · rw [dif_pos h15, dif_pos h15]; exact v53_apply V0 _ b
  rw [dif_neg h15, dif_neg h15]
  by_cases h31 : n.val < 31
  · rw [dif_pos h31, dif_pos h31]; exact v68_apply V0 _ b
  rw [dif_neg h31, dif_neg h31]
  exact v83_apply V0 _ b

end Stages

/-! ## The predictors, the broadcast over the classes, and the sum over the nodes -/

/-- A predictor matrix seen as `[63, 10, 64]`: entry `(n, c, p)` is entry `(10 n + c, p)`. -/
theorem rows_apply {α : Type} (W : S630x64.Idx → α) (h : S630x64.ShapeCasts S63x10x64) (n : Fin 63) (c : Fin 10) (p : Fin 64) :
    shapeCast S63x10x64 W h (ix3 n c p) = W (ix2 ⟨n.val * 10 + c.val, by have := n.isLt; have := c.isLt; omega⟩ p) :=
  shapeCast_apply W h _ _ (by
    rw [Shape.rowMajor_val_two, Shape.rowMajor_val_three]
    rfl)

/-- A `[63, N]` array given a middle unit axis and broadcast over the ten classes: entry `(n, c, b)` is entry `(n, b)`. -/
theorem classes_apply {α : Type} (P : S63x65536.Idx → α) (n : Fin 63) (c : Fin 10) (b : Fin 65536) :
    broadcastInDim S63x10x65536 ![0, 1, 2] bcast_S63x1x65536_S63x10x65536_0_1_2
        (broadcastInDim S63x1x65536 ![0, 2] bcast_S63x65536_S63x1x65536_0_2 P) (ix3 n c b) = P (ix2 n b) := by
  refine (broadcastInDim_apply _ _ _ _ (ix3 n 0 b) (fun a => by
    match a with
    | ⟨0, _⟩ => rfl
    | ⟨1, _⟩ => rfl
    | ⟨2, _⟩ => rfl)).trans ?_
  exact Cert.Bonsai.unitAxis_bcast_apply P _ n 0 b

/-- The sum over the node axis from the zero word: entry `(c, b)` is `∑ n, X (n, c, b)`. -/
theorem nodes_apply (X : FVec Ideal S63x10x65536 .f32) (c : Fin 10) (b : Fin 65536) :
    Host.reduceAdd X (constant (F := Ideal) S_ .f32 0x00000000#32) reducesTo_S63x10x65536_S10x65536_d0 h_S_ (ix2 c b)
      = ∑ n : Fin 63, X (ix3 n c b) := by
  have hR : S63x10x65536.Reduces [0] S10x65536 := by decide
  rw [hostReduceAdd_apply, Ideal.hostReduceAdd_single _ hR, constant_apply, Ideal.ofBits_zero_f32, zero_add]
  refine Finset.sum_congr rfl fun n _ => ?_
  exact congrArg X (funext fun a => Fin.ext (by
    match a with
    | ⟨0, _⟩ => rfl
    | ⟨1, _⟩ => rfl
    | ⟨2, _⟩ => rfl))

/-! ## The result -/

/-- The reference's result, as a term of the arguments' contents, is the specification's: entry `(c, b)` is class
    `c`'s score of sample `b`. -/
theorem result_eq (V0 : Valuation τ sig (Elt Ideal)) :
    Host.reduceAdd (mulf (mulf (broadcastInDim S63x10x65536 ![0, 1, 2] bcast_S63x1x65536_S63x10x65536_0_1_2 (broadcastInDim S63x1x65536 ![0, 2] bcast_S63x65536_S63x1x65536_0_2 (concatenate S63x65536 0 [⟨S1x65536, (res_main_v8 V0)⟩, ⟨S2x65536, (res_main_v23 V0)⟩, ⟨S4x65536, (res_main_v38 V0)⟩, ⟨S8x65536, (res_main_v53 V0)⟩, ⟨S16x65536, (res_main_v68 V0)⟩, ⟨S32x65536, (shapeCast _ (concatenate S16x2x65536 1 [⟨S16x1x65536, (broadcastInDim S16x1x65536 ![0, 2] bcast_S16x65536_S16x1x65536_0_2 (mulf (mulf (res_main_v68 V0) (addf (broadcastInDim S16x65536 ![] bcast_S_S16x65536 (constant S_ .f32 0x3F800000#32)) (res_main_v69 V0))) (broadcastInDim S16x65536 ![] bcast_S_S16x65536 (constant S_ .f32 0x3F000000#32))))⟩, ⟨S16x1x65536, (broadcastInDim S16x1x65536 ![0, 2] bcast_S16x65536_S16x1x65536_0_2 (mulf (mulf (res_main_v68 V0) (subf (broadcastInDim S16x65536 ![] bcast_S_S16x65536 (constant S_ .f32 0x3F800000#32)) (res_main_v69 V0))) (broadcastInDim S16x65536 ![] bcast_S_S16x65536 (constant S_ .f32 0x3F000000#32))))⟩] concatenates_S16x1x65536_S16x1x65536_S16x2x65536_d1) shapeCasts_S16x2x65536_S32x65536)⟩] concatenates_S1x65536_S2x65536_S4x65536_S8x65536_S16x65536_S32x65536_S63x65536_d0))) (Host.dotGeneral (φ₁ := .f32) (φ₂ := .f32) dot_S63x10x64_S64x65536_S63x10x65536_2_0_01_1_n_n none (shapeCast _ (V0 (Proc.devRef .tc main_arg2)) shapeCasts_S630x64_S63x10x64) (res_main_v3 V0))) (Host.tanh (mulf (broadcastInDim S63x10x65536 ![] bcast_S_S63x10x65536 (constant S_ .f32 0x3F800000#32)) (Host.dotGeneral (φ₁ := .f32) (φ₂ := .f32) dot_S63x10x64_S64x65536_S63x10x65536_2_0_01_1_n_n none (shapeCast _ (V0 (Proc.devRef .tc main_arg3)) shapeCasts_S630x64_S63x10x64) (res_main_v3 V0))))) (constant S_ .f32 0x00000000#32) reducesTo_S63x10x65536_S10x65536_d0 h_S_
      = Cert.Bonsai.G (V0 (Proc.devRef .tc main_arg0)) (V0 (Proc.devRef .tc main_arg1)) (V0 (Proc.devRef .tc main_arg2)) (V0 (Proc.devRef .tc main_arg3)) (V0 (Proc.devRef .tc main_arg4)) := by
  funext i
  obtain ⟨c, b, rfl⟩ : ∃ c b, i = ix2 c b := ⟨i 0, i 1, eq_ix2 i⟩
  rw [nodes_apply]
  unfold Cert.Bonsai.G Cert.Bonsai.sample Cert.Bonsai.score
  refine Finset.sum_congr rfl fun n _ => ?_
  rw [mulf_apply, mulf_apply, classes_apply, probs_apply, dot_w_apply]
  unfold Host.tanh
  rw [Ideal.hostUnary_tanh_def, mulf_apply, broadcastInDim_scalar_apply, constant_apply, dot_w_apply,
    show Ideal.ofBits .f32 0x3F800000#32 = (1 : EReal) from Cert.Bonsai.one_eq, one_mul]
  simp only [rows_apply, v3_apply]

end Cert.ReferenceIdeal.RefValue

end
-- ==== Proof.lean ====
/-
  The certificate of a tree-structured classifier layer against its array-level reference, over the extended reals.

  Both programs project each sample (a row of `X`) through `Z` and scale by `1/64`, take a branch indicator
  `tanh (10⁹ · T · xp)` for each of the 31 internal nodes of a depth-5 binary tree, build the probability of reaching each of
  the 63 nodes level by level (a left child gets `prob · (1 + th) · ½`, a right child `prob · (1 − th) · ½`), and score each
  of the 10 classes as `∑ over nodes of prob · (W · xp) · tanh (V · xp)`. The kernel does this on blocks of 2048 samples,
  with `W` and `V` regrouped class-major beforehand and the class scores computed one class at a time; the reference does
  it on the whole batch with one contraction over all nodes and classes. At the ideal values the two are the same
  function `Cert.Bonsai.G` of the arguments, entry by entry: the only algebra is that a quotient by `64` is a product
  with `1/64`, that `1 · x = x` and `0 + x = x`; sums are taken in whatever order, changes of float format are the
  identity, and no law here needs the inputs to be finite.

  The kernel's frame is the generated one at both instances; the reference's frame is its run with the result dropped;
  the idealization rewrote no operation, so `preserves` has nothing to state.
-/
import proofs.«161576_j2078764171322_1_alg».proof.Defs
import proofs.«161576_j2078764171322_1_alg».proof.Proof.Gen.Kernel
import proofs.«161576_j2078764171322_1_alg».proof.Proof.Gen.Kernel.Skeleton
import proofs.«161576_j2078764171322_1_alg».proof.Proof.Gen.Kernel.Launch
import proofs.«161576_j2078764171322_1_alg».proof.Proof.Gen.Kernel.Points
import proofs.«161576_j2078764171322_1_alg».proof.Proof.Gen.Kernel.Frame
import proofs.«161576_j2078764171322_1_alg».proof.Proof.Gen.KernelIdeal
import proofs.«161576_j2078764171322_1_alg».proof.Proof.Gen.KernelIdeal.Skeleton
import proofs.«161576_j2078764171322_1_alg».proof.Proof.Gen.KernelIdeal.Launch
import proofs.«161576_j2078764171322_1_alg».proof.Proof.Gen.KernelIdeal.Points
import proofs.«161576_j2078764171322_1_alg».proof.Proof.Gen.KernelIdeal.Frame
import proofs.«161576_j2078764171322_1_alg».proof.Proof.Gen.ReferenceIdeal
import proofs.«161576_j2078764171322_1_alg».proof.Proof.Gen.Pre_finite_inputs
import proofs.«161576_j2078764171322_1_alg».proof.Proof.Gen.KernelIdeal.Value
import proofs.«161576_j2078764171322_1_alg».proof.Proof.RefRun
import proofs.«161576_j2078764171322_1_alg».proof.Proof.KRun
import proofs.«161576_j2078764171322_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

set_option maxHeartbeats 1000000 in
/-- Both runs end with the result at `G` of the arguments, which agree. -/
theorem algebraic : Cert.algebraic_KernelIdeal_ReferenceIdeal := by
  intro m ρ m' ρ' _ hagree
  refine ⟨fun c => Cert.KernelIdeal.KRun.Gm m c, Cert.KernelIdeal.KRun.run m ρ, ?_⟩
  refine (θ_run Cert.ReferenceIdeal.defs _ _).mono (fun _ h c => ⟨(h c).1.trans ?_, (h c).2⟩)
    (Cert.ReferenceIdeal.RunP.run (F := Ideal) m' ρ')
  refine (Cert.ReferenceIdeal.RefValue.result_eq _).trans ?_
  obtain ⟨h0, h1, h2, h3, h4⟩ := hagree c
  exact congr (congr (congr (congr (congrArg Cert.Bonsai.G h0) h1) h2) h3) h4

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
